-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x1024 : Shape := ⟨2, ![4, 1024]⟩
abbrev S50000x1024 : Shape := ⟨2, ![50000, 1024]⟩
abbrev S20000 : Shape := ⟨1, ![20000]⟩
abbrev S10000 : Shape := ⟨1, ![10000]⟩
abbrev S2x1024 : Shape := ⟨2, ![2, 1024]⟩
abbrev S2 : Shape := ⟨1, ![2]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S50000x1024 : S_.BroadcastsInDim S50000x1024 (![] : Fin 0 → Fin S50000x1024.rank)
  reducesTo_S50000x1024_S_d0_1 : S50000x1024.ReducesTo [0, 1] S_
  bcast_S_S20000 : S_.BroadcastsInDim S20000 (![] : Fin 0 → Fin S20000.rank)
  reducesTo_S20000_S_d0 : S20000.ReducesTo [0] S_
  bcast_S_S10000 : S_.BroadcastsInDim S10000 (![] : Fin 0 → Fin S10000.rank)
  reducesTo_S10000_S_d0 : S10000.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S10000 .f32) (main_arg6 : FVec F S2x1024 .f32) (main_arg7 : FVec F S2 .f32) (main_v13 : IVec S_ 1) (main_v16 : IVec S20000 1) : IVec S_ 1 :=
  let main_c_5 : IVec S_ 1 := constantI S_ 1 1#1
  let main_v17 : IVec S_ 1 := (fun x v => Host.reduce IntOp.andi x v reducesTo_S20000_S_d0 h_S_) main_v16 main_c_5
  let main_v18 : IVec S_ 1 := andi main_v13 main_v17
  let main_v19 : FVec F S10000 .f32 := Host.absf main_arg5
  let main_cst_6 : FVec F S_ .f32 := constant S_ .f32 0x7F800000#32
  let main_v20 : FVec F S10000 .f32 := broadcastInDim S10000 ![] bcast_S_S10000 main_cst_6
  let main_v21 : IVec S10000 1 := cmpf .olt main_v19 main_v20
  let main_c_7 : IVec S_ 1 := constantI S_ 1 1#1
  let main_v22 : IVec S_ 1 := (fun x v => Host.reduce IntOp.andi x v reducesTo_S10000_S_d0 h_S_) main_v21 main_c_7
  let main_v23 : IVec S_ 1 := andi main_v18 main_v22
  let main_v24 : FVec F S2x1024 .f32 := Host.absf main_arg6
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S4x1024x1024 .f32) (main_arg1 : IVec S4x1024 32) (main_arg2 : FVec F S50000x1024 .f32) (main_arg3 : FVec F S20000 .f32) (main_arg4 : FVec F S20000 .f32) (main_arg5 : FVec F S10000 .f32) (main_arg6 : FVec F S2x1024 .f32) (main_arg7 : FVec F S2 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S50000x1024 .f32 := Host.absf main_arg2
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  let main_v9 : FVec F S20000 .f32 := Host.absf main_arg3
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  let main_v14 : FVec F S20000 .f32 := Host.absf main_arg4
  let main_cst_4 : FVec F S_ .f32 := constant S_ .f32 0x7F800000#32
  let main_v15 : FVec F S20000 .f32 := broadcastInDim S20000 ![] bcast_S_S20000 main_cst_4
  let main_v16 : IVec S20000 1 := cmpf .olt main_v14 main_v15
  fn_part1 (F := F) main_arg5 main_arg6 main_arg7 main_v13 main_v16
-- ==== Kernel.lean ====
abbrev S4x1024x1024 : Shape := ⟨3, ![4, 1024, 1024]⟩
abbrev S4x1024 : Shape := ⟨2, ![4, 1024]⟩
abbrev S50000x1024 : Shape := ⟨2, ![50000, 1024]⟩
abbrev S20000 : Shape := ⟨1, ![20000]⟩
abbrev S10000 : Shape := ⟨1, ![10000]⟩
abbrev S2x1024 : Shape := ⟨2, ![2, 1024]⟩
abbrev S2 : Shape := ⟨1, ![2]⟩
abbrev S4096x1024 : Shape := ⟨2, ![4096, 1024]⟩
abbrev S4096 : Shape := ⟨1, ![4096]⟩
abbrev S20000x1024 : Shape := ⟨2, ![20000, 1024]⟩
abbrev S20002x1024 : Shape := ⟨2, ![20002, 1024]⟩
abbrev S20002 : Shape := ⟨1, ![20002]⟩
abbrev S_ : Shape := ⟨0, ![]⟩
abbrev S478x1024 : Shape := ⟨2, ![478, 1024]⟩
abbrev S20480x1024 : Shape := ⟨2, ![20480, 1024]⟩
abbrev S478 : Shape := ⟨1, ![478]⟩
abbrev S20480 : Shape := ⟨1, ![20480]⟩
abbrev S4096x1 : Shape := ⟨2, ![4096, 1]⟩
abbrev S4096x2 : Shape := ⟨2, ![4096, 2]⟩
abbrev S2048x1024 : Shape := ⟨2, ![2048, 1024]⟩
abbrev S1024x1024 : Shape := ⟨2, ![1024, 1024]⟩
abbrev S1024 : Shape := ⟨1, ![1024]⟩
abbrev S2048x1 : Shape := ⟨2, ![2048, 1]⟩
abbrev S2048x2 : Shape := ⟨2, ![2048, 2]⟩
abbrev S1x1024 : Shape := ⟨2, ![1, 1024]⟩
abbrev S2048 : Shape := ⟨1, ![2048]⟩
abbrev S1024x2 : Shape := ⟨2, ![1024, 2]⟩
abbrev S1x2 : Shape := ⟨2, ![1, 2]⟩
abbrev S480x1024 : Shape := ⟨2, ![480, 1024]⟩
abbrev S480 : Shape := ⟨1, ![480]⟩
abbrev S10000x1024 : Shape := ⟨2, ![10000, 1024]⟩
abbrev S240x1024 : Shape := ⟨2, ![240, 1024]⟩
abbrev S10240x1024 : Shape := ⟨2, ![10240, 1024]⟩
abbrev S240 : Shape := ⟨1, ![240]⟩
abbrev S10240 : Shape := ⟨1, ![10240]⟩

abbrev nBuf : Space → Nat
  | .hbm => 140
  | .vmem => 42
  | .smem => 0
  | _ => 0

abbrev hbmTy0_0 (i : Nat) : BufTy := match i % 128 with
  | 0 => ⟨S4x1024x1024, .f32⟩
  | 1 => ⟨S4x1024, .i32⟩
  | 2 => ⟨S50000x1024, .f32⟩
  | 3 => ⟨S20000, .f32⟩
  | 4 => ⟨S20000, .f32⟩
  | 5 => ⟨S10000, .f32⟩
  | 6 => ⟨S2x1024, .f32⟩
  | 7 => ⟨S2, .f32⟩
  | 8 => ⟨S4096x1024, .f32⟩
  | 9 => ⟨S4096x1024, .bf16⟩
  | 10 => ⟨S4096, .i32⟩
  | 11 => ⟨S20000x1024, .f32⟩
  | 12 => ⟨S20002x1024, .f32⟩
  | 13 => ⟨S20002x1024, .bf16⟩
  | 14 => ⟨S20002, .f32⟩
  | 15 => ⟨S_, .bf16⟩
  | 16 => ⟨S478x1024, .bf16⟩
  | 17 => ⟨S20480x1024, .bf16⟩
  | 18 => ⟨S_, .f32⟩
  | 19 => ⟨S478, .f32⟩
  | 20 => ⟨S20480, .f32⟩
  | 21 => ⟨S_, .i32⟩
  | 22 => ⟨S_, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096x1, .i32⟩
  | 30 => ⟨S4096x2, .f32⟩
  | 31 => ⟨S4096x1, .f32⟩
  | 32 => ⟨S4096x1, .f32⟩
  | 33 => ⟨S4096x1, .f32⟩
  | 34 => ⟨S4096x1, .f32⟩
  | 35 => ⟨S4096x1, .f32⟩
  | 36 => ⟨S4096x1, .f32⟩
  | 37 => ⟨S1024x2, .f32⟩
  | 38 => ⟨S4096x2, .f32⟩
  | 39 => ⟨S1x2, .f32⟩
  | 40 => ⟨S4096x2, .f32⟩
  | 41 => ⟨S4096x2, .f32⟩
  | 42 => ⟨S4096x1, .f32⟩
  | 43 => ⟨S4096x1, .f32⟩
  | 44 => ⟨S4096x1, .f32⟩
  | 45 => ⟨S4096x1, .f32⟩
  | 46 => ⟨S_, .i32⟩
  | 47 => ⟨S4096, .i32⟩
  | 48 => ⟨S4096, .i1⟩
  | 49 => ⟨S4096, .f32⟩
  | 50 => ⟨S4096, .f32⟩
  | 51 => ⟨S_, .f32⟩
  | 52 => ⟨S_, .f32⟩
  | 53 => ⟨S4096, .f32⟩
  | 54 => ⟨S4096, .f32⟩
  | 55 => ⟨S20000x1024, .f32⟩
  | 56 => ⟨S20000x1024, .bf16⟩
  | 57 => ⟨S_, .bf16⟩
  | 58 => ⟨S480x1024, .bf16⟩
  | 59 => ⟨S20480x1024, .bf16⟩
  | 60 => ⟨S_, .f32⟩
  | 61 => ⟨S480, .f32⟩
  | 62 => ⟨S20480, .f32⟩
  | 63 => ⟨S_, .i32⟩
  | 64 => ⟨S4096, .i32⟩
  | 65 => ⟨S4096, .i32⟩
  | 66 => ⟨S_, .i32⟩
  | 67 => ⟨S_, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096x1, .i32⟩
  | 75 => ⟨S4096x2, .f32⟩
  | 76 => ⟨S4096x1, .f32⟩
  | 77 => ⟨S4096x1, .f32⟩
  | 78 => ⟨S4096x1, .f32⟩
  | 79 => ⟨S4096x1, .f32⟩
  | 80 => ⟨S4096x1, .f32⟩
  | 81 => ⟨S4096x1, .f32⟩
  | 82 => ⟨S4096x1, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i1⟩
  | 89 => ⟨S4096, .i1⟩
  | 90 => ⟨S4096, .f32⟩
  | 91 => ⟨S4096, .f32⟩
  | 92 => ⟨S_, .f32⟩
  | 93 => ⟨S_, .f32⟩
  | 94 => ⟨S4096, .f32⟩
  | 95 => ⟨S4096, .f32⟩
  | 96 => ⟨S4096, .f32⟩
  | 97 => ⟨S10000x1024, .f32⟩
  | 98 => ⟨S10000x1024, .bf16⟩
  | 99 => ⟨S_, .bf16⟩
  | 100 => ⟨S240x1024, .bf16⟩
  | 101 => ⟨S10240x1024, .bf16⟩
  | 102 => ⟨S_, .f32⟩
  | 103 => ⟨S240, .f32⟩
  | 104 => ⟨S10240, .f32⟩
  | 105 => ⟨S_, .i32⟩
  | 106 => ⟨S4096, .i32⟩
  | 107 => ⟨S4096, .i32⟩
  | 108 => ⟨S_, .i32⟩
  | 109 => ⟨S_, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096x1, .i32⟩
  | 117 => ⟨S4096x2, .f32⟩
  | 118 => ⟨S4096x1, .f32⟩
  | 119 => ⟨S4096x1, .f32⟩
  | 120 => ⟨S4096x1, .f32⟩
  | 121 => ⟨S4096x1, .f32⟩
  | 122 => ⟨S4096x1, .f32⟩
  | 123 => ⟨S4096x1, .f32⟩
  | 124 => ⟨S4096x1, .f32⟩
  | 125 => ⟨S_, .i32⟩
  | 126 => ⟨S4096, .i32⟩
  | 127 => ⟨S4096, .i1⟩
  | _ => ⟨S4x1024x1024, .f32⟩

abbrev hbmTy0_1 (i : Nat) : BufTy := match i % 128 with
  | 0 => ⟨S_, .i32⟩
  | 1 => ⟨S4096, .i32⟩
  | 2 => ⟨S4096, .i1⟩
  | 3 => ⟨S4096, .i1⟩
  | 4 => ⟨S4096, .f32⟩
  | 5 => ⟨S4096, .f32⟩
  | 6 => ⟨S_, .f32⟩
  | 7 => ⟨S_, .f32⟩
  | 8 => ⟨S4096, .f32⟩
  | 9 => ⟨S4096, .f32⟩
  | 10 => ⟨S4096, .f32⟩
  | 11 => ⟨S4x1024, .f32⟩
  | _ => ⟨S4x1024x1024, .f32⟩

abbrev hbmTy (i : Nat) : BufTy := match i / 128 with
  | 0 => hbmTy0_0 i
  | 1 => hbmTy0_1 i
  | _ => ⟨S4x1024x1024, .f32⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S2048x1, .i32⟩
  | .local _ .vmem, ⟨7, _⟩ => ⟨S2048x1, .i32⟩
  | .local _ .vmem, ⟨8, _⟩ => ⟨S2048x2, .f32⟩
  | .local _ .vmem, ⟨9, _⟩ => ⟨S2048x2, .f32⟩
  | .local _ .vmem, ⟨10, _⟩ => ⟨S2048x1, .f32⟩
  | .local _ .vmem, ⟨11, _⟩ => ⟨S2048x1, .f32⟩
  | .local _ .vmem, ⟨12, _⟩ => ⟨S2048x2, .f32⟩
  | .local _ .vmem, ⟨13, _⟩ => ⟨S2048x1, .f32⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024, .f32⟩
  | .local _ .vmem, ⟨19, _⟩ => ⟨S1024, .f32⟩
  | .local _ .vmem, ⟨20, _⟩ => ⟨S2048x1, .i32⟩
  | .local _ .vmem, ⟨21, _⟩ => ⟨S2048x1, .i32⟩
  | .local _ .vmem, ⟨22, _⟩ => ⟨S2048x2, .f32⟩
  | .local _ .vmem, ⟨23, _⟩ => ⟨S2048x2, .f32⟩
  | .local _ .vmem, ⟨24, _⟩ => ⟨S2048x1, .f32⟩
  | .local _ .vmem, ⟨25, _⟩ => ⟨S2048x1, .f32⟩
  | .local _ .vmem, ⟨26, _⟩ => ⟨S2048x2, .f32⟩
  | .local _ .vmem, ⟨27, _⟩ => ⟨S2048x1, .f32⟩
  | .local _ .vmem, ⟨28, _⟩ => ⟨S2048x1024, .bf16⟩
  | .local _ .vmem, ⟨29, _⟩ => ⟨S2048x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024, .f32⟩
  | .local _ .vmem, ⟨33, _⟩ => ⟨S1024, .f32⟩
  | .local _ .vmem, ⟨34, _⟩ => ⟨S2048x1, .i32⟩
  | .local _ .vmem, ⟨35, _⟩ => ⟨S2048x1, .i32⟩
  | .local _ .vmem, ⟨36, _⟩ => ⟨S2048x2, .f32⟩
  | .local _ .vmem, ⟨37, _⟩ => ⟨S2048x2, .f32⟩
  | .local _ .vmem, ⟨38, _⟩ => ⟨S2048x1, .f32⟩
  | .local _ .vmem, ⟨39, _⟩ => ⟨S2048x1, .f32⟩
  | .local _ .vmem, ⟨40, _⟩ => ⟨S2048x2, .f32⟩
  | .local _ .vmem, ⟨41, _⟩ => ⟨S2048x1, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_c_8 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v41 : Ref sig .tc := ⟨.hbm, 73, rfl⟩
abbrev main_v42 : Ref sig .tc := ⟨.hbm, 74, rfl⟩
abbrev main_v43_0 : Ref sig .tc := ⟨.hbm, 75, rfl⟩
abbrev main_v43_1 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_9 : Ref sig .tc := ⟨.hbm, 83, rfl⟩
abbrev main_v50 : Ref sig .tc := ⟨.hbm, 84, rfl⟩
abbrev main_v51 : Ref sig .tc := ⟨.hbm, 85, rfl⟩
abbrev main_c_10 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_call3_v0 : Ref sig .tc := ⟨.hbm, 93, rfl⟩
abbrev main_call3_v1 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_12 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_c_14 : Ref sig .tc := ⟨.hbm, 105, rfl⟩
abbrev main_v65 : Ref sig .tc := ⟨.hbm, 106, rfl⟩
abbrev main_v66 : Ref sig .tc := ⟨.hbm, 107, rfl⟩
abbrev main_c_15 : Ref sig .tc := ⟨.hbm, 108, rfl⟩
abbrev main_c_16 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_v67 : Ref sig .tc := ⟨.hbm, 115, rfl⟩
abbrev main_v68 : Ref sig .tc := ⟨.hbm, 116, rfl⟩
abbrev main_v69_0 : Ref sig .tc := ⟨.hbm, 117, rfl⟩
abbrev main_v69_1 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_17 : Ref sig .tc := ⟨.hbm, 125, rfl⟩
abbrev main_v76 : Ref sig .tc := ⟨.hbm, 126, rfl⟩
abbrev main_v77 : Ref sig .tc := ⟨.hbm, 127, rfl⟩
abbrev main_c_18 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_19 : Ref sig .tc := ⟨.hbm, 134, rfl⟩
abbrev main_call5_v0 : Ref sig .tc := ⟨.hbm, 135, rfl⟩
abbrev main_call5_v1 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_scratch0 : Ref sig .tc := ⟨.vmem, 40, rfl⟩
abbrev cc2_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v55 : BitVec 1 := Scalar.cmpi .eq arg1 c19_i32
  let v56 : BitVec 32 := Scalar.extui v55
  let c0_i32_21 : BitVec 32 := 0#32
  let v57 : BitVec 1 := Scalar.cmpi .ne v56 c0_i32_21
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 20], ![false, false]⟩

def k1_cond2 (i : grid1.Coords) : BitVec 1 :=
  let arg1 : BitVec 32 := BitVec.ofNat 32 (i 1).val
  let c19_i32 : BitVec 32 := 19#32
  let v55 : BitVec 1 := Scalar.cmpi .eq arg1 c19_i32
  let v56 : BitVec 32 := Scalar.extui v55
  let c0_i32_21 : BitVec 32 := 0#32
  let v57 : BitVec 1 := Scalar.cmpi .ne v56 c0_i32_21
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 10], ![false, false]⟩

def k2_cond2 (i : grid2.Coords) : BitVec 1 :=
  let arg1 : BitVec 32 := BitVec.ofNat 32 (i 1).val
  let c9_i32 : BitVec 32 := 9#32
  let v55 : BitVec 1 := Scalar.cmpi .eq arg1 c9_i32
  let v56 : BitVec 32 := Scalar.extui v55
  let c0_i32_21 : BitVec 32 := 0#32
  let v57 : BitVec 1 := Scalar.cmpi .ne v56 c0_i32_21
  v57

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2048x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S4x1024x1024_S4096x1024 : S4x1024x1024.ShapeCasts S4096x1024
  bitsLt_bf16_f32 : FTy.bits .bf16 < FTy.bits .f32
  shapeCasts_S4x1024_S4096 : S4x1024.ShapeCasts S4096
  slices_S50000x1024_S20000x1024_0_0 : S50000x1024.Slices ![0, 0] S20000x1024
  concatenates_S20000x1024_S2x1024_S20002x1024_d0 : Shape.Concatenates [S20000x1024, S2x1024] S20002x1024 0
  concatenates_S20000_S2_S20002_d0 : Shape.Concatenates [S20000, S2] S20002 0
  bcast_S_S478x1024 : S_.BroadcastsInDim S478x1024 (![] : Fin 0 → Fin S478x1024.rank)
  concatenates_S20002x1024_S478x1024_S20480x1024_d0 : Shape.Concatenates [S20002x1024, S478x1024] S20480x1024 0
  bcast_S_S478 : S_.BroadcastsInDim S478 (![] : Fin 0 → Fin S478.rank)
  concatenates_S20002_S478_S20480_d0 : Shape.Concatenates [S20002, S478] S20480 0
  bcast_S_S4096 : S_.BroadcastsInDim S4096 (![] : Fin 0 → Fin S4096.rank)
  bcast_S4096_S4096x1_0 : S4096.BroadcastsInDim S4096x1 (![0] : Fin 1 → Fin S4096x1.rank)
  concatenates_S2048x1_S2048x1_S2048x2_d1 : Shape.Concatenates [S2048x1, S2048x1] S2048x2 1
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S2048x1024 : S1x1024.Broadcasts S2048x1024
  iota_S2048x1024_d1_w32 : S2048x1024.Iotas .tc 32 [1]
  slices_S2048x2_o0_0_S2048x1 : S2048x2.Slices ![0, 0] S2048x1
  slices_S2048x2_o0_1_S2048x1 : S2048x2.Slices ![0, 1] S2048x1
  reduces_S2048x1024_S2048 : S2048x1024.Reduces [1] S2048
  shapeCasts_S2048_S2048x1 : S2048.ShapeCasts S2048x1
  broadcasts_S2048x1_S2048x1024 : S2048x1.Broadcasts S2048x1024
  slices_S4096x2_S4096x1_0_0 : S4096x2.Slices ![0, 0] S4096x1
  slices_S4096x2_S4096x1_0_1 : S4096x2.Slices ![0, 1] S4096x1
  transposes_S2x1024_S1024x2_1_0 : S2x1024.Transposes [1, 0] S1024x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  shapeCasts_S4096x1_S4096 : S4096x1.ShapeCasts S4096
  slices_S50000x1024_S20000x1024_20000_0 : S50000x1024.Slices ![20000, 0] S20000x1024
  bcast_S_S480x1024 : S_.BroadcastsInDim S480x1024 (![] : Fin 0 → Fin S480x1024.rank)
  concatenates_S20000x1024_S480x1024_S20480x1024_d0 : Shape.Concatenates [S20000x1024, S480x1024] S20480x1024 0
  bcast_S_S480 : S_.BroadcastsInDim S480 (![] : Fin 0 → Fin S480.rank)
  concatenates_S20000_S480_S20480_d0 : Shape.Concatenates [S20000, S480] S20480 0
  slices_S50000x1024_S10000x1024_40000_0 : S50000x1024.Slices ![40000, 0] S10000x1024
  bcast_S_S240x1024 : S_.BroadcastsInDim S240x1024 (![] : Fin 0 → Fin S240x1024.rank)
  concatenates_S10000x1024_S240x1024_S10240x1024_d0 : Shape.Concatenates [S10000x1024, S240x1024] S10240x1024 0
  bcast_S_S240 : S_.BroadcastsInDim S240 (![] : Fin 0 → Fin S240.rank)
  concatenates_S10000_S240_S10240_d0 : Shape.Concatenates [S10000, S240] S10240 0
  shapeCasts_S4096_S4x1024 : S4096.ShapeCasts S4x1024
  dot_S2048x1024_S1024x1024_S2048x1024_1_1_0_0_n_n_wf : DotDims.WF S2048x1024 S1024x1024 S2048x1024 [1] [1] [0] [0] [] []
  dot_S4096x1024_S1024x2_S4096x2_1_0_0_1_n_n_wf : DotDims.WF S4096x1024 S1024x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S20480x1024.size a
  hwx0_1 : ∀ i : grid0.Coords, EltTy.bits .bf16 = 32 ∨ (Rect.block (s := S20480x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S20480.size a
  hwx0_2 : ∀ i : grid0.Coords, EltTy.bits .f32 = 32 ∨ (Rect.block (s := S20480) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .i32 = 32 ∨ (Rect.block (s := S4096x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2.size a ≤ S4096x2.size a
  hwx0_4 : ∀ i : grid0.Coords, EltTy.bits .f32 = 32 ∨ (Rect.block (s := S4096x2) S2048x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x1024.size a
  hwx1_0 : ∀ i : grid1.Coords, EltTy.bits .bf16 = 32 ∨ (Rect.block (s := S4096x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S20480x1024.size a
  hwx1_1 : ∀ i : grid1.Coords, EltTy.bits .bf16 = 32 ∨ (Rect.block (s := S20480x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S20480.size a
  hwx1_2 : ∀ i : grid1.Coords, EltTy.bits .f32 = 32 ∨ (Rect.block (s := S20480) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .i32 = 32 ∨ (Rect.block (s := S4096x1) S2048x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x2.size a ≤ S4096x2.size a
  hwx1_4 : ∀ i : grid1.Coords, EltTy.bits .f32 = 32 ∨ (Rect.block (s := S4096x2) S2048x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1.size a ≤ S4096x1.size a
  hwx1_5 : ∀ i : grid1.Coords, EltTy.bits .f32 = 32 ∨ (Rect.block (s := S4096x1) S2048x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x1024.size a
  hwx2_0 : ∀ i : grid2.Coords, EltTy.bits .bf16 = 32 ∨ (Rect.block (s := S4096x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S10240x1024.size a
  hwx2_1 : ∀ i : grid2.Coords, EltTy.bits .bf16 = 32 ∨ (Rect.block (s := S10240x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S10240.size a
  hwx2_2 : ∀ i : grid2.Coords, EltTy.bits .f32 = 32 ∨ (Rect.block (s := S10240) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S4096x1.size a
  hwx2_3 : ∀ i : grid2.Coords, EltTy.bits .i32 = 32 ∨ (Rect.block (s := S4096x1) S2048x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x2.size a ≤ S4096x2.size a
  hwx2_4 : ∀ i : grid2.Coords, EltTy.bits .f32 = 32 ∨ (Rect.block (s := S4096x2) S2048x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S4096x1.size a
  hwx2_5 : ∀ i : grid2.Coords, EltTy.bits .f32 = 32 ∨ (Rect.block (s := S4096x1) S2048x1.size (cc2_transform_5 i) (hinb2_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S4096x1024_S1024x2_S4096x2_1_0_0_1_n_n : DotDims S4096x1024 S1024x2 S4096x2 where
  lhsContracting := [1]
  rhsContracting := [0]
  lhsNonContracting := [0]
  rhsNonContracting := [1]
  lhsBatch := []
  rhsBatch := []
  wf := dot_S4096x1024_S1024x2_S4096x2_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S2048x2.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S2048x2.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S2048x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v69_0) S2048x2.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v69_1) S2048x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4x1024x1024 : Shape := ⟨3, ![4, 1024, 1024]⟩
abbrev S4x1024 : Shape := ⟨2, ![4, 1024]⟩
abbrev S50000x1024 : Shape := ⟨2, ![50000, 1024]⟩
abbrev S20000 : Shape := ⟨1, ![20000]⟩
abbrev S10000 : Shape := ⟨1, ![10000]⟩
abbrev S2x1024 : Shape := ⟨2, ![2, 1024]⟩
abbrev S2 : Shape := ⟨1, ![2]⟩
abbrev S20000x1024 : Shape := ⟨2, ![20000, 1024]⟩
abbrev S20002x1024 : Shape := ⟨2, ![20002, 1024]⟩
abbrev S20002 : Shape := ⟨1, ![20002]⟩
abbrev S4x1024x20002 : Shape := ⟨3, ![4, 1024, 20002]⟩
abbrev S1x1x20002 : Shape := ⟨3, ![1, 1, 20002]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4x1024x20000 : Shape := ⟨3, ![4, 1024, 20000]⟩
abbrev S1x1x20000 : Shape := ⟨3, ![1, 1, 20000]⟩
abbrev S10000x1024 : Shape := ⟨2, ![10000, 1024]⟩
abbrev S4x1024x10000 : Shape := ⟨3, ![4, 1024, 10000]⟩
abbrev S1x1x10000 : Shape := ⟨3, ![1, 1, 10000]⟩

abbrev nBuf : Space → Nat
  | .hbm => 212
  | .vmem => 0
  | .smem => 0
  | _ => 0

abbrev hbmTy0_0 (i : Nat) : BufTy := match i % 128 with
  | 0 => ⟨S4x1024x1024, .f32⟩
  | 1 => ⟨S4x1024, .i32⟩
  | 2 => ⟨S50000x1024, .f32⟩
  | 3 => ⟨S20000, .f32⟩
  | 4 => ⟨S20000, .f32⟩
  | 5 => ⟨S10000, .f32⟩
  | 6 => ⟨S2x1024, .f32⟩
  | 7 => ⟨S2, .f32⟩
  | 8 => ⟨S20000x1024, .f32⟩
  | 9 => ⟨S20002x1024, .f32⟩
  | 10 => ⟨S20002, .f32⟩
  | 11 => ⟨S4x1024x20002, .f32⟩
  | 12 => ⟨S1x1x20002, .f32⟩
  | 13 => ⟨S4x1024x20002, .f32⟩
  | 14 => ⟨S4x1024x20002, .f32⟩
  | 15 => ⟨S_, .f32⟩
  | 16 => ⟨S4x1024, .f32⟩
  | 17 => ⟨S_, .f32⟩
  | 18 => ⟨S4x1024, .f32⟩
  | 19 => ⟨S4x1024, .f32⟩
  | 20 => ⟨S4x1024x1, .f32⟩
  | 21 => ⟨S4x1024x20002, .f32⟩
  | 22 => ⟨S4x1024x20002, .f32⟩
  | 23 => ⟨S4x1024x20002, .f32⟩
  | 24 => ⟨S_, .f32⟩
  | 25 => ⟨S4x1024, .f32⟩
  | 26 => ⟨S4x1024x1, .f32⟩
  | 27 => ⟨S4x1024x1, .f32⟩
  | 28 => ⟨S4x1024x20002, .f32⟩
  | 29 => ⟨S4x1024x20002, .f32⟩
  | 30 => ⟨S_, .i32⟩
  | 31 => ⟨S4x1024, .i32⟩
  | 32 => ⟨S4x1024, .i1⟩
  | 33 => ⟨S_, .i32⟩
  | 34 => ⟨S_, .i32⟩
  | 35 => ⟨S_, .i32⟩
  | 36 => ⟨S4x1024, .i32⟩
  | 37 => ⟨S4x1024, .i32⟩
  | 38 => ⟨S_, .i32⟩
  | 39 => ⟨S4x1024, .i32⟩
  | 40 => ⟨S4x1024, .i32⟩
  | 41 => ⟨S4x1024x1, .i32⟩
  | 42 => ⟨S_, .i32⟩
  | 43 => ⟨S4x1024x1, .i32⟩
  | 44 => ⟨S4x1024x1, .i1⟩
  | 45 => ⟨S_, .i32⟩
  | 46 => ⟨S4x1024x1, .i32⟩
  | 47 => ⟨S4x1024x1, .i32⟩
  | 48 => ⟨S4x1024x1, .i32⟩
  | 49 => ⟨S4x1024x1x1, .i32⟩
  | 50 => ⟨S1, .i32⟩
  | 51 => ⟨S_, .i32⟩
  | 52 => ⟨S4x1024x1x1, .i32⟩
  | 53 => ⟨S4x1024x1x1, .i1⟩
  | 54 => ⟨S1x1x1x1, .i32⟩
  | 55 => ⟨S4x1024x1x1, .i32⟩
  | 56 => ⟨S4x1024x1x1, .i1⟩
  | 57 => ⟨S4x1024x1x1, .i1⟩
  | 58 => ⟨S_, .i1⟩
  | 59 => ⟨S4x1024x1, .i1⟩
  | 60 => ⟨S4x1024x1, .f32⟩
  | 61 => ⟨S_, .f32⟩
  | 62 => ⟨S4x1024x1, .f32⟩
  | 63 => ⟨S4x1024x1, .f32⟩
  | 64 => ⟨S4x1024, .f32⟩
  | 65 => ⟨S4x1024, .f32⟩
  | 66 => ⟨S_, .f32⟩
  | 67 => ⟨S_, .f32⟩
  | 68 => ⟨S4x1024, .f32⟩
  | 69 => ⟨S4x1024, .f32⟩
  | 70 => ⟨S_, .i32⟩
  | 71 => ⟨S4x1024, .i32⟩
  | 72 => ⟨S4x1024, .i1⟩
  | 73 => ⟨S_, .i32⟩
  | 74 => ⟨S4x1024, .i32⟩
  | 75 => ⟨S4x1024, .i1⟩
  | 76 => ⟨S4x1024, .i1⟩
  | 77 => ⟨S20000x1024, .f32⟩
  | 78 => ⟨S4x1024x20000, .f32⟩
  | 79 => ⟨S1x1x20000, .f32⟩
  | 80 => ⟨S4x1024x20000, .f32⟩
  | 81 => ⟨S4x1024x20000, .f32⟩
  | 82 => ⟨S_, .f32⟩
  | 83 => ⟨S4x1024, .f32⟩
  | 84 => ⟨S_, .f32⟩
  | 85 => ⟨S4x1024, .f32⟩
  | 86 => ⟨S4x1024, .f32⟩
  | 87 => ⟨S4x1024x1, .f32⟩
  | 88 => ⟨S4x1024x20000, .f32⟩
  | 89 => ⟨S4x1024x20000, .f32⟩
  | 90 => ⟨S4x1024x20000, .f32⟩
  | 91 => ⟨S_, .f32⟩
  | 92 => ⟨S4x1024, .f32⟩
  | 93 => ⟨S4x1024x1, .f32⟩
  | 94 => ⟨S4x1024x1, .f32⟩
  | 95 => ⟨S4x1024x20000, .f32⟩
  | 96 => ⟨S4x1024x20000, .f32⟩
  | 97 => ⟨S_, .i32⟩
  | 98 => ⟨S4x1024, .i32⟩
  | 99 => ⟨S4x1024, .i32⟩
  | 100 => ⟨S_, .i32⟩
  | 101 => ⟨S_, .i32⟩
  | 102 => ⟨S_, .i32⟩
  | 103 => ⟨S4x1024, .i32⟩
  | 104 => ⟨S4x1024, .i32⟩
  | 105 => ⟨S_, .i32⟩
  | 106 => ⟨S4x1024, .i32⟩
  | 107 => ⟨S4x1024, .i32⟩
  | 108 => ⟨S4x1024x1, .i32⟩
  | 109 => ⟨S_, .i32⟩
  | 110 => ⟨S4x1024x1, .i32⟩
  | 111 => ⟨S4x1024x1, .i1⟩
  | 112 => ⟨S_, .i32⟩
  | 113 => ⟨S4x1024x1, .i32⟩
  | 114 => ⟨S4x1024x1, .i32⟩
  | 115 => ⟨S4x1024x1, .i32⟩
  | 116 => ⟨S4x1024x1x1, .i32⟩
  | 117 => ⟨S1, .i32⟩
  | 118 => ⟨S_, .i32⟩
  | 119 => ⟨S4x1024x1x1, .i32⟩
  | 120 => ⟨S4x1024x1x1, .i1⟩
  | 121 => ⟨S1x1x1x1, .i32⟩
  | 122 => ⟨S4x1024x1x1, .i32⟩
  | 123 => ⟨S4x1024x1x1, .i1⟩
  | 124 => ⟨S4x1024x1x1, .i1⟩
  | 125 => ⟨S_, .i1⟩
  | 126 => ⟨S4x1024x1, .i1⟩
  | 127 => ⟨S4x1024x1, .f32⟩
  | _ => ⟨S4x1024x1024, .f32⟩

abbrev hbmTy0_1 (i : Nat) : BufTy := match i % 128 with
  | 0 => ⟨S_, .f32⟩
  | 1 => ⟨S4x1024x1, .f32⟩
  | 2 => ⟨S4x1024x1, .f32⟩
  | 3 => ⟨S4x1024, .f32⟩
  | 4 => ⟨S4x1024x1, .f32⟩
  | 5 => ⟨S4x1024, .f32⟩
  | 6 => ⟨S4x1024, .f32⟩
  | 7 => ⟨S4x1024, .f32⟩
  | 8 => ⟨S_, .f32⟩
  | 9 => ⟨S_, .f32⟩
  | 10 => ⟨S4x1024, .f32⟩
  | 11 => ⟨S4x1024, .f32⟩
  | 12 => ⟨S4x1024, .f32⟩
  | 13 => ⟨S_, .i32⟩
  | 14 => ⟨S4x1024, .i32⟩
  | 15 => ⟨S4x1024, .i1⟩
  | 16 => ⟨S_, .i32⟩
  | 17 => ⟨S4x1024, .i32⟩
  | 18 => ⟨S4x1024, .i1⟩
  | 19 => ⟨S4x1024, .i1⟩
  | 20 => ⟨S10000x1024, .f32⟩
  | 21 => ⟨S4x1024x10000, .f32⟩
  | 22 => ⟨S1x1x10000, .f32⟩
  | 23 => ⟨S4x1024x10000, .f32⟩
  | 24 => ⟨S4x1024x10000, .f32⟩
  | 25 => ⟨S_, .f32⟩
  | 26 => ⟨S4x1024, .f32⟩
  | 27 => ⟨S_, .f32⟩
  | 28 => ⟨S4x1024, .f32⟩
  | 29 => ⟨S4x1024, .f32⟩
  | 30 => ⟨S4x1024x1, .f32⟩
  | 31 => ⟨S4x1024x10000, .f32⟩
  | 32 => ⟨S4x1024x10000, .f32⟩
  | 33 => ⟨S4x1024x10000, .f32⟩
  | 34 => ⟨S_, .f32⟩
  | 35 => ⟨S4x1024, .f32⟩
  | 36 => ⟨S4x1024x1, .f32⟩
  | 37 => ⟨S4x1024x1, .f32⟩
  | 38 => ⟨S4x1024x10000, .f32⟩
  | 39 => ⟨S4x1024x10000, .f32⟩
  | 40 => ⟨S_, .i32⟩
  | 41 => ⟨S4x1024, .i32⟩
  | 42 => ⟨S4x1024, .i32⟩
  | 43 => ⟨S_, .i32⟩
  | 44 => ⟨S_, .i32⟩
  | 45 => ⟨S_, .i32⟩
  | 46 => ⟨S4x1024, .i32⟩
  | 47 => ⟨S4x1024, .i32⟩
  | 48 => ⟨S_, .i32⟩
  | 49 => ⟨S4x1024, .i32⟩
  | 50 => ⟨S4x1024, .i32⟩
  | 51 => ⟨S4x1024x1, .i32⟩
  | 52 => ⟨S_, .i32⟩
  | 53 => ⟨S4x1024x1, .i32⟩
  | 54 => ⟨S4x1024x1, .i1⟩
  | 55 => ⟨S_, .i32⟩
  | 56 => ⟨S4x1024x1, .i32⟩
  | 57 => ⟨S4x1024x1, .i32⟩
  | 58 => ⟨S4x1024x1, .i32⟩
  | 59 => ⟨S4x1024x1x1, .i32⟩
  | 60 => ⟨S1, .i32⟩
  | 61 => ⟨S_, .i32⟩
  | 62 => ⟨S4x1024x1x1, .i32⟩
  | 63 => ⟨S4x1024x1x1, .i1⟩
  | 64 => ⟨S1x1x1x1, .i32⟩
  | 65 => ⟨S4x1024x1x1, .i32⟩
  | 66 => ⟨S4x1024x1x1, .i1⟩
  | 67 => ⟨S4x1024x1x1, .i1⟩
  | 68 => ⟨S_, .i1⟩
  | 69 => ⟨S4x1024x1, .i1⟩
  | 70 => ⟨S4x1024x1, .f32⟩
  | 71 => ⟨S_, .f32⟩
  | 72 => ⟨S4x1024x1, .f32⟩
  | 73 => ⟨S4x1024x1, .f32⟩
  | 74 => ⟨S4x1024, .f32⟩
  | 75 => ⟨S4x1024x1, .f32⟩
  | 76 => ⟨S4x1024, .f32⟩
  | 77 => ⟨S4x1024, .f32⟩
  | 78 => ⟨S4x1024, .f32⟩
  | 79 => ⟨S_, .f32⟩
  | 80 => ⟨S_, .f32⟩
  | 81 => ⟨S4x1024, .f32⟩
  | 82 => ⟨S4x1024, .f32⟩
  | 83 => ⟨S4x1024, .f32⟩
  | _ => ⟨S4x1024x1024, .f32⟩

abbrev hbmTy (i : Nat) : BufTy := match i / 128 with
  | 0 => hbmTy0_0 i
  | 1 => hbmTy0_1 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v10 : Ref sig .tc := ⟨.hbm, 40, rfl⟩
abbrev main_v11 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst : Ref sig .tc := ⟨.hbm, 66, rfl⟩
abbrev main_call3_v0 : Ref sig .tc := ⟨.hbm, 67, rfl⟩
abbrev main_call3_v1 : Ref sig .tc := ⟨.hbm, 68, rfl⟩
abbrev main_v15 : Ref sig .tc := ⟨.hbm, 69, rfl⟩
abbrev main_c_2 : Ref sig .tc := ⟨.hbm, 70, rfl⟩
abbrev main_v16 : Ref sig .tc := ⟨.hbm, 71, rfl⟩
abbrev main_v17 : Ref sig .tc := ⟨.hbm, 72, rfl⟩
abbrev main_c_3 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_call4_cst : Ref sig .tc := ⟨.hbm, 82, rfl⟩
abbrev main_call4_v0 : Ref sig .tc := ⟨.hbm, 83, rfl⟩
abbrev main_call4_cst_0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_v6 : Ref sig .tc := ⟨.hbm, 90, rfl⟩
abbrev main_call4_cst_1 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_v26 : Ref sig .tc := ⟨.hbm, 96, rfl⟩
abbrev main_c_4 : Ref sig .tc := ⟨.hbm, 97, rfl⟩
abbrev main_v27 : Ref sig .tc := ⟨.hbm, 98, rfl⟩
abbrev main_v28 : Ref sig .tc := ⟨.hbm, 99, rfl⟩
abbrev main_c_5 : Ref sig .tc := ⟨.hbm, 100, rfl⟩
abbrev main_c_6 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v29 : Ref sig .tc := ⟨.hbm, 107, rfl⟩
abbrev main_v30 : Ref sig .tc := ⟨.hbm, 108, rfl⟩
abbrev main_call6_c : Ref sig .tc := ⟨.hbm, 109, rfl⟩
abbrev main_call6_v0 : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_v5 : Ref sig .tc := ⟨.hbm, 116, rfl⟩
abbrev main_call6_c_1 : Ref sig .tc := ⟨.hbm, 117, rfl⟩
abbrev main_call6_c_2 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_call6_v10 : Ref sig .tc := ⟨.hbm, 123, rfl⟩
abbrev main_call6_v11 : Ref sig .tc := ⟨.hbm, 124, rfl⟩
abbrev main_call6_c_3 : Ref sig .tc := ⟨.hbm, 125, rfl⟩
abbrev main_call6_v12 : Ref sig .tc := ⟨.hbm, 126, rfl⟩
abbrev main_call6_v13 : Ref sig .tc := ⟨.hbm, 127, rfl⟩
abbrev main_call6_cst : Ref sig .tc := ⟨.hbm, 128, rfl⟩
abbrev main_call6_v14 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_cst_7 : Ref sig .tc := ⟨.hbm, 136, rfl⟩
abbrev main_call7_v0 : Ref sig .tc := ⟨.hbm, 137, rfl⟩
abbrev main_call7_v1 : Ref sig .tc := ⟨.hbm, 138, rfl⟩
abbrev main_v37 : Ref sig .tc := ⟨.hbm, 139, rfl⟩
abbrev main_v38 : Ref sig .tc := ⟨.hbm, 140, rfl⟩
abbrev main_c_8 : Ref sig .tc := ⟨.hbm, 141, rfl⟩
abbrev main_v39 : Ref sig .tc := ⟨.hbm, 142, rfl⟩
abbrev main_v40 : Ref sig .tc := ⟨.hbm, 143, rfl⟩
abbrev main_c_9 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_call8_cst : Ref sig .tc := ⟨.hbm, 153, rfl⟩
abbrev main_call8_v0 : Ref sig .tc := ⟨.hbm, 154, rfl⟩
abbrev main_call8_cst_0 : Ref sig .tc := ⟨.hbm, 155, rfl⟩
abbrev main_call8_v1 : Ref sig .tc := ⟨.hbm, 156, rfl⟩
abbrev main_call8_v2 : Ref sig .tc := ⟨.hbm, 157, rfl⟩
abbrev main_call8_v3 : Ref sig .tc := ⟨.hbm, 158, rfl⟩
abbrev main_call8_v4 : Ref sig .tc := ⟨.hbm, 159, rfl⟩
abbrev main_call8_v5 : Ref sig .tc := ⟨.hbm, 160, rfl⟩
abbrev main_call8_v6 : Ref sig .tc := ⟨.hbm, 161, rfl⟩
abbrev main_call8_cst_1 : Ref sig .tc := ⟨.hbm, 162, rfl⟩
abbrev main_call8_v7 : Ref sig .tc := ⟨.hbm, 163, rfl⟩
abbrev main_call8_v8 : Ref sig .tc := ⟨.hbm, 164, rfl⟩
abbrev main_call8_v9 : Ref sig .tc := ⟨.hbm, 165, rfl⟩
abbrev main_call8_v10 : Ref sig .tc := ⟨.hbm, 166, rfl⟩
abbrev main_v49 : Ref sig .tc := ⟨.hbm, 167, rfl⟩
abbrev main_c_10 : Ref sig .tc := ⟨.hbm, 168, rfl⟩
abbrev main_v50 : Ref sig .tc := ⟨.hbm, 169, rfl⟩
abbrev main_v51 : Ref sig .tc := ⟨.hbm, 170, rfl⟩
abbrev main_c_11 : Ref sig .tc := ⟨.hbm, 171, rfl⟩
abbrev main_c_12 : Ref sig .tc := ⟨.hbm, 172, rfl⟩
abbrev main_call9_v0 : Ref sig .tc := ⟨.hbm, 173, rfl⟩
abbrev main_call9_v1 : Ref sig .tc := ⟨.hbm, 174, rfl⟩
abbrev main_call9_v2 : Ref sig .tc := ⟨.hbm, 175, rfl⟩
abbrev main_call9_v3 : Ref sig .tc := ⟨.hbm, 176, rfl⟩
abbrev main_call9_v4 : Ref sig .tc := ⟨.hbm, 177, rfl⟩
abbrev main_v52 : Ref sig .tc := ⟨.hbm, 178, rfl⟩
abbrev main_v53 : Ref sig .tc := ⟨.hbm, 179, rfl⟩
abbrev main_call10_c : Ref sig .tc := ⟨.hbm, 180, rfl⟩
abbrev main_call10_v0 : Ref sig .tc := ⟨.hbm, 181, rfl⟩
abbrev main_call10_v1 : Ref sig .tc := ⟨.hbm, 182, rfl⟩
abbrev main_call10_c_0 : Ref sig .tc := ⟨.hbm, 183, rfl⟩
abbrev main_call10_v2 : Ref sig .tc := ⟨.hbm, 184, rfl⟩
abbrev main_call10_v3 : Ref sig .tc := ⟨.hbm, 185, rfl⟩
abbrev main_call10_v4 : Ref sig .tc := ⟨.hbm, 186, rfl⟩
abbrev main_call10_v5 : Ref sig .tc := ⟨.hbm, 187, rfl⟩
abbrev main_call10_c_1 : Ref sig .tc := ⟨.hbm, 188, rfl⟩
abbrev main_call10_c_2 : Ref sig .tc := ⟨.hbm, 189, rfl⟩
abbrev main_call10_v6 : Ref sig .tc := ⟨.hbm, 190, rfl⟩
abbrev main_call10_v7 : Ref sig .tc := ⟨.hbm, 191, rfl⟩
abbrev main_call10_v8 : Ref sig .tc := ⟨.hbm, 192, rfl⟩
abbrev main_call10_v9 : Ref sig .tc := ⟨.hbm, 193, rfl⟩
abbrev main_call10_v10 : Ref sig .tc := ⟨.hbm, 194, rfl⟩
abbrev main_call10_v11 : Ref sig .tc := ⟨.hbm, 195, rfl⟩
abbrev main_call10_c_3 : Ref sig .tc := ⟨.hbm, 196, rfl⟩
abbrev main_call10_v12 : Ref sig .tc := ⟨.hbm, 197, rfl⟩
abbrev main_call10_v13 : Ref sig .tc := ⟨.hbm, 198, rfl⟩
abbrev main_call10_cst : Ref sig .tc := ⟨.hbm, 199, rfl⟩
abbrev main_call10_v14 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_v57 : Ref sig .tc := ⟨.hbm, 204, rfl⟩
abbrev main_v58 : Ref sig .tc := ⟨.hbm, 205, rfl⟩
abbrev main_v59 : Ref sig .tc := ⟨.hbm, 206, rfl⟩
abbrev main_cst_13 : Ref sig .tc := ⟨.hbm, 207, rfl⟩
abbrev main_call11_v0 : Ref sig .tc := ⟨.hbm, 208, rfl⟩
abbrev main_call11_v1 : Ref sig .tc := ⟨.hbm, 209, rfl⟩
abbrev main_v60 : Ref sig .tc := ⟨.hbm, 210, rfl⟩
abbrev main_v61 : Ref sig .tc := ⟨.hbm, 211, rfl⟩

abbrev nD : Nat := 1
abbrev τ : Topo := Topo.v7x

variable {F : FTy → Type} [FloatOps F]

class Facts₀ : Prop where
  slices_S50000x1024_S20000x1024_0_0 : S50000x1024.Slices ![0, 0] S20000x1024
  concatenates_S20000x1024_S2x1024_S20002x1024_d0 : Shape.Concatenates [S20000x1024, S2x1024] S20002x1024 0
  concatenates_S20000_S2_S20002_d0 : Shape.Concatenates [S20000, S2] S20002 0
  bcast_S20002_S1x1x20002_2 : S20002.BroadcastsInDim S1x1x20002 (![2] : Fin 1 → Fin S1x1x20002.rank)
  bcast_S1x1x20002_S4x1024x20002_0_1_2 : S1x1x20002.BroadcastsInDim S4x1024x20002 (![0, 1, 2] : Fin 3 → Fin S4x1024x20002.rank)
  reducesTo_S4x1024x20002_S4x1024_d2 : S4x1024x20002.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x20002_0_1_2 : S4x1024x1.BroadcastsInDim S4x1024x20002 (![0, 1, 2] : Fin 3 → Fin S4x1024x20002.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  slices_S50000x1024_S20000x1024_20000_0 : S50000x1024.Slices ![20000, 0] S20000x1024
  bcast_S20000_S1x1x20000_2 : S20000.BroadcastsInDim S1x1x20000 (![2] : Fin 1 → Fin S1x1x20000.rank)
  bcast_S1x1x20000_S4x1024x20000_0_1_2 : S1x1x20000.BroadcastsInDim S4x1024x20000 (![0, 1, 2] : Fin 3 → Fin S4x1024x20000.rank)
  reducesTo_S4x1024x20000_S4x1024_d2 : S4x1024x20000.ReducesTo [2] S4x1024
  bcast_S4x1024x1_S4x1024x20000_0_1_2 : S4x1024x1.BroadcastsInDim S4x1024x20000 (![0, 1, 2] : Fin 3 → Fin S4x1024x20000.rank)
  slices_S4x1024x20002_S4x1024x1_0_0_20000 : S4x1024x20002.Slices ![0, 0, 20000] S4x1024x1
  slices_S50000x1024_S10000x1024_40000_0 : S50000x1024.Slices ![40000, 0] S10000x1024
  bcast_S10000_S1x1x10000_2 : S10000.BroadcastsInDim S1x1x10000 (![2] : Fin 1 → Fin S1x1x10000.rank)
  bcast_S1x1x10000_S4x1024x10000_0_1_2 : S1x1x10000.BroadcastsInDim S4x1024x10000 (![0, 1, 2] : Fin 3 → Fin S4x1024x10000.rank)
  reducesTo_S4x1024x10000_S4x1024_d2 : S4x1024x10000.ReducesTo [2] S4x1024
  bcast_S4x1024x1_S4x1024x10000_0_1_2 : S4x1024x1.BroadcastsInDim S4x1024x10000 (![0, 1, 2] : Fin 3 → Fin S4x1024x10000.rank)
  slices_S4x1024x20002_S4x1024x1_0_0_20001 : S4x1024x20002.Slices ![0, 0, 20001] S4x1024x1
  dot_S4x1024x1024_S20002x1024_S4x1024x20002_2_1_01_0_n_n_wf : DotDims.WF S4x1024x1024 S20002x1024 S4x1024x20002 [2] [1] [0, 1] [0] [] []
  gather_S4x1024x20002_S4x1024x1x1_S4x1024x1_n_2_01_01_2_3_111_wf : GatherDims.WF S4x1024x20002 S4x1024x1x1 S4x1024x1 [] [2] [0, 1] [2] [0, 1] 3 ![1, 1, 1]
  dot_S4x1024x1024_S20000x1024_S4x1024x20000_2_1_01_0_n_n_wf : DotDims.WF S4x1024x1024 S20000x1024 S4x1024x20000 [2] [1] [0, 1] [0] [] []
  gather_S4x1024x20000_S4x1024x1x1_S4x1024x1_n_2_01_01_2_3_111_wf : GatherDims.WF S4x1024x20000 S4x1024x1x1 S4x1024x1 [] [2] [0, 1] [2] [0, 1] 3 ![1, 1, 1]
  dot_S4x1024x1024_S10000x1024_S4x1024x10000_2_1_01_0_n_n_wf : DotDims.WF S4x1024x1024 S10000x1024 S4x1024x10000 [2] [1] [0, 1] [0] [] []
  gather_S4x1024x10000_S4x1024x1x1_S4x1024x1_n_2_01_01_2_3_111_wf : GatherDims.WF S4x1024x10000 S4x1024x1x1 S4x1024x1 [] [2] [0, 1] [2] [0, 1] 3 ![1, 1, 1]

variable [Facts₀]

def dot_S4x1024x1024_S20002x1024_S4x1024x20002_2_1_01_0_n_n : DotDims S4x1024x1024 S20002x1024 S4x1024x20002 where
  lhsContracting := [2]
  rhsContracting := [1]
  lhsNonContracting := [0, 1]
  rhsNonContracting := [0]
  lhsBatch := []
  rhsBatch := []
  wf := dot_S4x1024x1024_S20002x1024_S4x1024x20002_2_1_01_0_n_n_wf
def gather_S4x1024x20002_S4x1024x1x1_S4x1024x1_n_2_01_01_2_3_111 : GatherDims S4x1024x20002 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x20002_S4x1024x1x1_S4x1024x1_n_2_01_01_2_3_111_wf
def dot_S4x1024x1024_S20000x1024_S4x1024x20000_2_1_01_0_n_n : DotDims S4x1024x1024 S20000x1024 S4x1024x20000 where
  lhsContracting := [2]
  rhsContracting := [1]
  lhsNonContracting := [0, 1]
  rhsNonContracting := [0]
  lhsBatch := []
  rhsBatch := []
  wf := dot_S4x1024x1024_S20000x1024_S4x1024x20000_2_1_01_0_n_n_wf
def gather_S4x1024x20000_S4x1024x1x1_S4x1024x1_n_2_01_01_2_3_111 : GatherDims S4x1024x20000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x20000_S4x1024x1x1_S4x1024x1_n_2_01_01_2_3_111_wf
def dot_S4x1024x1024_S10000x1024_S4x1024x10000_2_1_01_0_n_n : DotDims S4x1024x1024 S10000x1024 S4x1024x10000 where
  lhsContracting := [2]
  rhsContracting := [1]
  lhsNonContracting := [0, 1]
  rhsNonContracting := [0]
  lhsBatch := []
  rhsBatch := []
  wf := dot_S4x1024x1024_S10000x1024_S4x1024x10000_2_1_01_0_n_n_wf
def gather_S4x1024x10000_S4x1024x1x1_S4x1024x1_n_2_01_01_2_3_111 : GatherDims S4x1024x10000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x10000_S4x1024x1x1_S4x1024x1_n_2_01_01_2_3_111_wf

class Facts : Prop extends Facts₀ where

variable [Facts]
-- ==== Proof.KI.Base0.lean ====
/-
  Call 0 of the program (the head group's vocabulary sweep), the pure side: the two branch conditions of the body as
  propositions over the grid coordinates, their closed forms over the 2 x 20 grid (the first vocabulary tile of a token half;
  the last one), and the two step functions: what one tile leaves in the packed (running maximum, running sum) scratch
  and in the picked-logit scratch, from the tile's blocks and what the scratch held.
-/
import proofs.«400642_j36009005809963_2_alg».proof.Proof.Gen.KernelIdeal.Launch
import proofs.«400642_j36009005809963_2_alg».proof.Proof.Gen.KernelIdeal.Skeleton
import proofs.«400642_j36009005809963_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-shape rectangle's offsets are zero (rank 2, rank 1). -/
theorem hz2 : (![0, 0] : Fin 2 → ℕ) = fun _ => 0 := by funext a; fin_cases a <;> rfl
theorem hz1 : (![0] : Fin 1 → ℕ) = fun _ => 0 := by funext a; fin_cases a; rfl

/-- The body resets both scratch buffers: the vocabulary coordinate is 0. -/
abbrev cond0_1 (i : grid0.Coords) : Prop := (Scalar.cmpi .ne (Scalar.extui (Scalar.cmpi .eq (BitVec.ofNat 32 (i 1).val) 0#32)) 0#32) = 1#1
/-- The body copies both scratch buffers to the outputs: the vocabulary coordinate is the last, 19. -/
abbrev cond0_2 (i : grid0.Coords) : Prop := k0_cond2 i = 1#1

theorem hcond0_1 : ∀ t : Fin cfg0.N, cond0_1 (grid0.coords t) ↔ t.val % 20 = 0 :=
  (by decide +kernel : ∀ t : Fin grid0.N, cond0_1 (grid0.coords t) ↔ t.val % 20 = 0)
theorem hcond0_2 : ∀ t : Fin cfg0.N, cond0_2 (grid0.coords t) ↔ t.val % 20 = 19 :=
  (by decide +kernel : ∀ t : Fin grid0.N, cond0_2 (grid0.coords t) ↔ t.val % 20 = 19)

/-- One tile's update of the packed scratch: column 0 the running maximum of the valid logits, column 1 the running sum
    of their exponentials rescaled to that maximum; `s` is what the scratch held. -/
def mlStep0 (i : grid0.Coords) (x : Vec F S2048x1024 .bf16) (w : Vec F S1024x1024 .bf16) (b : Vec F S1024 .f32)
    (s : Vec F S2048x2 .f32) : Vec F S2048x2 .f32 := k0_pay1 (k0_pay7 i x w b s)
/-- One tile's update of the picked-logit scratch: the logit at the row's target column, if this tile holds it, added. -/
def pkStep0 (i : grid0.Coords) (x : Vec F S2048x1024 .bf16) (w : Vec F S1024x1024 .bf16) (b : Vec F S1024 .f32)
    (pk : Vec F S2048x1 .i32) (s : Vec F S2048x1 .f32) : Vec F S2048x1 .f32 := k0_pay2 (k0_pay5 x w b) (k0_pay6 i) pk s

end Cert.KernelIdeal.Hand

end
-- ==== Proof.KI.Dat0.lean ====
/-
  Call 0's proof data. The region is entered with the unscoped buffers at contents `V`. A window's block at a grid
  point is read off its array there. The two scratch buffers are carried from point to point: `scAt0` is what they hold
  after each point, by recursion on the point: the tile's step applied to the reset values at the first vocabulary
  tile of a token half, and to what the point before left otherwise. The output windows are stored into only at the last
  tile, with the scratch contents. The region invariant holds the two scratch buffers (at anything before the first point,
  at `scAt0` of the point before afterwards), every other scoped buffer unopened, and the generator register.
-/
import proofs.«400642_j36009005809963_2_alg».proof.Proof.KI.Base0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of both scratch buffers from what they held (`s`). -/
def stepAt0 (c : Dev nD) (t : Fin cfg0.N) (s : Vec F S2048x2 .f32 × Vec F S2048x1 .f32) : Vec F S2048x2 .f32 × Vec F S2048x1 .f32 :=
  (mlStep0 (grid0.coords t) (iblk0 V c 0 t) (iblk0 V c 1 t) (iblk0 V c 2 t) s.1,
   pkStep0 (grid0.coords t) (iblk0 V c 0 t) (iblk0 V c 1 t) (iblk0 V c 2 t) (iblk0 V c 3 t) s.2)

/-- What the two scratch buffers hold after the body at position `n`. -/
def scAt0 (c : Dev nD) : (n : ℕ) → n < cfg0.N → Vec F S2048x2 .f32 × Vec F S2048x1 .f32
  | 0, hn => stepAt0 V c ⟨0, hn⟩ (k0_pay3, k0_pay4)
  | n + 1, hn => stepAt0 V c ⟨n + 1, hn⟩ (if (n + 1) % 20 = 0 then (k0_pay3, k0_pay4) else scAt0 c n (Nat.lt_of_succ_lt hn))

theorem scAt0_first (c : Dev nD) (t : Fin cfg0.N) (h : t.val % 20 = 0) :
    scAt0 V c t.val t.isLt = stepAt0 V c t (k0_pay3, k0_pay4) := by
  obtain ⟨n, hn⟩ := t
  cases n with
  | zero => rfl
  | succ n => show stepAt0 V c ⟨n + 1, hn⟩ _ = _; rw [if_pos h]

theorem scAt0_next (c : Dev nD) (t : Fin cfg0.N) (h : t.val % 20 ≠ 0) :
    scAt0 V c t.val t.isLt = stepAt0 V c t (scAt0 V c (t.val - 1) (Nat.lt_of_le_of_lt (Nat.sub_le _ _) t.isLt)) := by
  obtain ⟨n, hn⟩ := t
  cases n with
  | zero => exact absurd (Nat.zero_mod _) h
  | succ n => show stepAt0 V c ⟨n + 1, hn⟩ _ = _; rw [if_neg h]; rfl

/-- The two scratch operands as memrefs. -/
abbrev scM0_0 : Memref sig .tc .vmem S2048x2 .f32 := Memref.whole cc0_scratch0
abbrev scM0_1 : Memref sig .tc .vmem S2048x1 .f32 := Memref.whole cc0_scratch1

/-- Every scoped buffer no window stages, but the two scratch operands: unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before position `n`. -/
def Phi0 (c : Dev nD) : (n : ℕ) → n ≤ cfg0.N → sProp 𝕄
  | 0, _ => iprop((∃ d, owns (c : Thread nD τ) scM0_0 fullShare d) ∗ (∃ d, owns (c : Thread nD τ) scM0_1 fullShare d) ∗ restBut0 c ∗ ∃ r, prngReg c r)
  | n + 1, hn => iprop(owns (c : Thread nD τ) scM0_0 fullShare (scAt0 V c n hn).1 ∗ owns (c : Thread nD τ) scM0_1 fullShare (scAt0 V c n hn).2 ∗ restBut0 c ∗ ∃ r, prngReg c r)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (scAt0 V c t.val t.isLt).1
    | ⟨5, _⟩ => (scAt0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (scAt0 V c t.val t.isLt).1 := by dsimp only [dat0]
theorem after0_5 (c : Dev nD) (t : Fin cfg0.N) : (dat0 V c).after 5 t = (scAt0 V c t.val t.isLt).2 := by dsimp only [dat0]

/-- What the region hands the invariant at its entry: the generator register and every scoped buffer no window stages. -/
theorem Phi0_in (c : Dev nD) :
    iprop((∃ r, prngReg c r) ∗ Pipeline.scopedRest (Ix := Unit) (Name := ℕ) (U := UR sig nD τ) (Lvl := ℕ) (Val := Elt F) spec0 c)
      ⊢ (dat0 V c).Φ 0 := by
  -- before the first point the invariant asks for the two scratch buffers at any contents
  have h0 : (dat0 V c).Φ 0 = iprop((∃ d, owns (c : Thread nD τ) scM0_0 fullShare d) ∗ (∃ d, owns (c : Thread nD τ) scM0_1 fullShare d) ∗ restBut0 c ∗ ∃ r, prngReg c r) := rfl
  rw [h0, scopedRest0_split]
  iintro ⟨Hp, ⟨⟨%f0, H0⟩, ⟨%f1, H1⟩⟩, Hr⟩
  isplitl [H0]
  · iexists f0; rw [owns_whole]; iexact H0
  isplitl [H1]
  · iexists f1; rw [owns_whole]; iexact H1
  isplitl [Hr]
  · iexact Hr
  iexact Hp

/-- And what it gives back after the last point. -/
theorem Phi0_out (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  -- after the last point the scratch buffers hold what that point left; a whole buffer owned is its points-to
  have hN : (dat0 V c).Φ (Fin.last cfg0.N) = iprop(owns (c : Thread nD τ) scM0_0 fullShare (scAt0 V c (cfg0.N - 1) (by decide)).1 ∗ owns (c : Thread nD τ) scM0_1 fullShare (scAt0 V c (cfg0.N - 1) (by decide)).2 ∗ restBut0 c ∗ ∃ r, prngReg c r) := rfl
  rw [hN, scopedRest0_split, owns_whole, owns_whole]
  iintro ⟨H0, H1, Hr, Hp⟩
  isplitl [Hp]
  · iexact Hp
  isplitl [H0 H1]
  · isplitl [H0]
    · iexists _; iexact H0
    · iexists _; iexact H1
  iexact Hr

end Cert.KernelIdeal.Hand

end
-- ==== Proof.KI.Fam.lean ====
/-
  The three calls together. What each call leaves in the two arrays it may change is named: its pipeline's final
  arrays (the write-backs folded over the grid), read at the call's entry contents, which for a later call are themselves
  built from what the earlier calls left. The proof data family is each call's proof data at its entry contents; nothing
  is owed between cores, so no level is assigned, and beside the buffers every segment carries only the generator
  register and the core's empty account.
-/
import proofs.«400642_j36009005809963_2_alg».proof.Proof.KI.Dat0
import proofs.«400642_j36009005809963_2_alg».proof.Proof.KI.Dat1
import proofs.«400642_j36009005809963_2_alg».proof.Proof.KI.Dat2
import proofs.«400642_j36009005809963_2_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's account, empty. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-- A default for the positions of `Outs` nothing reads. -/
abbrev outsDflt : (r : Ref sig .tc) → (c : Dev nD) → Buf (Elt F) ((c : Thread nD τ).loc r) := fun r c => m ((c : Thread nD τ).loc r)

/-- Call 0's entry contents, at the TensorCore's references. -/
abbrev E3 (c : Dev nD) (b : Ref sig .tc) : Buf (Elt F) ((c : Thread nD τ).loc b) := V3 m c b
/-- What call 0 leaves: its arrays at the pipeline's final contents, everything else as entered. -/
def outs4 (r : Ref sig .tc) (c : Dev nD) : Buf (Elt F) ((c : Thread nD τ).loc r) :=
  Pipeline.withArrays spec0 c (V3 m c) (fun w => (dat0 (E3 m) c).arrAt w cfg0.N) (Proc.devRef .tc r)
def outsA : Outs (F := F) := fun J => match J with
  | 4 => outs4 m
  | _ => outsDflt m

/-- Call 1's entry contents. -/
abbrev E9 (c : Dev nD) (b : Ref sig .tc) : Buf (Elt F) ((c : Thread nD τ).loc b) := V9 m (outsA m) c b
def outs10 (r : Ref sig .tc) (c : Dev nD) : Buf (Elt F) ((c : Thread nD τ).loc r) :=
  Pipeline.withArrays spec1 c (V9 m (outsA m) c) (fun w => (dat1 (E9 m) c).arrAt w cfg1.N) (Proc.devRef .tc r)
def outsB : Outs (F := F) := fun J => match J with
  | 4 => outs4 m
  | 10 => outs10 m
  | _ => outsDflt m

/-- Call 2's entry contents. -/
abbrev E15 (c : Dev nD) (b : Ref sig .tc) : Buf (Elt F) ((c : Thread nD τ).loc b) := V15 m (outsB m) c b
def outs16 (r : Ref sig .tc) (c : Dev nD) : Buf (Elt F) ((c : Thread nD τ).loc r) :=
  Pipeline.withArrays spec2 c (V15 m (outsB m) c) (fun w => (dat2 (E15 m) c).arrAt w cfg2.N) (Proc.devRef .tc r)
/-- What the three calls leave. -/
def outsOf : Outs (F := F) := fun J => match J with
  | 4 => outs4 m
  | 10 => outs10 m
  | 16 => outs16 m
  | _ => outsDflt m

theorem V3_outs (c : Dev nD) : V4 m (outsOf m) c = V4 m (outsA m) c := rfl
theorem V9_outs (c : Dev nD) : V9 m (outsOf m) c = V9 m (outsA m) c := rfl
theorem V15_outs (c : Dev nD) : V15 m (outsOf m) c = V15 m (outsB m) c := rfl

/-- Every pipeline's proof data, each at its call's entry contents. -/
def pdats : (p : Fin 3) → (c : Dev nD) → Dat τ (Elt F) Unit ℕ (UR sig nD τ) ℕ (cfgs p) c
  | ⟨0, _⟩ => fun c => dat0 (E3 m) c
  | ⟨1, _⟩ => fun c => dat1 (E9 m) c
  | ⟨2, _⟩ => fun c => dat2 (E15 m) c

end Cert.KernelIdeal.Hand

end
-- ==== Proof.KI.Body0.lean ====
/-
  Call 0's kernel body run once, in each of its three control cases, on whole staging memrefs: at the first vocabulary tile
  of a token half it resets both scratch buffers and then updates them; at a middle tile it updates them from what they
  held; at the last tile it updates them and copies them to the two output buffers. In every case the four input
  buffers are left as found, and an output buffer the case does not store into is left as found.
-/
import proofs.«400642_j36009005809963_2_alg».proof.Proof.KI.Base0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile: neither reset nor copy-out. -/
theorem kernel0_mid (c : Dev nD) (E : Set ℕ) (i : grid0.Coords) (hc1 : ¬ cond0_1 i) (hc2 : ¬ cond0_2 i)
    (arg2 : Memref sig .tc .vmem S2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S2048x1 .i32) (harg5 : arg5.IsWhole) (arg6 : Memref sig .tc .vmem S2048x2 .f32) (harg6 : arg6.IsWhole) (arg7 : Memref sig .tc .vmem S2048x1 .f32) (harg7 : arg7.IsWhole) (arg8 : Memref sig .tc .vmem S2048x2 .f32) (harg8 : arg8.IsWhole) (arg9 : Memref sig .tc .vmem S2048x1 .f32) (harg9 : arg9.IsWhole)
    (x : Vec F S2048x1024 .bf16) (w : Vec F S1024x1024 .bf16) (b : Vec F S1024 .f32) (pk : Vec F S2048x1 .i32)
    (o6 : Vec F S2048x2 .f32) (o7 : Vec F S2048x1 .f32) (s8 : Vec F S2048x2 .f32) (s9 : Vec F S2048x1 .f32)
    (K : PUnit → sProp 𝕄) :
    iprop(owns (c : Thread nD τ) arg2 fullShare x ∗ owns (c : Thread nD τ) arg3 fullShare w ∗ owns (c : Thread nD τ) arg4 fullShare b ∗ owns (c : Thread nD τ) arg5 fullShare pk
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare x ∗ owns (c : Thread nD τ) arg3 fullShare w ∗ owns (c : Thread nD τ) arg4 fullShare b ∗ owns (c : Thread nD τ) arg5 fullShare pk
            ∗ owns (c : Thread nD τ) arg6 fullShare o6 ∗ owns (c : Thread nD τ) arg7 fullShare o7
            ∗ owns (c : Thread nD τ) arg8 fullShare (mlStep0 i x w b s8) ∗ owns (c : Thread nD τ) arg9 fullShare (pkStep0 i x w b pk s9)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  unfold owns mlStep0 pkStep0
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    (try sl_unfold_words)
    rw [View.read_writes_eq_canon _ _ _ (fun y => ⟨_, List.mem_singleton_self _, View.mem_set_unit_zero hz2 inb_S2048x2_S2048x2_0_0 y⟩), View.canon_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]
  · iexists _; isplitr
    swap; · iexact H9
    ipureintro
    (try sl_unfold_words)
    rw [View.read_writes_eq_canon _ _ _ (fun y => ⟨_, List.mem_singleton_self _, View.mem_set_unit_zero hz2 inb_S2048x1_S2048x1_0_0 y⟩), View.canon_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]

set_option maxHeartbeats 4000000 in
/-- The first tile of a token half: both scratch buffers are reset (whatever they held), then updated. -/
theorem kernel0_first (c : Dev nD) (E : Set ℕ) (i : grid0.Coords) (hc1 : cond0_1 i) (hc2 : ¬ cond0_2 i)
    (arg2 : Memref sig .tc .vmem S2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S2048x1 .i32) (harg5 : arg5.IsWhole) (arg6 : Memref sig .tc .vmem S2048x2 .f32) (harg6 : arg6.IsWhole) (arg7 : Memref sig .tc .vmem S2048x1 .f32) (harg7 : arg7.IsWhole) (arg8 : Memref sig .tc .vmem S2048x2 .f32) (harg8 : arg8.IsWhole) (arg9 : Memref sig .tc .vmem S2048x1 .f32) (harg9 : arg9.IsWhole)
    (x : Vec F S2048x1024 .bf16) (w : Vec F S1024x1024 .bf16) (b : Vec F S1024 .f32) (pk : Vec F S2048x1 .i32)
    (o6 : Vec F S2048x2 .f32) (o7 : Vec F S2048x1 .f32) (s8 : Vec F S2048x2 .f32) (s9 : Vec F S2048x1 .f32)
    (K : PUnit → sProp 𝕄) :
    iprop(owns (c : Thread nD τ) arg2 fullShare x ∗ owns (c : Thread nD τ) arg3 fullShare w ∗ owns (c : Thread nD τ) arg4 fullShare b ∗ owns (c : Thread nD τ) arg5 fullShare pk
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare x ∗ owns (c : Thread nD τ) arg3 fullShare w ∗ owns (c : Thread nD τ) arg4 fullShare b ∗ owns (c : Thread nD τ) arg5 fullShare pk
            ∗ owns (c : Thread nD τ) arg6 fullShare o6 ∗ owns (c : Thread nD τ) arg7 fullShare o7
            ∗ owns (c : Thread nD τ) arg8 fullShare (mlStep0 i x w b k0_pay3) ∗ owns (c : Thread nD τ) arg9 fullShare (pkStep0 i x w b pk k0_pay4)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  unfold owns mlStep0 pkStep0
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    (try sl_unfold_words)
    rw [View.read_writes_eq_canon _ _ _ (fun y => ⟨_, List.mem_cons_self, View.mem_set_unit_zero hz2 inb_S2048x2_S2048x2_0_0 y⟩), View.canon_cons_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]
  · iexists _; isplitr
    swap; · iexact H9
    ipureintro
    (try sl_unfold_words)
    rw [View.read_writes_eq_canon _ _ _ (fun y => ⟨_, List.mem_cons_self, View.mem_set_unit_zero hz2 inb_S2048x1_S2048x1_0_0 y⟩), View.canon_cons_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]

set_option maxHeartbeats 4000000 in
/-- The last tile of a token half: the scratch buffers are updated and copied to the two outputs (whatever those held). -/
theorem kernel0_last (c : Dev nD) (E : Set ℕ) (i : grid0.Coords) (hc1 : ¬ cond0_1 i) (hc2 : cond0_2 i)
    (arg2 : Memref sig .tc .vmem S2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S2048x1 .i32) (harg5 : arg5.IsWhole) (arg6 : Memref sig .tc .vmem S2048x2 .f32) (harg6 : arg6.IsWhole) (arg7 : Memref sig .tc .vmem S2048x1 .f32) (harg7 : arg7.IsWhole) (arg8 : Memref sig .tc .vmem S2048x2 .f32) (harg8 : arg8.IsWhole) (arg9 : Memref sig .tc .vmem S2048x1 .f32) (harg9 : arg9.IsWhole)
    (x : Vec F S2048x1024 .bf16) (w : Vec F S1024x1024 .bf16) (b : Vec F S1024 .f32) (pk : Vec F S2048x1 .i32)
    (o6 : Vec F S2048x2 .f32) (o7 : Vec F S2048x1 .f32) (s8 : Vec F S2048x2 .f32) (s9 : Vec F S2048x1 .f32)
    (K : PUnit → sProp 𝕄) :
    iprop(owns (c : Thread nD τ) arg2 fullShare x ∗ owns (c : Thread nD τ) arg3 fullShare w ∗ owns (c : Thread nD τ) arg4 fullShare b ∗ owns (c : Thread nD τ) arg5 fullShare pk
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare x ∗ owns (c : Thread nD τ) arg3 fullShare w ∗ owns (c : Thread nD τ) arg4 fullShare b ∗ owns (c : Thread nD τ) arg5 fullShare pk
            ∗ owns (c : Thread nD τ) arg6 fullShare (mlStep0 i x w b s8) ∗ owns (c : Thread nD τ) arg7 fullShare (pkStep0 i x w b pk s9)
            ∗ owns (c : Thread nD τ) arg8 fullShare (mlStep0 i x w b s8) ∗ owns (c : Thread nD τ) arg9 fullShare (pkStep0 i x w b pk s9)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  unfold owns mlStep0 pkStep0
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [View.read_writes_eq_canon _ _ _ (fun y => ⟨_, List.mem_singleton_self _, View.mem_set_unit_zero hz2 inb_S2048x2_S2048x2_0_0 y⟩), View.canon_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]
  isplitl [H7]
  · iexists _; isplitr
    swap; · iexact H7
    ipureintro
    (try sl_unfold_words)
    rw [View.read_writes_eq_canon _ _ _ (fun y => ⟨_, List.mem_singleton_self _, View.mem_set_unit_zero hz2 inb_S2048x1_S2048x1_0_0 y⟩), View.canon_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]
  isplitl [H8]
  · iexists _; isplitr
    swap; · iexact H8
    ipureintro
    (try sl_unfold_words)
    rw [View.read_writes_eq_canon _ _ _ (fun y => ⟨_, List.mem_singleton_self _, View.mem_set_unit_zero hz2 inb_S2048x2_S2048x2_0_0 y⟩), View.canon_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]
  · iexists _; isplitr
    swap; · iexact H9
    ipureintro
    (try sl_unfold_words)
    rw [View.read_writes_eq_canon _ _ _ (fun y => ⟨_, List.mem_singleton_self _, View.mem_set_unit_zero hz2 inb_S2048x1_S2048x1_0_0 y⟩), View.canon_unit_zero hz2]
    (try sl_unfold_words)
    simp only [View.readAt_eq_ld, harg2.read_unread, harg3.read_unread, harg4.read_unread, harg5.read_unread, harg6.read_unread, harg7.read_unread, harg8.read_unread, harg9.read_unread,
      View.ld_unit_zero (S := S2048x1024) hz2, View.ld_unit_zero (S := S1024x1024) hz2, View.ld_unit_zero (S := S1024) hz1, View.ld_unit_zero (S := S2048x2) hz2, View.ld_unit_zero (S := S2048x1) hz2,
      View.readCov_unit_zero (S := S2048x2) _ hz2, View.readCov_unit_zero (S := S2048x1) _ hz2]

end Cert.KernelIdeal.Hand

end
-- ==== Proof.KI.Obl0.lean ====
/-
  Call 0's body obligation: at every grid point, from the region invariant before the point and the windows' staging
  buffers as the pipeline hands them (the inputs at their blocks, an output's at what it held), the kernel body runs and
  leaves the invariant after the point and the buffers as the proof data say: the inputs at their blocks, the outputs as
  found except at the last vocabulary tile of a token half, where they take the scratch contents.
-/
import proofs.«400642_j36009005809963_2_alg».proof.Proof.KI.Dat0
import proofs.«400642_j36009005809963_2_alg».proof.Proof.KI.Body0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs hold their blocks at every point -/

/-- An input window's current staging buffer holds its block, fetched at the point or not: unfetched, the block
    index has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## Where the two outputs are idle, and where they are written back -/

/-- Off the last vocabulary tile both outputs are idle, -/
theorem idleAt0_4 (t : Fin cfg0.N) (h : ¬cond0_2 (grid0.coords t)) : cfg0.idle 4 (cfg0.grid.coords t) = true := by
  show (!(k0_cond2 (grid0.coords t) == 1#1)) = true
  rw [Bool.not_eq_true', beq_eq_false_iff_ne]; exact h
theorem idleAt0_5 (t : Fin cfg0.N) (h : ¬cond0_2 (grid0.coords t)) : cfg0.idle 5 (cfg0.grid.coords t) = true := by
  show (!(k0_cond2 (grid0.coords t) == 1#1)) = true
  rw [Bool.not_eq_true', beq_eq_false_iff_ne]; exact h
/-- on it they are live, -/
theorem liveAt0_4 (t : Fin cfg0.N) (h : cond0_2 (grid0.coords t)) : cfg0.idle 4 (cfg0.grid.coords t) = false := by
  show (!(k0_cond2 (grid0.coords t) == 1#1)) = false
  rw [Bool.not_eq_false', beq_iff_eq]; exact h
theorem liveAt0_5 (t : Fin cfg0.N) (h : cond0_2 (grid0.coords t)) : cfg0.idle 5 (cfg0.grid.coords t) = false := by
  show (!(k0_cond2 (grid0.coords t) == 1#1)) = false
  rw [Bool.not_eq_false', beq_iff_eq]; exact h
/-- and off it neither is written back. -/
theorem noFlush0_4 (t : Fin cfg0.N) (h : ¬t.val % 20 = 19) : (cfg0.win 4).flush t = false :=
  Bool.eq_false_iff.mpr fun hf => h ((flush0_4 t).mp hf)
theorem noFlush0_5 (t : Fin cfg0.N) (h : ¬t.val % 20 = 19) : (cfg0.win 5).flush t = false :=
  Bool.eq_false_iff.mpr fun hf => h ((flush0_5 t).mp hf)

/-! ## The invariant at a point's two ends -/

theorem Phi0_zero (c : Dev nD) (n : ℕ) (h : n ≤ cfg0.N) (hz : n = 0) :
    Phi0 V c n h = iprop((∃ d, owns (c : Thread nD τ) scM0_0 fullShare d) ∗ (∃ d, owns (c : Thread nD τ) scM0_1 fullShare d) ∗ restBut0 (F := F) c ∗ ∃ r, prngReg c r) := by
  subst hz; rfl

theorem Phi0_pos (c : Dev nD) (n : ℕ) (h : n ≤ cfg0.N) (hz : n ≠ 0) :
    Phi0 V c n h = iprop(owns (c : Thread nD τ) scM0_0 fullShare (scAt0 V c (n - 1) (Nat.lt_of_lt_of_le (Nat.sub_lt (Nat.pos_of_ne_zero hz) Nat.one_pos) h)).1
      ∗ owns (c : Thread nD τ) scM0_1 fullShare (scAt0 V c (n - 1) (Nat.lt_of_lt_of_le (Nat.sub_lt (Nat.pos_of_ne_zero hz) Nat.one_pos) h)).2
      ∗ restBut0 (F := F) c ∗ ∃ r, prngReg c r) := by
  cases n with
  | zero => exact absurd rfl hz
  | succ n => rfl

theorem Phi0_succ (c : Dev nD) (n : ℕ) (hn : n < cfg0.N) :
    Phi0 V c (n + 1) hn = iprop(owns (c : Thread nD τ) scM0_0 fullShare (scAt0 V c n hn).1
      ∗ owns (c : Thread nD τ) scM0_1 fullShare (scAt0 V c n hn).2 ∗ restBut0 (F := F) c ∗ ∃ r, prngReg c r) := rfl

theorem Phi0_castSucc (c : Dev nD) (t : Fin cfg0.N) :
    (dat0 V c).Φ t.castSucc = Phi0 V c t.val (Nat.le_of_lt t.isLt) := by
  dsimp only [dat0]; simp only [Fin.coe_castSucc]

/-- At any position the invariant holds both scratch buffers at some contents. -/
theorem Phi0_any (c : Dev nD) (n : ℕ) (h : n ≤ cfg0.N) :
    Phi0 V c n h ⊢ iprop((∃ d, owns (c : Thread nD τ) scM0_0 fullShare d) ∗ (∃ d, owns (c : Thread nD τ) scM0_1 fullShare d) ∗ restBut0 (F := F) c ∗ ∃ r, prngReg c r) := by
  cases n with
  | zero => exact Entails.refl _
  | succ n =>
    rw [Phi0_succ]
    iintro ⟨H0, H1, HR, Hg⟩
    isplitl [H0]; · iexists _; iexact H0
    isplitl [H1]; · iexists _; iexact H1
    isplitl [HR]; · iexact HR
    iexact Hg

/-! ## The body at a point -/

set_option maxHeartbeats 4000000 in
/-- The body at any point, the windows one by one. The inputs' buffers hold their blocks. At the first vocabulary tile
    of a token half the body resets both scratch buffers (whatever they held) and accumulates the tile; at a tile in between
    it accumulates onto what the point before left; at the last tile it accumulates and copies both to the outputs.
    Off the last tile the outputs are idle and go back as they came. The core owes nothing throughout. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t
        ∗ (dat0 V c).leavesExact 3 t ∗ (dat0 V c).leavesExact 4 t ∗ (dat0 V c).leavesExact 5 t)) := by
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ, Phi0_castSucc]
  rw [show (dat0 V c).leavesExact 0 t = owns (c : Thread nD τ) (st0_0 t) fullShare (iblk0 V c 0 t) from by
    unfold Dat.leavesExact; rw [show cfg0.idle 0 (cfg0.grid.coords t) = false from rfl, after0_0]]
  rw [show (dat0 V c).leavesExact 1 t = owns (c : Thread nD τ) (st0_1 t) fullShare (iblk0 V c 1 t) from by
    unfold Dat.leavesExact; rw [show cfg0.idle 1 (cfg0.grid.coords t) = false from rfl, after0_1]]
  rw [show (dat0 V c).leavesExact 2 t = owns (c : Thread nD τ) (st0_2 t) fullShare (iblk0 V c 2 t) from by
    unfold Dat.leavesExact; rw [show cfg0.idle 2 (cfg0.grid.coords t) = false from rfl, after0_2]]
  rw [show (dat0 V c).leavesExact 3 t = owns (c : Thread nD τ) (st0_3 t) fullShare (iblk0 V c 3 t) from by
    unfold Dat.leavesExact; rw [show cfg0.idle 3 (cfg0.grid.coords t) = false from rfl, after0_3]]
  by_cases h0 : t.val % 20 = 0
  · -- the first tile: reset, then accumulate
    have h19 : ¬t.val % 20 = 19 := by omega
    have hc1 : cond0_1 (grid0.coords t) := (hcond0_1 t).mpr h0
    have hc2 : ¬cond0_2 (grid0.coords t) := fun h => h19 ((hcond0_2 t).mp h)
    rw [Dat.leavesExact_idle (dat0 V c) 4 t (idleAt0_4 t hc2) (noFlush0_4 t h19)]
    rw [Dat.leavesExact_idle (dat0 V c) 5 t (idleAt0_5 t hc2) (noFlush0_5 t h19)]
    rw [scAt0_first V c t h0]; unfold stepAt0
    iintro ⟨HΦ, Ho, ⟨%d0, H0⟩, ⟨%d1, H1⟩, ⟨%d2, H2⟩, ⟨%d3, H3⟩, ⟨%d4, H4⟩, ⟨%d5, H5⟩⟩
    icases (Phi0_any V c t.val (Nat.le_of_lt t.isLt)) $$ HΦ with ⟨⟨%s8, HS0⟩, ⟨%s9, HS1⟩, HR, Hg⟩
    iapply (kernel0_first c Set.univ (grid0.coords t) hc1 hc2 _ _ _ _ _ _ _ _ _ _ _ _ _ _ _ _
      (iblk0 V c 0 t) (iblk0 V c 1 t) (iblk0 V c 2 t) (iblk0 V c 3 t) _ _ s8 s9 _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun e => h0 (by rw [e])
    have hc1 : ¬cond0_1 (grid0.coords t) := fun h => h0 ((hcond0_1 t).mp h)
    rw [Phi0_pos V c _ _ hz, scAt0_next V c t h0]; unfold stepAt0
    by_cases h19 : t.val % 20 = 19
    · -- the last tile: accumulate, then copy both scratch buffers out
      have hc2 : cond0_2 (grid0.coords t) := (hcond0_2 t).mpr h19
      rw [show (dat0 V c).leavesExact 4 t = owns (c : Thread nD τ) (st0_4 t) fullShare ((dat0 V c).after 4 t) from by
        unfold Dat.leavesExact; rw [liveAt0_4 t hc2]]
      rw [show (dat0 V c).leavesExact 5 t = owns (c : Thread nD τ) (st0_5 t) fullShare ((dat0 V c).after 5 t) from by
        unfold Dat.leavesExact; rw [liveAt0_5 t hc2]]
      rw [after0_4, after0_5, scAt0_next V c t h0]; unfold stepAt0
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply (kernel0_last c Set.univ (grid0.coords t) hc1 hc2 _ _ _ _ _ _ _ _ _ _ _ _ _ _ _ _
        (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a tile in between: accumulate onto what the point before left
      have hc2 : ¬cond0_2 (grid0.coords t) := fun h => h19 ((hcond0_2 t).mp h)
      rw [Dat.leavesExact_idle (dat0 V c) 4 t (idleAt0_4 t hc2) (noFlush0_4 t h19)]
      rw [Dat.leavesExact_idle (dat0 V c) 5 t (idleAt0_5 t hc2) (noFlush0_5 t h19)]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply (kernel0_mid c Set.univ (grid0.coords t) hc1 hc2 _ _ _ _ _ _ _ _ _ _ _ _ _ _ _ _
        (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
/-
  Call 0 as a segment of the program. It is entered with every unscoped buffer held at the contents before it and leaves
  them at the contents after it: its own arrays at the pipeline's final contents, every other buffer as entered. Its arrays
  are split out of the unscoped buffers at entry and put back at exit; the generator register goes into the region
  invariant and comes back; the kernel has no semaphore of its own and owes nothing.
-/
import proofs.«400642_j36009005809963_2_alg».proof.Proof.KI.Fam
import proofs.«400642_j36009005809963_2_alg».proof.Proof.KI.Obl0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- An input window's array is neither of the two buffers the call may change. -/
theorem reg0_inOff : ∀ w : Fin cfg0.W, (cfg0.win w).isOut = false →
    Pipeline.arrRef spec0 w ∉ ([main_v13_0, main_v13_1] : List (Ref sig .tc)) := by decide

/-- The output windows are the last two. -/
theorem reg0_outCases : ∀ w : Fin cfg0.W, ¬ (cfg0.win w).isOut = false → w = 4 ∨ w = 5 := by decide

/-- At the call's exit each of its arrays holds what the pipeline leaves, -/
theorem hF0 (c : Dev nD) (w : Fin cfg0.W) :
    (pdats m 0 c).arrAt w cfg0.N = V4 m (outsOf m) c (Pipeline.arrRef spec0 w) := by
  show (dat0 (E3 m) c).arrAt w cfg0.N = _
  by_cases hw : (cfg0.win w).isOut = false
  · -- an input is never written back, and the exit contents agree with the entry contents at its reference
    rw [Dat.arrAt_in _ w hw, A_eq0]
    exact (V4_of m (outsOf m) c _ (reg0_inOff w hw)).symm
  · -- an output's reference is one of the two updated, at the pipeline's final array
    rcases reg0_outCases w hw with rfl | rfl
    · have e : V4 m (outsOf m) c (Pipeline.arrRef spec0 4) = outs4 m main_v13_0 c := by
        show Function.update (Function.update (V3 m c) _ _) _ _ _ = _
        rw [Function.update_of_ne (StableHlo.devRef_ne_of_ne (by decide)), Function.update_self]; rfl
      rw [e]; unfold outs4
      exact (Pipeline.withArrays_arr spec0 launch0.win.arr_inj c (V3 m c) (fun w => (dat0 (E3 m) c).arrAt w cfg0.N) 4).symm
    · have e : V4 m (outsOf m) c (Pipeline.arrRef spec0 5) = outs4 m main_v13_1 c := by
        show Function.update (Function.update (V3 m c) _ _) _ _ _ = _
        rw [Function.update_self]; rfl
      rw [e]; unfold outs4
      exact (Pipeline.withArrays_arr spec0 launch0.win.arr_inj c (V3 m c) (fun w => (dat0 (E3 m) c).arrAt w cfg0.N) 5).symm

/-- and every other buffer what it held at entry. -/
theorem hrest0 (c : Dev nD) : ∀ b : Ref sig .tc, b ∉ Finset.univ.image (Pipeline.arrRef spec0) →
    V4 m (outsOf m) c b = V3 m c b := by
  intro b hb
  refine V4_of m (outsOf m) c b fun h => hb ?_
  -- one of the two buffers the call may change is an output window's array
  rcases List.mem_cons.mp h with rfl | h
  · exact Finset.mem_image.mpr ⟨4, Finset.mem_univ _, rfl⟩
  · rcases List.mem_cons.mp h with rfl | h
    · exact Finset.mem_image.mpr ⟨5, Finset.mem_univ _, rfl⟩
    · exact absurd h (List.not_mem_nil)

/-- An account owing nothing, whatever is recorded, is the account the pipeline starts from. -/
theorem reg0_accIn (c : Dev nD) :
    iprop(∃ W, owes (c : Thread nD τ) (0 : CellTallies nD τ sig Unit) W) ⊢ (pdats m 0 c).owesAt () 0 := by
  unfold Pipeline.Dat.owesAt Pipeline.owesWithin
  iintro ⟨%W, H⟩
  iexists W
  isplitr
  · ipureintro; exact Set.subset_union_of_subset_left (Set.subset_univ _) _
  iexact H

/-- The account the pipeline ends with owes nothing. -/
theorem reg0_accOut (c : Dev nD) :
    (pdats m 0 c).owesAt () (Fin.last cfg0.N) ⊢ iprop(∃ W, owes (c : Thread nD τ) (0 : CellTallies nD τ sig Unit) W) := by
  unfold Pipeline.Dat.owesAt Pipeline.owesWithin
  iintro ⟨%W, -, H⟩
  iexists W
  iexact H

set_option backward.isDefEq.respectTransparency.types false in
/-- The unscoped buffers at the entry contents: the call's arrays at those contents, and every other one. -/
theorem reg0_split (c : Dev nD) :
    StableHlo.held (c : Thread nD τ) (Pipeline.ucRefs τ sig) (V3 m c)
      ⊢ iprop((pdats m 0 c).arrays ((pdats m 0 c).arrAt · 0)
          ∗ Pipeline.unscopedRest (Ix := Unit) (Name := ℕ) (U := UR sig nD τ) (Lvl := ℕ) spec0 c (E3 m c)) := by
  have h := Pipeline.arrays_of_unscopedBufs (p := 0) (pcfgs (F := F)) adm (pdats m) launch0.win launch0.arr_whole c
    ((pdats m 0 c).share_full fun _ => rfl) (E3 m c) fun _ => rfl
  rw [Pipeline.unscopedBufs_held] at h
  exact h

set_option backward.isDefEq.respectTransparency.types false in
/-- The call's arrays at the pipeline's final contents and every other unscoped buffer as entered: the unscoped buffers
    at the exit contents. -/
theorem reg0_join (c : Dev nD) :
    iprop((pdats m 0 c).arrays ((pdats m 0 c).arrAt · cfg0.N)
        ∗ Pipeline.unscopedRest (Ix := Unit) (Name := ℕ) (U := UR sig nD τ) (Lvl := ℕ) spec0 c (E3 m c))
      ⊢ StableHlo.held (c : Thread nD τ) (Pipeline.ucRefs τ sig) (V4 m (outsOf m) c) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (E3 m c) (fun b => V4 m (outsOf m) c b) ((pdats m 0 c).arrAt · cfg0.N) (hF0 m c) (hrest0 m c)
  rw [Pipeline.unscopedBufs_held] at h
  exact h

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ E 0 c)
  post c := iprop(StableHlo.held (c : Thread nD τ) (Pipeline.ucRefs τ sig) (V4 m (outsOf m) c) ∗ E 1 c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hs := reg0_split m c
    iintro ⟨⟨Hbufs, Hreg, Hacc⟩, -, -⟩
    ihave Hs := hs $$ Hbufs
    icases Hs with ⟨Harr, Hoth⟩
    imodintro
    isplitl [Harr]
    · iexact Harr
    isplitr
    · -- no prefetched table
      unfold Pipeline.prefHeld
      rw [show (Finset.univ : Finset (Fin 0)) = ∅ from rfl, BI.bigSep_empty]
      iempintro
    isplitl [Hacc]
    · iapply reg0_accIn m c; iexact Hacc
    isplitl [Hreg]
    · iexact Hreg
    iexact Hoth
  hin c := by
    refine BIBase.Entails.trans ?_ (Phi0_in (E3 m) c)
    iintro ⟨Hreg, -, Hsc⟩
    isplitl [Hreg]
    · iexact Hreg
    iexact Hsc
  hout c := by
    rw [Pipeline.ownSems0_none]
    refine BIBase.Entails.trans (Phi0_out (E3 m) c) ?_
    iintro ⟨Hreg, Hsc⟩
    isplitl [Hreg]
    · iexact Hreg
    isplitr
    · iempintro
    iexact Hsc
  hexit c := by
    iintro ⟨Harr, Hacc, Hreg, Hoth⟩
    imodintro
    isplitl [Harr Hoth]
    · iapply reg0_join m c
      isplitl [Harr]
      · iexact Harr
      iexact Hoth
    isplitl [Hreg]
    · iexact Hreg
    iapply reg0_accOut m c
    iexact Hacc

end Cert.KernelIdeal.Hand

end
-- ==== Proof.KI.Run.lean ====
/-
  The program's run. The three calls' segment records and the host stretches between them chain from the launch to the
  return; every weakly fair execution terminates, the result holds what the last valuation says (the host operations
  applied to what the calls left), and every argument array is as launched.
-/
import proofs.«400642_j36009005809963_2_alg».proof.Proof.KI.Reg0
import proofs.«400642_j36009005809963_2_alg».proof.Proof.KI.Reg1
import proofs.«400642_j36009005809963_2_alg».proof.Proof.KI.Reg2
import proofs.«400642_j36009005809963_2_alg».proof.Proof.KI.RunCond
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
/-- The run, with the result named. -/
theorem run_main : θ_run defs (onTc (τ := τ) (main (F := F))) ⟨m, fun _ => 0, ρ⟩ (fun r => ∀ c : Dev nD,
      r.2.mem ((c.tc : Thread nD τ).loc main_v85) = V19 m (outsOf m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  value_cond m (Ix := Unit) (U := UR sig nD τ) (Lvl := ℕ) emb₁ () 𝒱₀ L lv (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      have hc : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) ⊢ (E (F := F) 0 c : sProp 𝕄) := fun c => by
        iintro ⟨-, HO, -, Hp, -⟩
        isplitl [Hp]
        · iexists _; iexact Hp
        iexists ∅; iexact HO
      iintro ⟨H, -⟩
      imodintro
      iapply (show ((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) : sProp 𝕄)
          ⊢ (bigSep Finset.univ (E (F := F) 0) : sProp 𝕄) from bigSep_mono fun c _ => hc c)
      iexact H)
    (hE3 := fun c => by
      iintro ⟨-, HO⟩
      iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Hand

end
-- ==== Proof.Spec.lean ====
/-
  The specification both programs are measured against: the adaptive-softmax cross entropy of a token, over the extended
  reals, as ONE function of the argument arrays.
  A token (b, s) has the hidden vector x = inputs[b, s, :]. Its head logits are the 20000 first rows of the embedding
  table dotted with x plus b0, followed by the 2 cluster rows dotted with x plus the cluster bias (20002 in all); its two
  tail groups' logits are rows 20000..39999 plus b1, and rows 40000..49999 plus b2. A row of logits f has the maximum
  `rmax f`, the sum `rsum f` of exp (f v - rmax f), and the log-probability `logprob f p = (f p - rmax f) - log (rsum f)`
  of a column p. The loss is the negated head log-probability of the label if the label is below 20000, plus, if the label is
  in [20000, 40000), the negated sum of the head log-probability of cluster column 20000 and the first tail's log-probability
  of the label's offset, plus the same for [40000, 50000) with column 20001 and the second tail; labels are signed 32-bit
  words, offsets are clipped into their group's range, and a term whose mask fails is 0.
-/
import Idealize.ShloMosaic.PureOps.Ideal
import Idealize.ShloMosaic.Lib.ValueIdx

noncomputable section

namespace Cert.Spec

open Idealize.ShloMosaic Idealize.ShloMosaic.ValueIdx

abbrev A0 : Type := (⟨3, ![4, 1024, 1024]⟩ : Shape).Idx → EReal
abbrev A1 : Type := (⟨2, ![4, 1024]⟩ : Shape).Idx → BitVec 32
abbrev A2 : Type := (⟨2, ![50000, 1024]⟩ : Shape).Idx → EReal
abbrev A3 : Type := (⟨1, ![20000]⟩ : Shape).Idx → EReal
abbrev A5 : Type := (⟨1, ![10000]⟩ : Shape).Idx → EReal
abbrev A6 : Type := (⟨2, ![2, 1024]⟩ : Shape).Idx → EReal
abbrev A7 : Type := (⟨1, ![2]⟩ : Shape).Idx → EReal

/-- A row's maximum: the fold of `max` from -inf over its columns. -/
def rmax {V : ℕ} (f : Fin V → EReal) : EReal := (Finset.univ : Finset (Fin V)).fold max ⊥ f
/-- A row's sum of exponentials, shifted by its maximum. -/
def rsum {V : ℕ} (f : Fin V → EReal) : EReal := ∑ v : Fin V, Ideal.exp (f v - rmax f)
/-- The log-probability of column `p`, as log_softmax computes it. -/
def logprob {V : ℕ} (f : Fin V → EReal) (p : Fin V) : EReal := (f p - rmax f) - Ideal.log (rsum f)

section
variable (a0 : A0) (a1 : A1) (a2 : A2) (a3 a4 : A3) (a5 : A5) (a6 : A6) (a7 : A7)

/-- x . (row v of the embedding table). -/
def dotW (b : Fin 4) (s : Fin 1024) (v : Fin 50000) : EReal := ∑ h : Fin 1024, a0 (ix3 b s h) * a2 (ix2 v h)
/-- x . (cluster row j). -/
def dotC (b : Fin 4) (s : Fin 1024) (j : Fin 2) : EReal := ∑ h : Fin 1024, a0 (ix3 b s h) * a6 (ix2 j h)

def headLogit (b : Fin 4) (s : Fin 1024) (v : Fin 20002) : EReal :=
  if h : v.val < 20000 then dotW a0 a2 b s ⟨v.val, by omega⟩ + a3 (ix1 ⟨v.val, h⟩)
  else dotC a0 a6 b s ⟨v.val - 20000, by omega⟩ + a7 (ix1 ⟨v.val - 20000, by omega⟩)
def tail1Logit (b : Fin 4) (s : Fin 1024) (v : Fin 20000) : EReal := dotW a0 a2 b s ⟨20000 + v.val, by omega⟩ + a4 (ix1 v)
def tail2Logit (b : Fin 4) (s : Fin 1024) (v : Fin 10000) : EReal := dotW a0 a2 b s ⟨40000 + v.val, by omega⟩ + a5 (ix1 v)

/-- A signed word clipped into [0, hi] (hi < 2^31), as a natural number: max with 0, then min with hi, both signed. -/
def clipNat (x : BitVec 32) (hi : ℕ) : ℕ :=
  if x.toInt < 0 then 0 else if (hi : ℤ) < x.toInt then hi else x.toInt.toNat

theorem clipNat_le (x : BitVec 32) (hi : ℕ) : clipNat x hi ≤ hi := by
  unfold clipNat; split
  · exact Nat.zero_le _
  · split
    · exact le_rfl
    · rename_i h1 h2; omega

/-- The label's column in the head group, in the first tail, in the second tail. -/
def pickH (lab : BitVec 32) : Fin 20002 := ⟨clipNat lab 19999, by have := clipNat_le lab 19999; omega⟩
def pick1 (lab : BitVec 32) : Fin 20000 := ⟨clipNat (lab - 20000#32) 19999, by have := clipNat_le (lab - 20000#32) 19999; omega⟩
def pick2 (lab : BitVec 32) : Fin 10000 := ⟨clipNat (lab - 40000#32) 9999, by have := clipNat_le (lab - 40000#32) 9999; omega⟩

/-- The three masks. -/
def isHead (lab : BitVec 32) : Prop := lab.toInt < 20000
def isTail1 (lab : BitVec 32) : Prop := 20000 ≤ lab.toInt ∧ lab.toInt < 40000
def isTail2 (lab : BitVec 32) : Prop := 40000 ≤ lab.toInt ∧ lab.toInt < 50000

open Classical in
/-- THE SPECIFICATION: the loss of token (b, s). -/
def loss (b : Fin 4) (s : Fin 1024) : EReal :=
  let lab := a1 (ix2 b s)
  let fh := headLogit a0 a2 a3 a6 a7 b s
  let f1 := tail1Logit a0 a2 a4 b s
  let f2 := tail2Logit a0 a2 a5 b s
  ((if isHead lab then -(logprob fh (pickH lab)) else 0)
    + (if isTail1 lab then -(logprob fh ⟨20000, by omega⟩ + logprob f1 (pick1 lab)) else 0))
    + (if isTail2 lab then -(logprob fh ⟨20001, by omega⟩ + logprob f2 (pick2 lab)) else 0)

/-- The specification as an array of the result's shape. -/
def G : (⟨2, ![4, 1024]⟩ : Shape).Idx → EReal := fun j => loss a0 a1 a2 a3 a4 a5 a6 a7 (j 0) (j 1)

end

end Cert.Spec

end
-- ==== Proof.KV.Args.lean ====
/-
  The argument arrays of the kernel program on a core, at the specification's types, and the statement that every float
  argument entry is a real number (what the finiteness precondition gives).
-/
import proofs.«400642_j36009005809963_2_alg».proof.Proof.KI.Fam
import proofs.«400642_j36009005809963_2_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev ar0 : Spec.A0 := m ((c : Thread nD τ).loc main_arg0)
abbrev ar1 : Spec.A1 := m ((c : Thread nD τ).loc main_arg1)
abbrev ar2 : Spec.A2 := m ((c : Thread nD τ).loc main_arg2)
abbrev ar3 : Spec.A3 := m ((c : Thread nD τ).loc main_arg3)
abbrev ar4 : Spec.A3 := m ((c : Thread nD τ).loc main_arg4)
abbrev ar5 : Spec.A5 := m ((c : Thread nD τ).loc main_arg5)
abbrev ar6 : Spec.A6 := m ((c : Thread nD τ).loc main_arg6)
abbrev ar7 : Spec.A7 := m ((c : Thread nD τ).loc main_arg7)

/-- Every entry of every float argument is a real number. -/
structure RealArgs : Prop where
  h0 : ∀ i, ∃ r : ℝ, ar0 m c i = (r : EReal)
  h2 : ∀ i, ∃ r : ℝ, ar2 m c i = (r : EReal)
  h3 : ∀ i, ∃ r : ℝ, ar3 m c i = (r : EReal)
  h4 : ∀ i, ∃ r : ℝ, ar4 m c i = (r : EReal)
  h5 : ∀ i, ∃ r : ℝ, ar5 m c i = (r : EReal)
  h6 : ∀ i, ∃ r : ℝ, ar6 m c i = (r : EReal)
  h7 : ∀ i, ∃ r : ℝ, ar7 m c i = (r : EReal)

/-- Token n's batch and position. -/
abbrev tokB (n : Fin 4096) : Fin 4 := ⟨n.val / 1024, by omega⟩
abbrev tokS (n : Fin 4096) : Fin 1024 := ⟨n.val % 1024, Nat.mod_lt _ (by decide)⟩

end Cert.KernelIdeal.Hand

end
-- ==== Proof.KV.Online.lean ====
/-
  The online softmax over vocabulary tiles, as pure mathematics on the extended reals.
  A row has padded logits g : ℕ → EReal, of which the columns below V are valid. Tile k (width B) covers the columns
  k*B … k*B + B - 1. Sweeping the tiles in order, a state (m, l, p) is updated: m to the maximum of m and the tile's valid
  logits; l to exp (m_old - m_new) * l + the sum over the tile's valid columns of exp (g - m_new); p to p + the logit of the
  tile's column whose number is the target word, if any. Started from (-inf, 0, 0) and run over all T tiles, with V ≤ T*B,
  0 < V, and every valid logit a real number, the state ends at the row's maximum over the valid columns, the sum of
  exp (g - maximum) over them, and the logit at the target (0 if the target is no column below T*B).
-/
import Idealize.ShloMosaic.PureOps.Ideal
import Mathlib.Data.Finset.Fold
import Mathlib.Algebra.BigOperators.Fin
import Mathlib.Algebra.Group.Nat.Range
import Mathlib.Data.Finset.Lattice.Fold
import Mathlib.Data.EReal.Operations
import Mathlib.Analysis.SpecialFunctions.Exp
import Mathlib.Tactic.Ring

noncomputable section

namespace Cert.Online

open Idealize.ShloMosaic

/-- The running state of one row: maximum, rescaled sum, picked logit. -/
structure St where
  m : EReal
  l : EReal
  p : EReal

/-- The start: maximum -inf, sum 0, picked 0. -/
def St.init : St := ⟨⊥, 0, 0⟩

section
variable (B V : ℕ) (g : ℕ → EReal) (tgt : BitVec 32)

/-- The maximum of tile `k`'s valid logits (-inf if it has none): a fold of `max` from -inf over the tile's columns. -/
def tileMax (k : ℕ) : EReal :=
  (Finset.univ : Finset (Fin B)).fold max ⊥ fun j => if k * B + j.val < V then g (k * B + j.val) else ⊥

/-- One tile's update. -/
def step (k : ℕ) (s : St) : St :=
  let nm := max s.m (tileMax B V g k)
  { m := nm
    l := Ideal.exp (s.m - nm) * s.l + ∑ j : Fin B, (if k * B + j.val < V then Ideal.exp (g (k * B + j.val) - nm) else 0)
    p := s.p + ∑ j : Fin B, (if BitVec.ofNat 32 (k * B + j.val) = tgt then g (k * B + j.val) else 0) }

/-- The state after tiles 0 … n-1. -/
def run : ℕ → St
  | 0 => St.init
  | n + 1 => step B V g tgt n (run n)

/-- The row's maximum over its valid columns, -/
def vmax (T : ℕ) : EReal := (Finset.univ : Finset (Fin (T * B))).fold max ⊥ fun j => if j.val < V then g j.val else ⊥
/-- its sum of exponentials shifted by that maximum, -/
def vsum (T : ℕ) : EReal := ∑ j : Fin (T * B), if j.val < V then Ideal.exp (g j.val - vmax B V g T) else 0
/-- and the logit at the target column. -/
def vpick (T : ℕ) : EReal := ∑ j : Fin (T * B), if BitVec.ofNat 32 j.val = tgt then g j.val else 0

/-! ### Folds and sums over an initial segment of the columns -/

/-- A fold of `max` from -inf over `Fin N` is the supremum over the first `N` naturals. -/
private theorem fold_fin_eq_sup_range (N : ℕ) (f : ℕ → EReal) :
    (Finset.univ : Finset (Fin N)).fold max ⊥ (fun j => f j.val) = (Finset.range N).sup f := by
  change (Finset.univ : Finset (Fin N)).sup (fun j => f j.val) = _
  apply le_antisymm
  · exact Finset.sup_le fun j _ => Finset.le_sup (f := f) (Finset.mem_range.2 j.isLt)
  · exact Finset.sup_le fun j hj =>
      Finset.le_sup (f := fun j : Fin N => f j.val) (Finset.mem_univ (⟨j, Finset.mem_range.1 hj⟩ : Fin N))

/-- The supremum over the first `a + b` naturals splits into the first `a` and the next `b`. -/
private theorem sup_range_add (a b : ℕ) (f : ℕ → EReal) :
    (Finset.range (a + b)).sup f
      = max ((Finset.range a).sup f) ((Finset.range b).sup fun j => f (a + j)) := by
  rw [Finset.range_add, Finset.sup_union, Finset.sup_map]
  rfl

/-- The exponential is nowhere negative. -/
private theorem exp_nonneg (x : EReal) : 0 ≤ Ideal.exp x := by
  induction x using EReal.rec with
  | bot => rw [Ideal.exp_bot]
  | coe r => rw [Ideal.exp_coe]; exact EReal.coe_nonneg.2 (Real.exp_pos r).le
  | top => rw [Ideal.exp_top]; exact le_top

/-- Moving the shift from `a` to `b` multiplies one exponential by `exp (a - b)` (all three real). -/
private theorem exp_shift (r a b : ℝ) :
    Ideal.exp ((a : EReal) - b) * Ideal.exp ((r : EReal) - a) = Ideal.exp ((r : EReal) - b) := by
  rw [← EReal.coe_sub, ← EReal.coe_sub, ← EReal.coe_sub, Ideal.exp_coe, Ideal.exp_coe, Ideal.exp_coe,
    ← EReal.coe_mul, ← Real.exp_add]
  congr 2
  ring

/-- The maximum of the valid logits among the first `N` columns (-inf if there is none). -/
private def rmax (N : ℕ) : EReal := (Finset.range N).sup fun j => if j < V then g j else ⊥
/-- The sum over the valid columns among the first `N` of `exp (g - m)`. -/
private def rsum (N : ℕ) (m : EReal) : EReal :=
  ∑ j ∈ Finset.range N, if j < V then Ideal.exp (g j - m) else 0
/-- The logit at the target column, if it is among the first `N`. -/
private def rpick (N : ℕ) : EReal :=
  ∑ j ∈ Finset.range N, if BitVec.ofNat 32 j = tgt then g j else 0

private theorem vmax_eq (T : ℕ) : vmax B V g T = rmax V g (T * B) :=
  fold_fin_eq_sup_range (T * B) fun j => if j < V then g j else ⊥

private theorem vsum_eq (T : ℕ) : vsum B V g T = rsum V g (T * B) (rmax V g (T * B)) := by
  unfold vsum
  rw [vmax_eq]
  exact Fin.sum_univ_eq_sum_range
    (fun j => if j < V then Ideal.exp (g j - rmax V g (T * B)) else 0) (T * B)

private theorem vpick_eq (T : ℕ) : vpick B g tgt T = rpick g tgt (T * B) :=
  Fin.sum_univ_eq_sum_range (fun j => if BitVec.ofNat 32 j = tgt then g j else 0) (T * B)

private theorem tileMax_eq (k : ℕ) :
    tileMax B V g k = (Finset.range B).sup fun j => if k * B + j < V then g (k * B + j) else ⊥ :=
  fold_fin_eq_sup_range B fun j => if k * B + j < V then g (k * B + j) else ⊥

private theorem rmax_add (a b : ℕ) :
    rmax V g (a + b)
      = max (rmax V g a) ((Finset.range b).sup fun j => if a + j < V then g (a + j) else ⊥) :=
  sup_range_add a b fun j => if j < V then g j else ⊥

private theorem rsum_add (a b : ℕ) (m : EReal) :
    rsum V g (a + b) m
      = rsum V g a m + ∑ j ∈ Finset.range b, if a + j < V then Ideal.exp (g (a + j) - m) else 0 :=
  Finset.sum_range_add (fun j => if j < V then Ideal.exp (g j - m) else 0) a b

private theorem rpick_add (a b : ℕ) :
    rpick g tgt (a + b)
      = rpick g tgt a + ∑ j ∈ Finset.range b, if BitVec.ofNat 32 (a + j) = tgt then g (a + j) else 0 :=
  Finset.sum_range_add (fun j => if BitVec.ofNat 32 j = tgt then g j else 0) a b

/-- One tile's update, with the tile's columns numbered by naturals below `B`. -/
private theorem step_eq (k : ℕ) (s : St) :
    step B V g tgt k s =
      { m := max s.m ((Finset.range B).sup fun j => if k * B + j < V then g (k * B + j) else ⊥)
        l := Ideal.exp (s.m - max s.m
                ((Finset.range B).sup fun j => if k * B + j < V then g (k * B + j) else ⊥)) * s.l
              + ∑ j ∈ Finset.range B, (if k * B + j < V then Ideal.exp (g (k * B + j) - max s.m
                ((Finset.range B).sup fun j => if k * B + j < V then g (k * B + j) else ⊥)) else 0)
        p := s.p + ∑ j ∈ Finset.range B, (if BitVec.ofNat 32 (k * B + j) = tgt then g (k * B + j) else 0) } := by
  unfold step
  simp only
  rw [tileMax_eq]
  rw [Fin.sum_univ_eq_sum_range
      (fun j => if k * B + j < V then Ideal.exp (g (k * B + j) - max s.m
        ((Finset.range B).sup fun j => if k * B + j < V then g (k * B + j) else ⊥)) else 0) B,
    Fin.sum_univ_eq_sum_range
      (fun j => if BitVec.ofNat 32 (k * B + j) = tgt then g (k * B + j) else 0) B]

section real
variable (hreal : ∀ j, j < V → ∃ r : ℝ, g j = (r : EReal))
include hreal

/-- Valid logits being real, no partial maximum is +inf. -/
private theorem rmax_lt_top (N : ℕ) : rmax V g N < ⊤ := by
  unfold rmax
  rw [Finset.sup_lt_iff bot_lt_top]
  intro j _
  split_ifs with h
  · obtain ⟨r, hr⟩ := hreal j h
    rw [hr]; exact EReal.coe_lt_top r
  · exact bot_lt_top

/-- If the partial maximum is -inf there is no valid column yet, and the partial sum is 0. -/
private theorem rsum_of_rmax_bot (N : ℕ) (m : EReal) (h : rmax V g N = ⊥) : rsum V g N m = 0 := by
  unfold rmax at h
  rw [Finset.sup_eq_bot_iff] at h
  unfold rsum
  apply Finset.sum_eq_zero
  intro j hj
  have hj' := h j hj
  split_ifs with hv
  · rw [if_pos hv] at hj'
    obtain ⟨r, hr⟩ := hreal j hv
    rw [hr] at hj'
    exact absurd hj' (EReal.coe_ne_bot r)
  · rfl

/-- Rescaling a partial sum from a real shift `a` to a real shift `b`. -/
private theorem rsum_rescale (N : ℕ) (a b : ℝ) :
    Ideal.exp ((a : EReal) - b) * rsum V g N a = rsum V g N b := by
  unfold rsum
  induction N with
  | zero => rw [Finset.range_zero, Finset.sum_empty, Finset.sum_empty, mul_zero]
  | succ n ih =>
    rw [Finset.sum_range_succ, Finset.sum_range_succ, EReal.left_distrib_of_nonneg, ih]
    · congr 1
      split_ifs with hv
      · obtain ⟨r, hr⟩ := hreal n hv
        rw [hr]; exact exp_shift r a b
      · exact mul_zero _
    · apply Finset.sum_nonneg
      intro j _
      split_ifs
      · exact exp_nonneg _
      · exact le_refl _
    · split_ifs
      · exact exp_nonneg _
      · exact le_refl _

/-- Rescaling the partial sum from the partial maximum to any later (not +inf) maximum. -/
private theorem rsum_shift (N : ℕ) (m' : EReal) (hle : rmax V g N ≤ m') (htop : m' < ⊤) :
    Ideal.exp (rmax V g N - m') * rsum V g N (rmax V g N) = rsum V g N m' := by
  by_cases hbot : rmax V g N = ⊥
  · rw [rsum_of_rmax_bot V g hreal N _ hbot, rsum_of_rmax_bot V g hreal N _ hbot, mul_zero]
  · have hm' : m' ≠ ⊥ := fun h => hbot (le_bot_iff.1 (h ▸ hle))
    have ha := EReal.coe_toReal (rmax_lt_top V g hreal N).ne hbot
    have hb := EReal.coe_toReal htop.ne hm'
    rw [← ha, ← hb]
    exact rsum_rescale V g hreal N _ _

/-- THE INVARIANT: after `n` tiles the state is the statistics of the first `n * B` columns. -/
private theorem run_inv (n : ℕ) :
    run B V g tgt n
      = ⟨rmax V g (n * B), rsum V g (n * B) (rmax V g (n * B)), rpick g tgt (n * B)⟩ := by
  induction n with
  | zero =>
    rw [Nat.zero_mul]
    simp only [run, St.init, rmax, rsum, rpick, Finset.range_zero, Finset.sup_empty, Finset.sum_empty]
  | succ n ih =>
    have hN : (n + 1) * B = n * B + B := Nat.succ_mul n B
    change step B V g tgt n (run B V g tgt n) = _
    rw [ih, step_eq, hN, rmax_add, rsum_add, rpick_add]
    simp only
    rw [rsum_shift V g hreal (n * B) _ (le_max_left _ _)
      (by rw [← rmax_add]; exact rmax_lt_top V g hreal (n * B + B))]

end real

/-- THE FOLD: after all `T` tiles the state is the row's statistics. -/
theorem run_eq (T : ℕ) (hB : 0 < B) (hV : 0 < V) (hVT : V ≤ T * B)
    (hreal : ∀ j, j < V → ∃ r : ℝ, g j = (r : EReal)) :
    run B V g tgt T = ⟨vmax B V g T, vsum B V g T, vpick B g tgt T⟩ := by
  rw [run_inv B V g tgt hreal T, vmax_eq, vsum_eq, vpick_eq]

end

end Cert.Online

end
-- ==== Proof.KV.Tile0.lean ====
/-
  One vocabulary tile of call 0, read at an index at the ideal values. For a row r of the block, the tile's logit of column
  j is the row of x dotted with row j of the weight tile, plus the bias; the body's update of the packed scratch at (r, 0)
  and (r, 1), and of the picked-logit scratch at (r, 0), is the online-softmax step of the row's state, over any padded
  logit function that agrees with the tile's logits on the tile's columns; the reset values are (-inf, 0) and 0.
-/
import proofs.«400642_j36009005809963_2_alg».proof.Proof.KI.Base0
import proofs.«400642_j36009005809963_2_alg».proof.Proof.KV.Online
import Idealize.ShloMosaic.PureOps.Ideal.Laws
import Idealize.ShloMosaic.Lib.ValueIdx
import Idealize.ShloMosaic.Lib.ValueLayout
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! The helper facts of this tile live in their own namespace. -/
namespace Tile0

/-! ### Small facts: the reduced axis put back, the pattern of -inf, the layout operations at an index -/

/-- Row `r` of the reduced shape with column `k` put back on the reduced axis. -/
theorem lift0 (r : Fin 2048) (k : Fin 1024) :
    reduces_S2048x1024_S2048.lift (ix1 r) k = ix2 r k := by
  funext c; apply Fin.ext
  match c with
  | ⟨0, _⟩ => rfl
  | ⟨1, _⟩ => rfl

/-- The pattern 0xFF800000 is -inf. -/
theorem ninf0 : Ideal.ofBits .f32 0xFF800000#32 = ⊥ := by
  simp [Ideal.ofBits, Ideal.ieee]

section Layout
variable {α : Type}

/-- Two columns side by side, read in column 0: the first. -/
theorem cat0_left (u v : (S2048x1).Idx → α) (r : Fin 2048) :
    concatenate S2048x2 1 [⟨S2048x1, u⟩, ⟨S2048x1, v⟩] concatenates_S2048x1_S2048x1_S2048x2_d1 (ix2 r (0 : Fin 2))
      = u (ix2 r (0 : Fin 1)) :=
  concatenate_pair_apply_left 1 u v _ (ix2 r (0 : Fin 2)) rfl (ix2 r (0 : Fin 1)) (fun c => by
    match c with
    | ⟨0, _⟩ => rfl
    | ⟨1, _⟩ => rfl)

/-- Two columns side by side, read in column 1: the second. -/
theorem cat0_right (u v : (S2048x1).Idx → α) (r : Fin 2048) :
    concatenate S2048x2 1 [⟨S2048x1, u⟩, ⟨S2048x1, v⟩] concatenates_S2048x1_S2048x1_S2048x2_d1 (ix2 r (1 : Fin 2))
      = v (ix2 r (0 : Fin 1)) :=
  concatenate_pair_apply_right 1 u v _ (ix2 r (1 : Fin 2)) rfl rfl (ix2 r (0 : Fin 1)) (fun c hc => by
    match c with
    | ⟨0, _⟩ => rfl
    | ⟨1, _⟩ => exact absurd rfl hc) rfl

/-- Column 0 of a two-column array. -/
theorem col0_0 (s : (S2048x2).Idx → α) (r : Fin 2048) :
    extractStridedSlice S2048x1 ![0, 0] s slices_S2048x2_o0_0_S2048x1 (ix2 r (0 : Fin 1)) = s (ix2 r (0 : Fin 2)) :=
  slice2_axis1_apply 0 s _ r (0 : Fin 1) (0 : Fin 2) rfl

/-- Column 1 of a two-column array. -/
theorem col0_1 (s : (S2048x2).Idx → α) (r : Fin 2048) :
    extractStridedSlice S2048x1 ![0, 1] s slices_S2048x2_o0_1_S2048x1 (ix2 r (0 : Fin 1)) = s (ix2 r (1 : Fin 2)) :=
  slice2_axis1_apply 1 s _ r (0 : Fin 1) (1 : Fin 2) rfl

/-- A vector of rows viewed as one column. -/
theorem ascol0 (v : (S2048).Idx → α) (r : Fin 2048) :
    shapeCast S2048x1 v shapeCasts_S2048_S2048x1 (ix2 r (0 : Fin 1)) = v (ix1 r) :=
  shapeCast_apply v _ _ _ (by
    rw [Shape.rowMajor_val_two, Shape.rowMajor_val_one]
    show r.val = r.val * 1 + 0
    omega)

/-- One column spread over the tile's columns. -/
theorem spread0 (v : (S2048x1).Idx → α) (r : Fin 2048) (j : Fin 1024) :
    broadcastTo S2048x1024 v broadcasts_S2048x1_S2048x1024 (ix2 r j) = v (ix2 r (0 : Fin 1)) :=
  broadcastTo_apply v _ (ix2 r j) (ix2 r (0 : Fin 1)) (fun c => by
    match c with
    | ⟨0, _⟩ => rfl
    | ⟨1, _⟩ => rfl)

end Layout

/-! ### The tile's logits: the block product at an index -/

/-- The operands' indices of the block product, axis by axis: the left operand reads the result's row and the contraction
    position, the right operand the result's column and the contraction position. -/
theorem lhs0_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
theorem lhs0_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs0_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
theorem rhs0_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The block product into the zero accumulator, at row `r` and column `j`: row `r` of the left block dotted with row `j`
    of the right block. -/
theorem mm0 (x : FVec Ideal S2048x1024 .bf16) (w : FVec Ideal S1024x1024 .bf16) (r : Fin 2048) (j : Fin 1024) :
    matmul dot_S2048x1024_S1024x1024_S2048x1024_1_1_0_0_n_n none x w (constant (F := Ideal) S2048x1024 .f32 0x00000000#32) (ix2 r j)
      = ∑ k : Fin 1024, x (ix2 r k) * w (ix2 j k) := by
  simp only [matmul]
  rw [Ideal.matmul_constant_zero_apply,
    ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 r j)
      ((contrEquiv1 dot_S2048x1024_S1024x1024_S2048x1024_1_1_0_0_n_n 1024 rfl rfl).symm k) = ix2 r k :=
    funext fun a => Fin.ext (by
      match a with
      | ⟨0, _⟩ => exact lhs0_0 _ _
      | ⟨1, _⟩ => exact (lhs0_1 _ _).trans hk)
  have er : dot_S2048x1024_S1024x1024_S2048x1024_1_1_0_0_n_n.rhsIdx (ix2 r j)
      ((contrEquiv1 dot_S2048x1024_S1024x1024_S2048x1024_1_1_0_0_n_n 1024 rfl rfl).symm k) = ix2 j k :=
    funext fun a => Fin.ext (by
      match a with
      | ⟨0, _⟩ => exact rhs0_0 _ _
      | ⟨1, _⟩ => exact (rhs0_1 _ _).trans hk)
  rw [el, er]

/-! ### The columns' numbers and the two comparisons -/

/-- The column's number as a word: tile `(i 1)` starts at column `(i 1) * 1024`. -/
theorem colword0 (i : grid0.Coords) (r : Fin 2048) (j : Fin 1024) :
    k0_pay6 i (ix2 r j) = BitVec.ofNat 32 ((i 1).val * 1024 + j.val) := by
  unfold k0_pay6
  show IntOp.addi (Scalar.muli (BitVec.ofNat 32 (i 1).val) 1024#32)
    (iota .tc S2048x1024 32 [1] iota_S2048x1024_d1_w32 (ix2 r j)) = _
  rw [iota_single_apply]
  show BitVec.ofNat 32 (i 1).val * BitVec.ofNat 32 1024 + BitVec.ofNat 32 j.val = _
  rw [BitVec.ofNat_add, BitVec.ofNat_mul]

/-- A natural below 2^31 is its word read as a signed integer. -/
theorem toInt_word0 (n : ℕ) (hn : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The signed comparison of two small words is the comparison of the naturals. -/
theorem slt_word0 (n V : ℕ) (hn : n < 2 ^ 31) (hV : V < 2 ^ 31) :
    IntOp.cmpi .slt (BitVec.ofNat 32 n) (BitVec.ofNat 32 V) = if n < V then 1#1 else 0#1 := by
  show BitVec.ofBool ((BitVec.ofNat 32 n).slt (BitVec.ofNat 32 V)) = _
  have h : (BitVec.ofNat 32 n).slt (BitVec.ofNat 32 V) = decide (n < V) := by
    rw [BitVec.slt, toInt_word0 n hn, toInt_word0 V hV]
    exact decide_eq_decide.2 Int.ofNat_lt
  rw [h]
  by_cases hlt : n < V
  · rw [if_pos hlt, decide_eq_true hlt]; rfl
  · rw [if_neg hlt, decide_eq_false hlt]; rfl

/-- The equality comparison of two words. -/
theorem eq_word0 (a b : BitVec 32) : IntOp.cmpi .eq a b = if a = b then 1#1 else 0#1 := by
  show BitVec.ofBool (a == b) = _
  by_cases h : a = b
  · rw [if_pos h, h, beq_self_eq_true]; rfl
  · rw [if_neg h, beq_eq_false_iff_ne.2 h]; rfl

/-- A select on a decided bit is the `if`. -/
theorem select_ite0 {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- The validity bit of column `j` of the tile: the column's number is below the vocabulary's size. -/
theorem valid0 (i : grid0.Coords) (r : Fin 2048) (j : Fin 1024) :
    cmpi .slt (k0_pay6 i) (broadcast S2048x1024 20002#32) (ix2 r j)
      = if (i 1).val * 1024 + j.val < 20002 then 1#1 else 0#1 := by
  show IntOp.cmpi .slt (k0_pay6 i (ix2 r j)) (BitVec.ofNat 32 20002) = _
  rw [colword0]
  have hk : (i 1).val < 20 := Nat.lt_of_lt_of_le (i 1).isLt (by decide)
  exact slt_word0 _ _ (by omega) (by norm_num)

/-! ### The two row reductions -/

theorem rowmax0 (src : FVec Ideal S2048x1024 .f32) (r : Fin 2048) (hφ : FKind.Formats .f32)
    (hacc : (0xFF800000#32 : BitVec 32) = 0xFF800000#32) :
    multiReduction .maximumf [1] S2048 src 0xFF800000#32 reduces_S2048x1024_S2048 hφ hacc (ix1 r)
      = (Finset.univ : Finset (Fin 1024)).fold max ⊥ (fun j => src (ix2 r j)) := by
  refine (Ideal.multiReduction_maximumf_single src 0xFF800000#32 reduces_S2048x1024_S2048 hφ hacc (ix1 r)).trans ?_
  rw [Ideal.ofBits_def, ninf0]
  refine Finset.fold_congr fun j _ => ?_
  exact congrArg src (lift0 r j)

theorem rowsum0 (src : FVec Ideal S2048x1024 .f32) (r : Fin 2048) (hφ : FKind.Formats .f32)
    (hacc : (0x00000000#32 : BitVec 32) = 0x00000000#32) :
    multiReduction .add [1] S2048 src 0x00000000#32 reduces_S2048x1024_S2048 hφ hacc (ix1 r)
      = ∑ j : Fin 1024, src (ix2 r j) := by
  refine (Ideal.multiReduction_add_single src 0x00000000#32 reduces_S2048x1024_S2048 hφ hacc (ix1 r)).trans ?_
  exact Finset.sum_congr rfl fun j _ => congrArg src (lift0 r j)

/-! ### The tile's step of the row's state -/

/-- An exponential at an index. -/
theorem exp_apply0 {s : Shape} {φ : FTy} (a : FVec Ideal s φ) (i : s.Idx) : exp a i = Ideal.exp (a i) := rfl

end Tile0

open Tile0

section
variable (i : grid0.Coords) (x : Vec Ideal S2048x1024 .bf16) (w : Vec Ideal S1024x1024 .bf16) (b : Vec Ideal S1024 .f32)
  (pk : Vec Ideal S2048x1 .i32)

/-- The tile's logit of row `r`, column `j`. -/
def tlog0 (r : Fin 2048) (j : Fin 1024) : EReal := (∑ k : Fin 1024, x (ix2 r k) * w (ix2 j k)) + b (ix1 j)

/-- The payload of the logits at row `r`, column `j`. -/
theorem Tile0.logit0 (r : Fin 2048) (j : Fin 1024) : k0_pay5 x w b (ix2 r j) = tlog0 x w b r j := by
  unfold k0_pay5 tlog0
  rw [addf_apply, shapeCast_self, shapeCast_self, shapeCast_self, mm0, broadcastTo_1b_ab_apply, shapeCast_a_1a_apply]

/-- The logits with the columns past the vocabulary's end masked to -inf, at row `r`, column `j`. -/
theorem Tile0.masked0 (g : ℕ → EReal) (r : Fin 2048)
    (hg : ∀ j : Fin 1024, g ((i 1).val * 1024 + j.val) = tlog0 x w b r j) (j : Fin 1024) :
    select (cmpi .slt (k0_pay6 i) (broadcast S2048x1024 20002#32)) (k0_pay5 x w b)
        (broadcast S2048x1024 (Scalar.ofBits (F := Ideal) .f32 0xFF800000#32)) (ix2 r j)
      = if (i 1).val * 1024 + j.val < 20002 then g ((i 1).val * 1024 + j.val) else ⊥ := by
  rw [select_apply, valid0, select_ite0, logit0, broadcast_apply, hg j]
  by_cases h : (i 1).val * 1024 + j.val < 20002
  · rw [if_pos h, if_pos h]
  · rw [if_neg h, if_neg h]; exact ninf0

/-- The new running maximum of row `r`. -/
theorem Tile0.newm0 (s : Vec Ideal S2048x2 .f32) (g : ℕ → EReal) (r : Fin 2048)
    (hg : ∀ j : Fin 1024, g ((i 1).val * 1024 + j.val) = tlog0 x w b r j) :
    maximumf (extractStridedSlice S2048x1 ![0, 0] s slices_S2048x2_o0_0_S2048x1)
        (shapeCast S2048x1 (multiReduction .maximumf [1] S2048
          (select (cmpi .slt (k0_pay6 i) (broadcast S2048x1024 20002#32)) (k0_pay5 x w b)
            (broadcast S2048x1024 (Scalar.ofBits (F := Ideal) .f32 0xFF800000#32)))
          0xFF800000#32 reduces_S2048x1024_S2048 (.inl rfl) rfl) shapeCasts_S2048_S2048x1) (ix2 r (0 : Fin 1))
      = max (s (ix2 r 0)) (Online.tileMax 1024 20002 g (i 1).val) := by
  rw [maximumf_apply, col0_0, ascol0, rowmax0]
  unfold Online.tileMax
  exact congrArg (max (s (ix2 r 0))) (Finset.fold_congr fun j _ => masked0 i x w b g r hg j)

/-- The packed scratch after the tile, column 0: the step's maximum. -/
theorem mlStep0_m (s : Vec Ideal S2048x2 .f32) (g : ℕ → EReal) (tgt : BitVec 32) (r : Fin 2048)
    (hg : ∀ j : Fin 1024, g ((i 1).val * 1024 + j.val) = tlog0 x w b r j) :
    mlStep0 i x w b s (ix2 r 0) = (Online.step 1024 20002 g tgt (i 1).val ⟨s (ix2 r 0), s (ix2 r 1), 0⟩).m := by
  unfold mlStep0 k0_pay1 k0_pay7
  rw [shapeCast_self, cat0_left]
  exact newm0 i x w b s g r hg

/-- Column 1: the step's rescaled sum. -/
theorem mlStep0_l (s : Vec Ideal S2048x2 .f32) (g : ℕ → EReal) (tgt : BitVec 32) (r : Fin 2048)
    (hg : ∀ j : Fin 1024, g ((i 1).val * 1024 + j.val) = tlog0 x w b r j) :
    mlStep0 i x w b s (ix2 r 1) = (Online.step 1024 20002 g tgt (i 1).val ⟨s (ix2 r 0), s (ix2 r 1), 0⟩).l := by
  unfold mlStep0 k0_pay1 k0_pay7
  rw [shapeCast_self, cat0_right, addf_apply, mulf_apply, exp_apply0, subf_apply, newm0 i x w b s g r hg, col0_0, col0_1,
    ascol0, rowsum0]
  show _ = Ideal.exp (s (ix2 r 0) - max (s (ix2 r 0)) (Online.tileMax 1024 20002 g (i 1).val)) * s (ix2 r 1)
    + ∑ j : Fin 1024, (if (i 1).val * 1024 + j.val < 20002
        then Ideal.exp (g ((i 1).val * 1024 + j.val) - max (s (ix2 r 0)) (Online.tileMax 1024 20002 g (i 1).val)) else 0)
  refine congrArg (_ + ·) (Finset.sum_congr rfl fun j _ => ?_)
  rw [select_apply, valid0, select_ite0, exp_apply0, subf_apply, logit0, spread0, newm0 i x w b s g r hg, broadcast_apply, hg j]
  by_cases h : (i 1).val * 1024 + j.val < 20002
  · rw [if_pos h, if_pos h]
  · rw [if_neg h, if_neg h]; exact Ideal.ofBits_zero_f32

/-- The picked-logit scratch after the tile: the step's picked logit, the target being the row's word of the pick column. -/
theorem pkStep0_p (s : Vec Ideal S2048x1 .f32) (g : ℕ → EReal) (r : Fin 2048) (m l : EReal)
    (hg : ∀ j : Fin 1024, g ((i 1).val * 1024 + j.val) = tlog0 x w b r j) :
    pkStep0 i x w b pk s (ix2 r 0) = (Online.step 1024 20002 g (pk (ix2 r 0)) (i 1).val ⟨m, l, s (ix2 r 0)⟩).p := by
  unfold pkStep0 k0_pay2
  simp only [shapeCast_self]
  rw [addf_apply, ascol0, rowsum0]
  show _ = s (ix2 r 0) + ∑ j : Fin 1024, (if BitVec.ofNat 32 ((i 1).val * 1024 + j.val) = pk (ix2 r 0)
      then g ((i 1).val * 1024 + j.val) else 0)
  refine congrArg (_ + ·) (Finset.sum_congr rfl fun j _ => ?_)
  rw [select_apply]
  show Scalar.select (IntOp.cmpi .eq (k0_pay6 i (ix2 r j))
    (broadcastTo S2048x1024 pk broadcasts_S2048x1_S2048x1024 (ix2 r j))) _ _ = _
  rw [colword0, spread0, eq_word0, select_ite0, logit0, broadcast_apply, hg j]
  by_cases h : BitVec.ofNat 32 ((i 1).val * 1024 + j.val) = pk (ix2 r 0)
  · rw [if_pos h, if_pos h]
  · rw [if_neg h, if_neg h]; exact Ideal.ofBits_zero_f32

end

/-- The reset values. -/
theorem reset0_m (r : Fin 2048) : (k0_pay3 (F := Ideal)) (ix2 r 0) = ⊥ := by
  unfold k0_pay3
  rw [shapeCast_self, cat0_left, broadcast_apply]
  exact ninf0
theorem reset0_l (r : Fin 2048) : (k0_pay3 (F := Ideal)) (ix2 r 1) = 0 := by
  unfold k0_pay3
  rw [shapeCast_self, cat0_right, broadcast_apply]
  exact Ideal.ofBits_zero_f32
theorem reset0_p (r : Fin 2048) : (k0_pay4 (F := Ideal)) (ix2 r 0) = 0 := by
  unfold k0_pay4
  rw [shapeCast_self, broadcast_apply]
  exact Ideal.ofBits_zero_f32

end Cert.KernelIdeal.Hand

end
-- ==== Proof.KV.Scan0.lean ====
/-
  Call 0's final output arrays at the ideal values. With the call entered at contents `V`, token n (a row of the flattened
  input) has padded logits over the 20480 rows of the padded weight array: the input row dotted with the weight row, plus the
  padded bias. Sweeping the 20 vocabulary tiles, the scratch buffers run the online-softmax state of each row; the last tile
  copies them out; so the packed output holds, at (n, 0) and (n, 1), the row's maximum over the 20002 valid columns and its
  sum of shifted exponentials, and the picked output holds at (n, 0) the logit at the row's target word.
-/
import proofs.«400642_j36009005809963_2_alg».proof.Proof.KI.Dat0
import proofs.«400642_j36009005809963_2_alg».proof.Proof.KV.Tile0
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The call's four input arrays as it finds them, at their literal types. -/
abbrev xA0 (c : Dev nD) : Vec Ideal S4096x1024 .bf16 := V c main_v1
abbrev wA0 (c : Dev nD) : Vec Ideal S20480x1024 .bf16 := V c main_v8
abbrev bA0 (c : Dev nD) : Vec Ideal S20480 .f32 := V c main_v10
abbrev pA0 (c : Dev nD) : Vec Ideal S4096x1 .i32 := V c main_v12

/-- Token `n`'s padded logit of column `j` (0 beyond the padded array). -/
def glog0 (c : Dev nD) (n : Fin 4096) (j : ℕ) : EReal :=
  if h : j < 20480 then (∑ k : Fin 1024, xA0 V c (ix2 n k) * wA0 V c (ix2 ⟨j, h⟩ k)) + bA0 V c (ix1 ⟨j, h⟩) else 0

/-- The grid point's coordinates and the six windows' block indices, decided over the grid's points. -/
theorem pt0_facts : ∀ t : Fin cfg0.N,
    ((grid0.coords t) 0).val = t.val / 20 ∧ ((grid0.coords t) 1).val = t.val % 20
    ∧ win0_0.index t (0 : Fin 2) = t.val / 20 ∧ win0_0.index t (1 : Fin 2) = 0
    ∧ win0_1.index t (0 : Fin 2) = t.val % 20 ∧ win0_1.index t (1 : Fin 2) = 0
    ∧ win0_2.index t (0 : Fin 1) = t.val % 20
    ∧ win0_3.index t (0 : Fin 2) = t.val / 20 ∧ win0_3.index t (1 : Fin 2) = 0
    ∧ win0_4.index t (0 : Fin 2) = t.val / 20 ∧ win0_4.index t (1 : Fin 2) = 0
    ∧ win0_5.index t (0 : Fin 2) = t.val / 20 ∧ win0_5.index t (1 : Fin 2) = 0 :=
  (by decide +kernel : ∀ t : Fin grid0.N, _)

theorem xblk0 (c : Dev nD) (t : Fin cfg0.N) (r : Fin 2048) (k : Fin 1024) (n : Fin 4096)
    (hn : n.val = t.val / 20 * 2048 + r.val) :
    (iblk0 V c 0 t : Vec Ideal S2048x1024 .bf16) (ix2 r k) = xA0 V c (ix2 n k) := by
  obtain ⟨-, -, e0, e1, -⟩ := pt0_facts t
  unfold iblk0
  rw [View.read_apply]
  show V c main_v1 (((cfg0.win 0).blk t).view.emb (ix2 r k)) = V c main_v1 (ix2 n k)
  congr 1
  funext a
  apply Fin.ext
  match a with
  | ⟨0, _⟩ => show win0_0.index t (0 : Fin 2) * 2048 + 1 * r.val = n.val; omega
  | ⟨1, _⟩ => show win0_0.index t (1 : Fin 2) * 1024 + 1 * k.val = k.val; omega

theorem wblk0 (c : Dev nD) (t : Fin cfg0.N) (j : Fin 1024) (k : Fin 1024) (q : Fin 20480)
    (hq : q.val = t.val % 20 * 1024 + j.val) :
    (iblk0 V c 1 t : Vec Ideal S1024x1024 .bf16) (ix2 j k) = wA0 V c (ix2 q k) := by
  obtain ⟨-, -, -, -, e0, e1, -⟩ := pt0_facts t
  unfold iblk0
  rw [View.read_apply]
  show V c main_v8 (((cfg0.win 1).blk t).view.emb (ix2 j k)) = V c main_v8 (ix2 q k)
  congr 1
  funext a
  apply Fin.ext
  match a with
  | ⟨0, _⟩ => show win0_1.index t (0 : Fin 2) * 1024 + 1 * j.val = q.val; omega
  | ⟨1, _⟩ => show win0_1.index t (1 : Fin 2) * 1024 + 1 * k.val = k.val; omega

theorem bblk0 (c : Dev nD) (t : Fin cfg0.N) (j : Fin 1024) (q : Fin 20480)
    (hq : q.val = t.val % 20 * 1024 + j.val) :
    (iblk0 V c 2 t : Vec Ideal S1024 .f32) (ix1 j) = bA0 V c (ix1 q) := by
  obtain ⟨-, -, -, -, -, -, e0, -⟩ := pt0_facts t
  unfold iblk0
  rw [View.read_apply]
  show V c main_v10 (((cfg0.win 2).blk t).view.emb (ix1 j)) = V c main_v10 (ix1 q)
  congr 1
  funext a
  apply Fin.ext
  match a with
  | ⟨0, _⟩ => show win0_2.index t (0 : Fin 1) * 1024 + 1 * j.val = q.val; omega

theorem pblk0 (c : Dev nD) (t : Fin cfg0.N) (r : Fin 2048) (n : Fin 4096)
    (hn : n.val = t.val / 20 * 2048 + r.val) :
    (iblk0 V c 3 t : Vec Ideal S2048x1 .i32) (ix2 r 0) = pA0 V c (ix2 n 0) := by
  obtain ⟨-, -, -, -, -, -, -, e0, e1, -⟩ := pt0_facts t
  unfold iblk0
  rw [View.read_apply]
  show V c main_v12 (((cfg0.win 3).blk t).view.emb (ix2 r 0)) = V c main_v12 (ix2 n 0)
  congr 1
  funext a
  apply Fin.ext
  match a with
  | ⟨0, _⟩ => show win0_3.index t (0 : Fin 2) * 2048 + 1 * r.val = n.val; omega
  | ⟨1, _⟩ => show win0_3.index t (1 : Fin 2) * 1 + 1 * 0 = 0; omega

/-- The tile's logits at a point are the token's padded logits of the tile's columns. -/
theorem tlog0_eq (c : Dev nD) (t : Fin cfg0.N) (r : Fin 2048) (n : Fin 4096)
    (hn : n.val = t.val / 20 * 2048 + r.val) (j : Fin 1024) :
    tlog0 (iblk0 V c 0 t) (iblk0 V c 1 t) (iblk0 V c 2 t) r j = glog0 V c n (t.val % 20 * 1024 + j.val) := by
  have hq : t.val % 20 * 1024 + j.val < 20480 := by have := j.isLt; omega
  unfold tlog0 glog0
  rw [dif_pos hq, bblk0 V c t j ⟨_, hq⟩ rfl]
  congr 1
  refine Finset.sum_congr rfl fun k _ => ?_
  rw [xblk0 V c t r k n hn, wblk0 V c t j k ⟨_, hq⟩ rfl]

/-- One point's update of the packed scratch, read at a row: the online step of the token's logits. -/
theorem stepAt0_m (c : Dev nD) (t : Fin cfg0.N) (s : Vec Ideal S2048x2 .f32 × Vec Ideal S2048x1 .f32) (r : Fin 2048)
    (n : Fin 4096) (hn : n.val = t.val / 20 * 2048 + r.val) (tgt : BitVec 32) :
    (stepAt0 V c t s).1 (ix2 r 0)
      = (Online.step 1024 20002 (glog0 V c n) tgt (t.val % 20) ⟨s.1 (ix2 r 0), s.1 (ix2 r 1), 0⟩).m := by
  obtain ⟨-, e1, -⟩ := pt0_facts t
  have h := mlStep0_m (grid0.coords t) (iblk0 V c 0 t) (iblk0 V c 1 t) (iblk0 V c 2 t) s.1 (glog0 V c n) tgt r
    (fun j => by rw [e1]; exact (tlog0_eq V c t r n hn j).symm)
  rw [e1] at h
  exact h

theorem stepAt0_l (c : Dev nD) (t : Fin cfg0.N) (s : Vec Ideal S2048x2 .f32 × Vec Ideal S2048x1 .f32) (r : Fin 2048)
    (n : Fin 4096) (hn : n.val = t.val / 20 * 2048 + r.val) (tgt : BitVec 32) :
    (stepAt0 V c t s).1 (ix2 r 1)
      = (Online.step 1024 20002 (glog0 V c n) tgt (t.val % 20) ⟨s.1 (ix2 r 0), s.1 (ix2 r 1), 0⟩).l := by
  obtain ⟨-, e1, -⟩ := pt0_facts t
  have h := mlStep0_l (grid0.coords t) (iblk0 V c 0 t) (iblk0 V c 1 t) (iblk0 V c 2 t) s.1 (glog0 V c n) tgt r
    (fun j => by rw [e1]; exact (tlog0_eq V c t r n hn j).symm)
  rw [e1] at h
  exact h

/-- One point's update of the picked-logit scratch, read at a row; the target is the token's word. -/
theorem stepAt0_p (c : Dev nD) (t : Fin cfg0.N) (s : Vec Ideal S2048x2 .f32 × Vec Ideal S2048x1 .f32) (r : Fin 2048)
    (n : Fin 4096) (hn : n.val = t.val / 20 * 2048 + r.val) (m l : EReal) :
    (stepAt0 V c t s).2 (ix2 r 0)
      = (Online.step 1024 20002 (glog0 V c n) (pA0 V c (ix2 n 0)) (t.val % 20) ⟨m, l, s.2 (ix2 r 0)⟩).p := by
  obtain ⟨-, e1, -⟩ := pt0_facts t
  have h := pkStep0_p (grid0.coords t) (iblk0 V c 0 t) (iblk0 V c 1 t) (iblk0 V c 2 t) (iblk0 V c 3 t) s.2 (glog0 V c n) r m l
    (fun j => by rw [e1]; exact (tlog0_eq V c t r n hn j).symm)
  rw [e1, pblk0 V c t r n hn] at h
  exact h

/-- At the first vocabulary tile of a token half the scratch is reset, so it leaves the state after one tile. -/
theorem scan0_reset (c : Dev nD) (t : Fin cfg0.N) (h0 : t.val % 20 = 0) (r : Fin 2048) (n : Fin 4096)
    (hn : n.val = t.val / 20 * 2048 + r.val) :
    (scAt0 V c t.val t.isLt).1 (ix2 r 0) = (Online.run 1024 20002 (glog0 V c n) (pA0 V c (ix2 n 0)) (t.val % 20 + 1)).m
    ∧ (scAt0 V c t.val t.isLt).1 (ix2 r 1) = (Online.run 1024 20002 (glog0 V c n) (pA0 V c (ix2 n 0)) (t.val % 20 + 1)).l
    ∧ (scAt0 V c t.val t.isLt).2 (ix2 r 0) = (Online.run 1024 20002 (glog0 V c n) (pA0 V c (ix2 n 0)) (t.val % 20 + 1)).p := by
  rw [scAt0_first V c t h0]
  refine ⟨?_, ?_, ?_⟩
  · refine (stepAt0_m V c t _ r n hn (pA0 V c (ix2 n 0))).trans ?_
    show (Online.step 1024 20002 (glog0 V c n) (pA0 V c (ix2 n 0)) (t.val % 20)
      ⟨(k0_pay3 (F := Ideal)) (ix2 r 0), (k0_pay3 (F := Ideal)) (ix2 r 1), 0⟩).m = _
    rw [reset0_m, reset0_l, h0]
    rfl
  · refine (stepAt0_l V c t _ r n hn (pA0 V c (ix2 n 0))).trans ?_
    show (Online.step 1024 20002 (glog0 V c n) (pA0 V c (ix2 n 0)) (t.val % 20)
      ⟨(k0_pay3 (F := Ideal)) (ix2 r 0), (k0_pay3 (F := Ideal)) (ix2 r 1), 0⟩).l = _
    rw [reset0_m, reset0_l, h0]
    rfl
  · refine (stepAt0_p V c t _ r n hn ⊥ 0).trans ?_
    show (Online.step 1024 20002 (glog0 V c n) (pA0 V c (ix2 n 0)) (t.val % 20)
      ⟨⊥, 0, (k0_pay4 (F := Ideal)) (ix2 r 0)⟩).p = _
    rw [reset0_p, h0]
    rfl

/-- After the point at position `k` the scratch rows hold the token's online state after `k % 20 + 1` tiles. -/
theorem scan0_inv (c : Dev nD) : ∀ (k : ℕ) (hk : k < cfg0.N) (r : Fin 2048) (n : Fin 4096),
    n.val = k / 20 * 2048 + r.val →
    (scAt0 V c k hk).1 (ix2 r 0) = (Online.run 1024 20002 (glog0 V c n) (pA0 V c (ix2 n 0)) (k % 20 + 1)).m
    ∧ (scAt0 V c k hk).1 (ix2 r 1) = (Online.run 1024 20002 (glog0 V c n) (pA0 V c (ix2 n 0)) (k % 20 + 1)).l
    ∧ (scAt0 V c k hk).2 (ix2 r 0) = (Online.run 1024 20002 (glog0 V c n) (pA0 V c (ix2 n 0)) (k % 20 + 1)).p := by
  intro k
  induction k with
  | zero =>
    intro hk r n hn
    exact scan0_reset V c ⟨0, hk⟩ rfl r n hn
  | succ k ih =>
    intro hk r n hn
    by_cases h0 : (k + 1) % 20 = 0
    · exact scan0_reset V c ⟨k + 1, hk⟩ h0 r n hn
    · have hk' : k < cfg0.N := Nat.lt_of_succ_lt hk
      have e : scAt0 V c (k + 1) hk = stepAt0 V c ⟨k + 1, hk⟩ (scAt0 V c k hk') := by
        show stepAt0 V c ⟨k + 1, hk⟩ (if (k + 1) % 20 = 0 then _ else _) = _
        rw [if_neg h0]
      have hm : (k + 1) % 20 = k % 20 + 1 := by omega
      obtain ⟨im, il, ip⟩ := ih hk' r n (by omega)
      rw [e, hm]
      refine ⟨?_, ?_, ?_⟩
      · refine (stepAt0_m V c ⟨k + 1, hk⟩ _ r n hn (pA0 V c (ix2 n 0))).trans ?_
        show (Online.step 1024 20002 (glog0 V c n) (pA0 V c (ix2 n 0)) ((k + 1) % 20)
          ⟨(scAt0 V c k hk').1 (ix2 r 0), (scAt0 V c k hk').1 (ix2 r 1), 0⟩).m = _
        rw [im, il, hm]
        rfl
      · refine (stepAt0_l V c ⟨k + 1, hk⟩ _ r n hn (pA0 V c (ix2 n 0))).trans ?_
        show (Online.step 1024 20002 (glog0 V c n) (pA0 V c (ix2 n 0)) ((k + 1) % 20)
          ⟨(scAt0 V c k hk').1 (ix2 r 0), (scAt0 V c k hk').1 (ix2 r 1), 0⟩).l = _
        rw [im, il, hm]
        rfl
      · refine (stepAt0_p V c ⟨k + 1, hk⟩ _ r n hn
          (Online.run 1024 20002 (glog0 V c n) (pA0 V c (ix2 n 0)) (k % 20 + 1)).m
          (Online.run 1024 20002 (glog0 V c n) (pA0 V c (ix2 n 0)) (k % 20 + 1)).l).trans ?_
        show (Online.step 1024 20002 (glog0 V c n) (pA0 V c (ix2 n 0)) ((k + 1) % 20)
          ⟨_, _, (scAt0 V c k hk').2 (ix2 r 0)⟩).p = _
        rw [ip, hm]
        rfl

/-- The last point of a token half is a point of the grid. -/
theorem pt0_last_lt (a : ℕ) (h : a < 4096) : a / 2048 * 20 + 19 < cfg0.N := by
  have hN : cfg0.N = 40 := N_0
  omega

/-- A token's row within its half. -/
def pt0_row (n : Fin 4096) : Fin 2048 := ⟨n.val - n.val / 2048 * 2048, by omega⟩

/-- The scratch contents depend only on the position and the index read. -/
theorem scAt0_congr_1 (c : Dev nD) {a b : ℕ} (ha : a < cfg0.N) (hb : b < cfg0.N) (h : a = b) {x y : S2048x2.Idx}
    (hxy : x = y) : (scAt0 V c a ha).1 x = (scAt0 V c b hb).1 y := by
  subst h; subst hxy; rfl
theorem scAt0_congr_2 (c : Dev nD) {a b : ℕ} (ha : a < cfg0.N) (hb : b < cfg0.N) (h : a = b) {x y : S2048x1.Idx}
    (hxy : x = y) : (scAt0 V c a ha).2 x = (scAt0 V c b hb).2 y := by
  subst h; subst hxy; rfl

/-- The packed output, row by row: what the packed scratch held after the last tile of the row's token half. -/
def fin0_4 (c : Dev nD) : Vec Ideal S4096x2 .f32 := fun i =>
  (scAt0 V c ((i 0).val / 2048 * 20 + 19) (pt0_last_lt _ (idx2_lt0 i))).1
    (ix2 (pt0_row (i 0)) (i 1))
/-- The picked output, likewise. -/
def fin0_5 (c : Dev nD) : Vec Ideal S4096x1 .f32 := fun i =>
  (scAt0 V c ((i 0).val / 2048 * 20 + 19) (pt0_last_lt _ (idx2_lt0 i))).2
    (ix2 (pt0_row (i 0)) (i 1))

/-- At a last tile, an element of the output's block is the scratch element of the same coordinates. -/
theorem fin0_4_at (c : Dev nD) (t : Fin cfg0.N) (hlast : t.val % 20 = 19) (j : S2048x2.Idx) (i : S4096x2.Idx)
    (h0 : (i 0).val = t.val / 20 * 2048 + (j 0).val) (h1 : (i 1).val = (j 1).val) :
    fin0_4 V c i = (scAt0 V c t.val t.isLt).1 j := by
  have hj : (j 0).val < 2048 := idx2_lt0 j
  unfold fin0_4
  refine scAt0_congr_1 V c _ _ (by omega) ?_
  funext a
  match a with
  | ⟨0, _⟩ => exact Fin.ext (show (i 0).val - (i 0).val / 2048 * 2048 = (j 0).val by omega)
  | ⟨1, _⟩ => exact Fin.ext h1
theorem fin0_5_at (c : Dev nD) (t : Fin cfg0.N) (hlast : t.val % 20 = 19) (j : S2048x1.Idx) (i : S4096x1.Idx)
    (h0 : (i 0).val = t.val / 20 * 2048 + (j 0).val) (h1 : (i 1).val = (j 1).val) :
    fin0_5 V c i = (scAt0 V c t.val t.isLt).2 j := by
  have hj : (j 0).val < 2048 := idx2_lt0 j
  unfold fin0_5
  refine scAt0_congr_2 V c _ _ (by omega) ?_
  funext a
  match a with
  | ⟨0, _⟩ => exact Fin.ext (show (i 0).val - (i 0).val / 2048 * 2048 = (j 0).val by omega)
  | ⟨1, _⟩ => exact Fin.ext h1

/-- What a last tile writes back is its block of the row-by-row contents. -/
theorem flushed0_4 (c : Dev nD) (t : Fin cfg0.N) (hf : (cfg0.win 4).flush t = true) :
    (dat0 V c).flushed 4 t = ((cfg0.win 4).blk t).view.read (Elt Ideal) (fin0_4 V c) := by
  have hlast : t.val % 20 = 19 := (flush0_4 t).mp hf
  obtain ⟨-, -, -, -, -, -, -, -, -, e0, e1, -⟩ := pt0_facts t
  show (cfg0.win 4).cut (grid0.coords t) ((dat0 V c).after 4 t) = _
  rw [after0_4]
  funext j
  rw [View.read_apply]
  show (scAt0 V c t.val t.isLt).1 j = fin0_4 V c (((cfg0.win 4).blk t).view.emb j)
  refine (fin0_4_at V c t hlast j _ ?_ ?_).symm
  · show win0_4.index t (0 : Fin 2) * 2048 + 1 * (j 0).val = _; omega
  · show win0_4.index t (1 : Fin 2) * 2 + 1 * (j 1).val = _; omega
theorem flushed0_5 (c : Dev nD) (t : Fin cfg0.N) (hf : (cfg0.win 5).flush t = true) :
    (dat0 V c).flushed 5 t = ((cfg0.win 5).blk t).view.read (Elt Ideal) (fin0_5 V c) := by
  have hlast : t.val % 20 = 19 := (flush0_5 t).mp hf
  obtain ⟨-, -, -, -, -, -, -, -, -, -, -, e0, e1⟩ := pt0_facts t
  show (cfg0.win 5).cut (grid0.coords t) ((dat0 V c).after 5 t) = _
  rw [after0_5]
  funext j
  rw [View.read_apply]
  show (scAt0 V c t.val t.isLt).2 j = fin0_5 V c (((cfg0.win 5).blk t).view.emb j)
  refine (fin0_5_at V c t hlast j _ ?_ ?_).symm
  · show win0_5.index t (0 : Fin 2) * 2048 + 1 * (j 0).val = _; omega
  · show win0_5.index t (1 : Fin 2) * 1 + 1 * (j 1).val = _; omega

/-- Every row of an output lies in the block of the last tile of its token half. -/
theorem cover0_4 (i : S4096x2.Idx) :
    ∃ t : Fin cfg0.N, (cfg0.win 4).flush t = true ∧ i ∈ ((cfg0.win 4).blk t).view.set := by
  have hi0 : (i 0).val < 4096 := idx2_lt0 i
  have hi1 : (i 1).val < 2 := idx2_lt1 i
  obtain ⟨t, ht⟩ : ∃ t : Fin cfg0.N, t.val = (i 0).val / 2048 * 20 + 19 := ⟨⟨_, pt0_last_lt _ hi0⟩, rfl⟩
  obtain ⟨-, -, -, -, -, -, -, -, -, e0, e1, -⟩ := pt0_facts t
  refine ⟨t, (flush0_4 t).mpr (by omega), ?_⟩
  show i ∈ ((View.whole (Pipeline.arrRef spec0 4)).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 2 ≤ (i 1).val ∧ (i 1).val < win0_4.index t (1 : Fin 2) * 2 + 2
    omega
theorem cover0_5 (i : S4096x1.Idx) :
    ∃ t : Fin cfg0.N, (cfg0.win 5).flush t = true ∧ i ∈ ((cfg0.win 5).blk t).view.set := by
  have hi0 : (i 0).val < 4096 := idx2_lt0 i
  have hi1 : (i 1).val < 1 := idx2_lt1 i
  obtain ⟨t, ht⟩ : ∃ t : Fin cfg0.N, t.val = (i 0).val / 2048 * 20 + 19 := ⟨⟨_, pt0_last_lt _ hi0⟩, rfl⟩
  obtain ⟨-, -, -, -, -, -, -, -, -, -, -, e0, e1⟩ := pt0_facts t
  refine ⟨t, (flush0_5 t).mpr (by omega), ?_⟩
  show i ∈ ((View.whole (Pipeline.arrRef spec0 5)).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 1 ≤ (i 1).val ∧ (i 1).val < win0_5.index t (1 : Fin 2) * 1 + 1
    omega

/-- So the two output arrays end holding the row-by-row contents. -/
theorem final0_4 (c : Dev nD) : (dat0 V c).arrAt 4 cfg0.N = fin0_4 V c :=
  (dat0 V c).arrAt_eq_of_cover 4 (fin0_4 V c) (fun t hf => flushed0_4 V c t hf) cover0_4
theorem final0_5 (c : Dev nD) : (dat0 V c).arrAt 5 cfg0.N = fin0_5 V c :=
  (dat0 V c).arrAt_eq_of_cover 5 (fin0_5 V c) (fun t hf => flushed0_5 V c t hf) cover0_5

/-- A token's online state after all the tiles, read off the scratch after the last tile of its half. -/
theorem scan0_last (c : Dev nD) (n : Fin 4096) :
    (scAt0 V c (n.val / 2048 * 20 + 19) (pt0_last_lt _ n.isLt)).1 (ix2 (pt0_row n) 0)
      = (Online.run 1024 20002 (glog0 V c n) (pA0 V c (ix2 n 0)) 20).m
    ∧ (scAt0 V c (n.val / 2048 * 20 + 19) (pt0_last_lt _ n.isLt)).1 (ix2 (pt0_row n) 1)
      = (Online.run 1024 20002 (glog0 V c n) (pA0 V c (ix2 n 0)) 20).l
    ∧ (scAt0 V c (n.val / 2048 * 20 + 19) (pt0_last_lt _ n.isLt)).2 (ix2 (pt0_row n) 0)
      = (Online.run 1024 20002 (glog0 V c n) (pA0 V c (ix2 n 0)) 20).p := by
  have hn0 : n.val < 4096 := n.isLt
  have inv := scan0_inv V c (n.val / 2048 * 20 + 19) (pt0_last_lt _ n.isLt) (pt0_row n) n
    (by show n.val = (n.val / 2048 * 20 + 19) / 20 * 2048 + (n.val - n.val / 2048 * 2048); omega)
  have hT : (n.val / 2048 * 20 + 19) % 20 + 1 = 20 := by omega
  rw [hT] at inv
  exact inv

/-- After all the tiles the online state is the row's three statistics, component by component. -/
theorem run0_last (c : Dev nD) (hreal : ∀ n j, j < 20002 → ∃ r : ℝ, glog0 V c n j = (r : EReal)) (n : Fin 4096) :
    (Online.run 1024 20002 (glog0 V c n) (pA0 V c (ix2 n 0)) 20).m = Online.vmax 1024 20002 (glog0 V c n) 20
    ∧ (Online.run 1024 20002 (glog0 V c n) (pA0 V c (ix2 n 0)) 20).l = Online.vsum 1024 20002 (glog0 V c n) 20
    ∧ (Online.run 1024 20002 (glog0 V c n) (pA0 V c (ix2 n 0)) 20).p
        = Online.vpick 1024 (glog0 V c n) (pA0 V c (ix2 n 0)) 20 := by
  have hrun := Online.run_eq 1024 20002 (glog0 V c n) (pA0 V c (ix2 n 0)) 20 (by decide) (by decide) (by decide) (hreal n)
  generalize Online.vmax 1024 20002 (glog0 V c n) 20 = a at hrun ⊢
  generalize Online.vsum 1024 20002 (glog0 V c n) 20 = b at hrun ⊢
  generalize Online.vpick 1024 (glog0 V c n) (pA0 V c (ix2 n 0)) 20 = d at hrun ⊢
  rw [hrun]
  exact ⟨rfl, rfl, rfl⟩

/-- The packed output's column 0: the row's maximum over the valid columns. -/
theorem final0_m (c : Dev nD) (hreal : ∀ n j, j < 20002 → ∃ r : ℝ, glog0 V c n j = (r : EReal)) (n : Fin 4096) :
    ((dat0 V c).arrAt 4 cfg0.N : Vec Ideal S4096x2 .f32) (ix2 n 0) = Online.vmax 1024 20002 (glog0 V c n) 20 := by
  have h4 : fin0_4 V c (ix2 n 0) = (Online.run 1024 20002 (glog0 V c n) (pA0 V c (ix2 n 0)) 20).m :=
    (scan0_last V c n).1
  exact ((congrFun (final0_4 V c) (ix2 n 0)).trans h4).trans
    (run0_last V c hreal n).1

/-- Column 1: the row's sum of exponentials shifted by that maximum. -/
theorem final0_l (c : Dev nD) (hreal : ∀ n j, j < 20002 → ∃ r : ℝ, glog0 V c n j = (r : EReal)) (n : Fin 4096) :
    ((dat0 V c).arrAt 4 cfg0.N : Vec Ideal S4096x2 .f32) (ix2 n 1) = Online.vsum 1024 20002 (glog0 V c n) 20 := by
  have h4 : fin0_4 V c (ix2 n 1) = (Online.run 1024 20002 (glog0 V c n) (pA0 V c (ix2 n 0)) 20).l :=
    (scan0_last V c n).2.1
  exact ((congrFun (final0_4 V c) (ix2 n 1)).trans h4).trans
    (run0_last V c hreal n).2.1

/-- The picked output: the logit at the row's target word. -/
theorem final0_p (c : Dev nD) (hreal : ∀ n j, j < 20002 → ∃ r : ℝ, glog0 V c n j = (r : EReal)) (n : Fin 4096) :
    ((dat0 V c).arrAt 5 cfg0.N : Vec Ideal S4096x1 .f32) (ix2 n 0) = Online.vpick 1024 (glog0 V c n) (pA0 V c (ix2 n 0)) 20 := by
  have h5 : fin0_5 V c (ix2 n 0) = (Online.run 1024 20002 (glog0 V c n) (pA0 V c (ix2 n 0)) 20).p :=
    (scan0_last V c n).2.2
  exact ((congrFun (final0_5 V c) (ix2 n 0)).trans h5).trans
    (run0_last V c hreal n).2.2

end Cert.KernelIdeal.Hand

end
-- ==== Proof.KV.HostPre.lean ====
/-
  What each call finds at its entry, in terms of the arguments. The host operations before a call flatten the input,
  slice the embedding table (for the head, append the two cluster rows), pad weights and bias with zero rows up to a whole
  number of tiles, and clip the (shifted) label into the group's range. So a token's padded logit of a valid column is the
  specification's logit of that column, the target word is the specification's picked column, and every valid logit is a
  real number when the arguments are.
-/
import proofs.«400642_j36009005809963_2_alg».proof.Proof.KV.Args
import proofs.«400642_j36009005809963_2_alg».proof.Proof.KV.Scan0
import proofs.«400642_j36009005809963_2_alg».proof.Proof.KV.Scan1
import proofs.«400642_j36009005809963_2_alg».proof.Proof.KV.Scan2
import Idealize.ShloMosaic.Lib.StableHlo.Run
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## Words: the signed clip -/

/-- Signed max with 0 followed by signed min with a small non-negative bound is the clip into [0, hi]. -/
theorem clip_word (x : BitVec 32) (hi : ℕ) (hhi : hi < 2 ^ 31) :
    IntOp.minsi (BitVec.ofNat 32 hi) (IntOp.maxsi 0#32 x) = BitVec.ofNat 32 (Spec.clipNat x hi) := by
  have h0 : (0#32 : BitVec 32).toInt = 0 := by decide
  have hH : (BitVec.ofNat 32 hi).toInt = (hi : ℤ) := by
    rw [BitVec.toInt_eq_msb_cond, BitVec.msb_eq_false_iff_two_mul_lt.mpr (by simp [BitVec.toNat_ofNat]; omega)]
    simp [BitVec.toNat_ofNat]; omega
  unfold IntOp.minsi IntOp.maxsi Spec.clipNat
  by_cases hneg : x.toInt < 0
  · have hs : x.slt 0#32 = true := BitVec.slt_iff_toInt_lt.mpr (by rw [h0]; exact hneg)
    rw [if_pos hs, if_pos hneg]
    have hn : ¬ ((BitVec.ofNat 32 hi).slt 0#32 = true) := by
      rw [BitVec.slt_iff_toInt_lt, hH, h0]; omega
    rw [if_neg hn]
  · have hs : ¬ (x.slt 0#32 = true) := by rw [BitVec.slt_iff_toInt_lt, h0]; exact hneg
    rw [if_neg hs, if_neg hneg]
    by_cases hbig : (hi : ℤ) < x.toInt
    · have hb : (BitVec.ofNat 32 hi).slt x = true := BitVec.slt_iff_toInt_lt.mpr (by rw [hH]; exact hbig)
      rw [if_pos hb, if_pos hbig]
    · have hb : ¬ ((BitVec.ofNat 32 hi).slt x = true) := by rw [BitVec.slt_iff_toInt_lt, hH]; exact hbig
      rw [if_neg hb, if_neg hbig]
      have hx : x.toInt = (x.toNat : ℤ) := by
        rw [BitVec.toInt_eq_toNat_cond] at hneg ⊢
        split <;> rename_i h2
        · rfl
        · rw [if_neg h2] at hneg; have := x.isLt; omega
      rw [hx, Int.toNat_natCast, BitVec.ofNat_toNat, BitVec.setWidth_eq]

/-! ## Reading the host operations at an index -/

section Reads
variable {α : Type}

/-- Row n of the flattened input is token (n / 1024, n % 1024). -/
theorem flat_rows_read (a : S4x1024x1024.Idx → α) (h : S4x1024x1024.ShapeCasts S4096x1024) (n : Fin 4096) (k : Fin 1024) :
    shapeCast S4096x1024 a h (ix2 n k) = a (ix3 (tokB n) (tokS n) k) := by
  refine shapeCast_apply _ _ _ (ix3 (tokB n) (tokS n) k) ?_
  rw [Shape.rowMajor_val_two, Shape.rowMajor_val_three]
  show ((n.val / 1024) * 1024 + n.val % 1024) * 1024 + k.val = n.val * 1024 + k.val
  have := Nat.div_add_mod n.val 1024; omega

/-- Entry n of the flattened labels is token (n / 1024, n % 1024). -/
theorem flat_labels_read (a : S4x1024.Idx → α) (h : S4x1024.ShapeCasts S4096) (n : Fin 4096) :
    shapeCast S4096 a h (ix1 n) = a (ix2 (tokB n) (tokS n)) := by
  refine shapeCast_apply _ _ _ (ix2 (tokB n) (tokS n)) ?_
  rw [Shape.rowMajor_val_one, Shape.rowMajor_val_two]
  show (n.val / 1024) * 1024 + n.val % 1024 = n.val
  have := Nat.div_add_mod n.val 1024; omega

/-- Two blocks of rows stacked: a row below the joint is the first block's row. -/
theorem cat_rows_left {n₁ n₂ n w : ℕ} (x₁ : (⟨2, ![n₁, w]⟩ : Shape).Idx → α) (x₂ : (⟨2, ![n₂, w]⟩ : Shape).Idx → α)
    (h : Shape.Concatenates [(⟨2, ![n₁, w]⟩ : Shape), ⟨2, ![n₂, w]⟩] ⟨2, ![n, w]⟩ 0) (j : Fin n) (k : Fin w) (hj : j.val < n₁) :
    concatenate ⟨2, ![n, w]⟩ 0 [⟨⟨2, ![n₁, w]⟩, x₁⟩, ⟨⟨2, ![n₂, w]⟩, x₂⟩] h (ix2 j k) = x₁ (ix2 ⟨j.val, hj⟩ k) :=
  concatenate_pair_apply_left 0 x₁ x₂ h (ix2 j k) rfl (ix2 ⟨j.val, hj⟩ k) (fun b => by fin_cases b <;> rfl)

/-- A row at or past the joint is the second block's row, the first block's height less. -/
theorem cat_rows_right {n₁ n₂ n w : ℕ} (x₁ : (⟨2, ![n₁, w]⟩ : Shape).Idx → α) (x₂ : (⟨2, ![n₂, w]⟩ : Shape).Idx → α)
    (h : Shape.Concatenates [(⟨2, ![n₁, w]⟩ : Shape), ⟨2, ![n₂, w]⟩] ⟨2, ![n, w]⟩ 0) (j : Fin n) (k : Fin w)
    (hj : n₁ ≤ j.val) (hj2 : j.val - n₁ < n₂) :
    concatenate ⟨2, ![n, w]⟩ 0 [⟨⟨2, ![n₁, w]⟩, x₁⟩, ⟨⟨2, ![n₂, w]⟩, x₂⟩] h (ix2 j k) = x₂ (ix2 ⟨j.val - n₁, hj2⟩ k) :=
  concatenate_pair_apply_right 0 x₁ x₂ h (ix2 j k) rfl rfl (ix2 ⟨j.val - n₁, hj2⟩ k)
    (fun b hb => by fin_cases b
                    · exact absurd rfl hb
                    · rfl)
    (by show (j.val - n₁) + n₁ = j.val; omega)

/-- Two vectors joined: an entry below the joint is the first vector's. -/
theorem cat_vec_left {n₁ n₂ n : ℕ} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ix1 j) = x₁ (ix1 ⟨j.val, hj⟩) :=
  concatenate_pair_apply_left 0 x₁ x₂ h (ix1 j) rfl (ix1 ⟨j.val, hj⟩) (fun b => by fin_cases b; rfl)

/-- An entry at or past the joint is the second vector's, the first vector's length less. -/
theorem cat_vec_right {n₁ n₂ n : ℕ} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n)
    (hj : n₁ ≤ j.val) (hj2 : j.val - n₁ < n₂) :
    concatenate ⟨1, ![n]⟩ 0 [⟨⟨1, ![n₁]⟩, x₁⟩, ⟨⟨1, ![n₂]⟩, x₂⟩] h (ix1 j) = x₂ (ix1 ⟨j.val - n₁, hj2⟩) :=
  concatenate_pair_apply_right 0 x₁ x₂ h (ix1 j) rfl rfl (ix1 ⟨j.val - n₁, hj2⟩)
    (fun b hb => by fin_cases b; exact absurd rfl hb)
    (by show (j.val - n₁) + n₁ = j.val; omega)

/-- A block of whole rows cut out of a table, starting at row `off`. -/
theorem slice_rows_read {r r' w : ℕ} (off : ℕ) (x : (⟨2, ![r, w]⟩ : Shape).Idx → α)
    (h : (⟨2, ![r, w]⟩ : Shape).Slices ![off, 0] ⟨2, ![r', w]⟩) (j : Fin r') (k : Fin w) (hj : off + j.val < r) :
    extractStridedSlice ⟨2, ![r', w]⟩ ![off, 0] x h (ix2 j k) = x (ix2 ⟨off + j.val, hj⟩ k) :=
  extractStridedSlice_apply _ x h (ix2 j k) (ix2 ⟨off + j.val, hj⟩ k) (fun a => by
    fin_cases a
    · rfl
    · show k.val = 0 + k.val; omega)

/-- A vector of 4096 words broadcast to one column. -/
theorem bcast_col_read (h : S4096.BroadcastsInDim S4096x1 ![0]) (v : S4096.Idx → α) (n : Fin 4096) :
    broadcastInDim S4096x1 ![0] h v (ix2 n 0) = v (ix1 n) :=
  broadcastInDim_apply _ h v (ix2 n 0) (ix1 n) (fun a => by
    fin_cases a
    show n.val = if (4096 : ℕ) = 1 then 0 else n.val
    rw [if_neg (by decide)])

end Reads

/-! ## Call 0: the flattened input, the padded head weights and bias, the clipped label -/

theorem x0_read (n : Fin 4096) (k : Fin 1024) :
    xA0 (E3 m) c (ix2 n k) = ar0 m c (ix3 (tokB n) (tokS n) k) := by
  have e : @Eq (Vec Ideal S4096x1024 .bf16) (V3 m c main_v1)
      (truncf (F := Ideal) .bf16 (shapeCast S4096x1024 (ar0 m c) shapeCasts_S4x1024x1024_S4096x1024) bitsLt_bf16_f32) := by
    rw [V3_of m c main_v1 (by decide), V2_of m c main_v1 (by decide)]
    show StableHlo.after hostOps0 (V0 m c) (Proc.devRef .tc main_v1) = _
    after_results <;> rfl
  show (V3 m c main_v1 : Vec Ideal S4096x1024 .bf16) (ix2 n k) = _
  rw [e, truncf_apply, flat_rows_read]

/-- The padded head weights as the host operations build them. -/
theorem w0_eq : @Eq (Vec Ideal S20480x1024 .bf16) (V3 m c main_v8)
    (concatenate S20480x1024 0
      [⟨S20002x1024, truncf (F := Ideal) .bf16
          (concatenate S20002x1024 0
            [⟨S20000x1024, extractStridedSlice S20000x1024 ![0, 0] (ar2 m c) slices_S50000x1024_S20000x1024_0_0⟩,
             ⟨S2x1024, ar6 m c⟩] concatenates_S20000x1024_S2x1024_S20002x1024_d0) bitsLt_bf16_f32⟩,
       ⟨S478x1024, broadcastInDim S478x1024 ![] bcast_S_S478x1024 (constant (F := Ideal) S_ .bf16 0x0000#16)⟩]
      concatenates_S20002x1024_S478x1024_S20480x1024_d0) := by
  rw [V3_of m c main_v8 (by decide), V2_of m c main_v8 (by decide)]
  show StableHlo.after hostOps0 (V0 m c) (Proc.devRef .tc main_v8) = _
  after_results <;> rfl

theorem w0_read_lo (j : ℕ) (hj : j < 20000) (k : Fin 1024) :
    wA0 (E3 m) c (ix2 ⟨j, by omega⟩ k) = ar2 m c (ix2 ⟨j, by omega⟩ k) := by
  show (V3 m c main_v8 : Vec Ideal S20480x1024 .bf16) (ix2 ⟨j, by omega⟩ k) = _
  rw [w0_eq, cat_rows_left _ _ _ _ _ (show j < 20002 by omega), truncf_apply,
    cat_rows_left _ _ _ _ _ hj, slice_rows_read 0 _ _ _ _ (show 0 + j < 50000 by omega)]
  exact congrArg (ar2 m c) (by congr 1; exact Fin.ext (Nat.zero_add j))

theorem w0_read_hi (j : ℕ) (hj : 20000 ≤ j) (hj2 : j < 20002) (k : Fin 1024) :
    wA0 (E3 m) c (ix2 ⟨j, by omega⟩ k) = ar6 m c (ix2 ⟨j - 20000, by omega⟩ k) := by
  show (V3 m c main_v8 : Vec Ideal S20480x1024 .bf16) (ix2 ⟨j, by omega⟩ k) = _
  rw [w0_eq, cat_rows_left _ _ _ _ _ (show j < 20002 by omega), truncf_apply,
    cat_rows_right _ _ _ _ _ hj (by show j - 20000 < 2; omega)]

/-- The padded head bias as the host operations build it. -/
theorem b0_eq : @Eq (Vec Ideal S20480 .f32) (V3 m c main_v10)
    (concatenate S20480 0
      [⟨S20002, concatenate S20002 0 [⟨S20000, ar3 m c⟩, ⟨S2, ar7 m c⟩] concatenates_S20000_S2_S20002_d0⟩,
       ⟨S478, broadcastInDim S478 ![] bcast_S_S478 (constant (F := Ideal) S_ .f32 0x00000000#32)⟩]
      concatenates_S20002_S478_S20480_d0) := by
  rw [V3_of m c main_v10 (by decide), V2_of m c main_v10 (by decide)]
  show StableHlo.after hostOps0 (V0 m c) (Proc.devRef .tc main_v10) = _
  after_results <;> rfl

theorem b0_read_lo (j : ℕ) (hj : j < 20000) :
    bA0 (E3 m) c (ix1 ⟨j, by omega⟩) = ar3 m c (ix1 ⟨j, hj⟩) := by
  show (V3 m c main_v10 : Vec Ideal S20480 .f32) (ix1 ⟨j, by omega⟩) = _
  rw [b0_eq, cat_vec_left _ _ _ _ (show j < 20002 by omega), cat_vec_left _ _ _ _ hj]

theorem b0_read_hi (j : ℕ) (hj : 20000 ≤ j) (hj2 : j < 20002) :
    bA0 (E3 m) c (ix1 ⟨j, by omega⟩) = ar7 m c (ix1 ⟨j - 20000, by omega⟩) := by
  show (V3 m c main_v10 : Vec Ideal S20480 .f32) (ix1 ⟨j, by omega⟩) = _
  rw [b0_eq, cat_vec_left _ _ _ _ (show j < 20002 by omega), cat_vec_right _ _ _ _ hj (by show j - 20000 < 2; omega)]

/-- The clipped label as the host operations build it. -/
theorem p0_eq : @Eq (Vec Ideal S4096x1 .i32) (V3 m c main_v12)
    (broadcastInDim S4096x1 ![0] bcast_S4096_S4096x1_0
      (minsi (broadcastInDim S4096 ![] bcast_S_S4096 (constantI S_ 32 19999#32))
        (maxsi (broadcastInDim S4096 ![] bcast_S_S4096 (constantI S_ 32 0#32))
          (shapeCast S4096 (ar1 m c) shapeCasts_S4x1024_S4096)))) := by
  show StableHlo.after hostOps0_2 (V2 m c) (Proc.devRef .tc main_v12) = _
  after_results <;> rfl

/-- Call 0 (head): a valid padded logit is the specification's head logit. -/
theorem glog0_eq (n : Fin 4096) (j : ℕ) (hj : j < 20002) :
    glog0 (E3 m) c n j = Spec.headLogit (ar0 m c) (ar2 m c) (ar3 m c) (ar6 m c) (ar7 m c) (tokB n) (tokS n) ⟨j, hj⟩ := by
  unfold glog0 Spec.headLogit
  rw [dif_pos (show j < 20480 by omega)]
  by_cases h : j < 20000
  · rw [dif_pos (show (⟨j, hj⟩ : Fin 20002).val < 20000 from h)]
    unfold Spec.dotW
    have hs : (∑ k : Fin 1024, xA0 (E3 m) c (ix2 n k) * wA0 (E3 m) c (ix2 ⟨j, by omega⟩ k))
        = ∑ k : Fin 1024, ar0 m c (ix3 (tokB n) (tokS n) k) * ar2 m c (ix2 ⟨j, by omega⟩ k) :=
      Finset.sum_congr rfl fun k _ => by rw [x0_read, w0_read_lo m c j h k]
    rw [hs, b0_read_lo m c j h]
  · rw [dif_neg (show ¬ (⟨j, hj⟩ : Fin 20002).val < 20000 from h)]
    unfold Spec.dotC
    have hs : (∑ k : Fin 1024, xA0 (E3 m) c (ix2 n k) * wA0 (E3 m) c (ix2 ⟨j, by omega⟩ k))
        = ∑ k : Fin 1024, ar0 m c (ix3 (tokB n) (tokS n) k) * ar6 m c (ix2 ⟨j - 20000, by omega⟩ k) :=
      Finset.sum_congr rfl fun k _ => by rw [x0_read, w0_read_hi m c j (by omega) hj k]
    rw [hs, b0_read_hi m c j (by omega) hj]
/-- Its target word is the label clipped into [0, 19999]. -/
theorem pA0_eq (n : Fin 4096) :
    pA0 (E3 m) c (ix2 n 0) = BitVec.ofNat 32 (Spec.pickH (ar1 m c (ix2 (tokB n) (tokS n)))).val := by
  show (V3 m c main_v12 : Vec Ideal S4096x1 .i32) (ix2 n 0) = _
  rw [p0_eq, bcast_col_read]
  show IntOp.minsi 19999#32 (IntOp.maxsi 0#32 (shapeCast S4096 (ar1 m c) shapeCasts_S4x1024_S4096 (ix1 n))) = _
  rw [flat_labels_read]
  exact clip_word _ 19999 (by norm_num)

end Cert.KernelIdeal.Hand

end
-- ==== Proof.KV.HostPre12.lean ====
/-
  What call 1 (the first tail group) finds at its entry, in terms of the arguments. The host operations before the call
  flatten the input, cut rows 20000..39999 out of the embedding table, pad them and the first tail's bias with zero rows up
  to a whole number of tiles, and shift the label down by 20000 and clip it into [0, 19999]. So a token's padded logit of a
  valid column is the specification's first-tail logit of that column, and the target word is the specification's picked
  column.
-/
import proofs.«400642_j36009005809963_2_alg».proof.Proof.KV.Args
import proofs.«400642_j36009005809963_2_alg».proof.Proof.KV.Scan1
import proofs.«400642_j36009005809963_2_alg».proof.Proof.KV.Scan2
import Idealize.ShloMosaic.Lib.StableHlo.Run
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

namespace P1

/-! ## Words: the signed clip -/

/-- Signed max with 0 followed by signed min with a small non-negative bound is the clip into [0, hi]. -/
theorem clip_word (x : BitVec 32) (hi : ℕ) (hhi : hi < 2 ^ 31) :
    IntOp.minsi (BitVec.ofNat 32 hi) (IntOp.maxsi 0#32 x) = BitVec.ofNat 32 (Spec.clipNat x hi) := by
  have h0 : (0#32 : BitVec 32).toInt = 0 := by decide
  have hH : (BitVec.ofNat 32 hi).toInt = (hi : ℤ) := by
    rw [BitVec.toInt_eq_msb_cond, BitVec.msb_eq_false_iff_two_mul_lt.mpr (by simp [BitVec.toNat_ofNat]; omega)]
    simp [BitVec.toNat_ofNat]; omega
  unfold IntOp.minsi IntOp.maxsi Spec.clipNat
  by_cases hneg : x.toInt < 0
  · have hs : x.slt 0#32 = true := BitVec.slt_iff_toInt_lt.mpr (by rw [h0]; exact hneg)
    rw [if_pos hs, if_pos hneg]
    have hn : ¬ ((BitVec.ofNat 32 hi).slt 0#32 = true) := by
      rw [BitVec.slt_iff_toInt_lt, hH, h0]; omega
    rw [if_neg hn]
  · have hs : ¬ (x.slt 0#32 = true) := by rw [BitVec.slt_iff_toInt_lt, h0]; exact hneg
    rw [if_neg hs, if_neg hneg]
    by_cases hbig : (hi : ℤ) < x.toInt
    · have hb : (BitVec.ofNat 32 hi).slt x = true := BitVec.slt_iff_toInt_lt.mpr (by rw [hH]; exact hbig)
      rw [if_pos hb, if_pos hbig]
    · have hb : ¬ ((BitVec.ofNat 32 hi).slt x = true) := by rw [BitVec.slt_iff_toInt_lt, hH]; exact hbig
      rw [if_neg hb, if_neg hbig]
      have hx : x.toInt = (x.toNat : ℤ) := by
        rw [BitVec.toInt_eq_toNat_cond] at hneg ⊢
        split <;> rename_i h2
        · rfl
        · rw [if_neg h2] at hneg; have := x.isLt; omega
      rw [hx, Int.toNat_natCast, BitVec.ofNat_toNat, BitVec.setWidth_eq]

/-! ## Reading the host operations at an index -/

section Reads
variable {α : Type}

/-- Row n of the flattened input is token (n / 1024, n % 1024). -/
theorem flat_rows_read (a : S4x1024x1024.Idx → α) (h : S4x1024x1024.ShapeCasts S4096x1024) (n : Fin 4096) (k : Fin 1024) :
    shapeCast S4096x1024 a h (ix2 n k) = a (ix3 (tokB n) (tokS n) k) := by
  refine shapeCast_apply _ _ _ (ix3 (tokB n) (tokS n) k) ?_
  rw [Shape.rowMajor_val_two, Shape.rowMajor_val_three]
  show ((n.val / 1024) * 1024 + n.val % 1024) * 1024 + k.val = n.val * 1024 + k.val
  have := Nat.div_add_mod n.val 1024; omega

/-- Entry n of the flattened labels is token (n / 1024, n % 1024). -/
theorem flat_labels_read (a : S4x1024.Idx → α) (h : S4x1024.ShapeCasts S4096) (n : Fin 4096) :
    shapeCast S4096 a h (ix1 n) = a (ix2 (tokB n) (tokS n)) := by
  refine shapeCast_apply _ _ _ (ix2 (tokB n) (tokS n)) ?_
  rw [Shape.rowMajor_val_one, Shape.rowMajor_val_two]
  show (n.val / 1024) * 1024 + n.val % 1024 = n.val
  have := Nat.div_add_mod n.val 1024; omega

/-- Two blocks of rows stacked: a row below the joint is the first block's row. -/
theorem cat_rows_left {n₁ n₂ n w : ℕ} (x₁ : (⟨2, ![n₁, w]⟩ : Shape).Idx → α) (x₂ : (⟨2, ![n₂, w]⟩ : Shape).Idx → α)
    (h : Shape.Concatenates [(⟨2, ![n₁, w]⟩ : Shape), ⟨2, ![n₂, w]⟩] ⟨2, ![n, w]⟩ 0) (j : Fin n) (k : Fin w) (hj : j.val < n₁) :
    concatenate ⟨2, ![n, w]⟩ 0 [⟨⟨2, ![n₁, w]⟩, x₁⟩, ⟨⟨2, ![n₂, w]⟩, x₂⟩] h (ix2 j k) = x₁ (ix2 ⟨j.val, hj⟩ k) :=
  concatenate_pair_apply_left 0 x₁ x₂ h (ix2 j k) rfl (ix2 ⟨j.val, hj⟩ k) (fun b => by fin_cases b <;> rfl)

/-- Two vectors joined: an entry below the joint is the first vector's. -/
theorem cat_vec_left {n₁ n₂ n : ℕ} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ix1 j) = x₁ (ix1 ⟨j.val, hj⟩) :=
  concatenate_pair_apply_left 0 x₁ x₂ h (ix1 j) rfl (ix1 ⟨j.val, hj⟩) (fun b => by fin_cases b; rfl)

/-- A block of whole rows cut out of a table, starting at row `off`. -/
theorem slice_rows_read {r r' w : ℕ} (off : ℕ) (x : (⟨2, ![r, w]⟩ : Shape).Idx → α)
    (h : (⟨2, ![r, w]⟩ : Shape).Slices ![off, 0] ⟨2, ![r', w]⟩) (j : Fin r') (k : Fin w) (hj : off + j.val < r) :
    extractStridedSlice ⟨2, ![r', w]⟩ ![off, 0] x h (ix2 j k) = x (ix2 ⟨off + j.val, hj⟩ k) :=
  extractStridedSlice_apply _ x h (ix2 j k) (ix2 ⟨off + j.val, hj⟩ k) (fun a => by
    fin_cases a
    · rfl
    · show k.val = 0 + k.val; omega)

/-- A vector of 4096 words broadcast to one column. -/
theorem bcast_col_read (h : S4096.BroadcastsInDim S4096x1 ![0]) (v : S4096.Idx → α) (n : Fin 4096) :
    broadcastInDim S4096x1 ![0] h v (ix2 n 0) = v (ix1 n) :=
  broadcastInDim_apply _ h v (ix2 n 0) (ix1 n) (fun a => by
    fin_cases a
    show n.val = if (4096 : ℕ) = 1 then 0 else n.val
    rw [if_neg (by decide)])

end Reads

/-! ## Walking a reference back through the stretches that do not write it -/

section Walks
variable (outs : Outs (F := Ideal))

/-- Past call 0 and the two stretches before it, down to the first stretch. -/
theorem walk4 (r : Ref sig .tc) (h4 : r ∉ ([main_v13_0, main_v13_1] : List (Ref sig .tc)))
    (h3 : r ∉ hostOps0_2_W) (h2 : r ∉ hostOps0_1_W) : V4 m outs c r = V1 m c r :=
  (V4_of m outs c r h4).trans <| (V3_of m c r h3).trans (V2_of m c r h2)

/-- Down through the five stretches between calls 0 and 1. -/
theorem walk9 (r : Ref sig .tc) (h9 : r ∉ hostOps1_4_W) (h8 : r ∉ hostOps1_3_W) (h7 : r ∉ hostOps1_2_W)
    (h6 : r ∉ hostOps1_1_W) (h5 : r ∉ hostOps1_W) : V9 m outs c r = V4 m outs c r :=
  (V9_of m outs c r h9).trans <| (V8_of m outs c r h8).trans <| (V7_of m outs c r h7).trans <|
    (V6_of m outs c r h6).trans (V5_of m outs c r h5)

/-- Down through the two stretches after call 0, call 0, and the two stretches before it. -/
theorem walk6 (r : Ref sig .tc) (h6 : r ∉ hostOps1_1_W) (h5 : r ∉ hostOps1_W)
    (h4 : r ∉ ([main_v13_0, main_v13_1] : List (Ref sig .tc))) (h3 : r ∉ hostOps0_2_W) (h2 : r ∉ hostOps0_1_W) :
    V6 m outs c r = V1 m c r :=
  (V6_of m outs c r h6).trans <| (V5_of m outs c r h5).trans (walk4 m c outs r h4 h3 h2)

/-- The first stretch flattens the input and narrows it (the identity on ideal values). -/
theorem v1_at1 : @Eq (Vec Ideal S4096x1024 .bf16) (V1 m c main_v1)
    (truncf (F := Ideal) .bf16 (shapeCast S4096x1024 (ar0 m c) shapeCasts_S4x1024x1024_S4096x1024) bitsLt_bf16_f32) := by
  show StableHlo.after hostOps0 (V0 m c) (Proc.devRef .tc main_v1) = _
  after_results <;> rfl

/-- The first stretch flattens the labels. -/
theorem v2_at1 : @Eq (Vec Ideal S4096 .i32) (V1 m c main_v2)
    (shapeCast S4096 (ar1 m c) shapeCasts_S4x1024_S4096) := by
  show StableHlo.after hostOps0 (V0 m c) (Proc.devRef .tc main_v2) = _
  after_results <;> rfl

end Walks

/-! ## Call 1: the padded first-tail weights and bias, the shifted and clipped label -/

/-- Row n of the input call 1 finds is token n's hidden vector. -/
theorem x1_read (n : Fin 4096) (k : Fin 1024) :
    xA1 (E9 m) c (ix2 n k) = ar0 m c (ix3 (tokB n) (tokS n) k) := by
  show (V9 m (outsA m) c main_v1 : Vec Ideal S4096x1024 .bf16) (ix2 n k) = _
  rw [walk9 m c (outsA m) main_v1 (by decide) (by decide) (by decide) (by decide) (by decide),
    walk4 m c (outsA m) main_v1 (by decide) (by decide) (by decide), v1_at1, truncf_apply, flat_rows_read]

/-- What the third stretch before call 1 writes, from the contents `W` it starts at. -/
theorem ops12_v36 (W : Valuation τ sig (Elt Ideal)) :
    @Eq (Vec Ideal S20480x1024 .bf16) (StableHlo.after hostOps1_2 W (Proc.devRef .tc main_v36))
      (concatenate S20480x1024 0
        [⟨S20000x1024, truncf (F := Ideal) .bf16
            (extractStridedSlice S20000x1024 ![20000, 0] (W (Proc.devRef .tc main_arg2) : Vec Ideal S50000x1024 .f32)
              slices_S50000x1024_S20000x1024_20000_0) bitsLt_bf16_f32⟩,
         ⟨S480x1024, broadcastInDim S480x1024 ![] bcast_S_S480x1024 (constant (F := Ideal) S_ .bf16 0x0000#16)⟩]
        concatenates_S20000x1024_S480x1024_S20480x1024_d0) := by
  after_results <;> rfl

theorem ops12_v38 (W : Valuation τ sig (Elt Ideal)) :
    @Eq (Vec Ideal S20480 .f32) (StableHlo.after hostOps1_2 W (Proc.devRef .tc main_v38))
      (concatenate S20480 0
        [⟨S20000, (W (Proc.devRef .tc main_arg4) : Vec Ideal S20000 .f32)⟩,
         ⟨S480, broadcastInDim S480 ![] bcast_S_S480 (constant (F := Ideal) S_ .f32 0x00000000#32)⟩]
        concatenates_S20000_S480_S20480_d0) := by
  after_results <;> rfl

theorem ops12_v40 (W : Valuation τ sig (Elt Ideal)) :
    @Eq (Vec Ideal S4096 .i32) (StableHlo.after hostOps1_2 W (Proc.devRef .tc main_v40))
      (subi (W (Proc.devRef .tc main_v2) : Vec Ideal S4096 .i32)
        (broadcastInDim S4096 ![] bcast_S_S4096 (constantI S_ 32 20000#32))) := by
  after_results <;> rfl

theorem ops12_c7 (W : Valuation τ sig (Elt Ideal)) :
    @Eq (Vec Ideal S_ .i32) (StableHlo.after hostOps1_2 W (Proc.devRef .tc main_c_7)) (constantI S_ 32 0#32) := by
  after_results <;> rfl

theorem ops12_c8 (W : Valuation τ sig (Elt Ideal)) :
    @Eq (Vec Ideal S_ .i32) (StableHlo.after hostOps1_2 W (Proc.devRef .tc main_c_8)) (constantI S_ 32 19999#32) := by
  after_results <;> rfl

/-- The clip, as the outlined function's stretch computes it from the contents `W` it starts at. -/
theorem ops13_v41 (W : Valuation τ sig (Elt Ideal)) :
    @Eq (Vec Ideal S4096 .i32) (StableHlo.after hostOps1_3 W (Proc.devRef .tc main_v41))
      (minsi (broadcastInDim S4096 ![] bcast_S_S4096 (W (Proc.devRef .tc main_c_8) : Vec Ideal S_ .i32))
        (maxsi (broadcastInDim S4096 ![] bcast_S_S4096 (W (Proc.devRef .tc main_c_7) : Vec Ideal S_ .i32))
          (W (Proc.devRef .tc main_v40) : Vec Ideal S4096 .i32))) := by
  after_results <;> rfl

theorem ops14_v42 (W : Valuation τ sig (Elt Ideal)) :
    @Eq (Vec Ideal S4096x1 .i32) (StableHlo.after hostOps1_4 W (Proc.devRef .tc main_v42))
      (broadcastInDim S4096x1 ![0] bcast_S4096_S4096x1_0 (W (Proc.devRef .tc main_v41) : Vec Ideal S4096 .i32)) := by
  after_results <;> rfl

/-- Row j < 20000 of the padded weights call 1 finds is row 20000 + j of the embedding table. -/
theorem w1_read (j : ℕ) (hj : j < 20000) (k : Fin 1024) :
    wA1 (E9 m) c (ix2 ⟨j, by omega⟩ k) = ar2 m c (ix2 ⟨20000 + j, by omega⟩ k) := by
  show (V9 m (outsA m) c main_v36 : Vec Ideal S20480x1024 .bf16) (ix2 ⟨j, by omega⟩ k) = _
  rw [V9_of m (outsA m) c main_v36 (by decide), V8_of m (outsA m) c main_v36 (by decide),
    show (V7 m (outsA m) c main_v36 : Vec Ideal S20480x1024 .bf16) = _ from ops12_v36 (V6 m (outsA m) c),
    cat_rows_left _ _ _ _ _ hj, truncf_apply, slice_rows_read 20000 _ _ _ _ (show 20000 + j < 50000 by omega),
    walk6 m c (outsA m) main_arg2 (by decide) (by decide) (by decide) (by decide) (by decide),
    V1_of m c main_arg2 (by decide)]

/-- Entry j < 20000 of the padded bias call 1 finds is the first tail's bias. -/
theorem b1_read (j : ℕ) (hj : j < 20000) :
    bA1 (E9 m) c (ix1 ⟨j, by omega⟩) = ar4 m c (ix1 ⟨j, hj⟩) := by
  show (V9 m (outsA m) c main_v38 : Vec Ideal S20480 .f32) (ix1 ⟨j, by omega⟩) = _
  rw [V9_of m (outsA m) c main_v38 (by decide), V8_of m (outsA m) c main_v38 (by decide),
    show (V7 m (outsA m) c main_v38 : Vec Ideal S20480 .f32) = _ from ops12_v38 (V6 m (outsA m) c),
    cat_vec_left _ _ _ _ hj,
    walk6 m c (outsA m) main_arg4 (by decide) (by decide) (by decide) (by decide) (by decide),
    V1_of m c main_arg4 (by decide)]

end P1

/-- Call 1 (first tail). -/
theorem glog1_eq (n : Fin 4096) (j : ℕ) (hj : j < 20000) :
    glog1 (E9 m) c n j = Spec.tail1Logit (ar0 m c) (ar2 m c) (ar4 m c) (tokB n) (tokS n) ⟨j, hj⟩ := by
  unfold glog1
  rw [dif_pos (show j < 20480 by omega), P1.b1_read m c j hj]
  have hs : (∑ k : Fin 1024, xA1 (E9 m) c (ix2 n k) * wA1 (E9 m) c (ix2 ⟨j, by omega⟩ k))
      = Spec.dotW (ar0 m c) (ar2 m c) (tokB n) (tokS n) ⟨20000 + j, by omega⟩ := by
    unfold Spec.dotW
    refine Finset.sum_congr rfl fun k _ => ?_
    rw [P1.x1_read, P1.w1_read m c j hj k]
  rw [hs]
  rfl

theorem pA1_eq (n : Fin 4096) :
    pA1 (E9 m) c (ix2 n 0) = BitVec.ofNat 32 (Spec.pick1 (ar1 m c (ix2 (tokB n) (tokS n)))).val := by
  show (V9 m (outsA m) c main_v42 : Vec Ideal S4096x1 .i32) (ix2 n 0) = _
  rw [show (V9 m (outsA m) c main_v42 : Vec Ideal S4096x1 .i32) = _ from P1.ops14_v42 (V8 m (outsA m) c), P1.bcast_col_read,
    show (V8 m (outsA m) c main_v41 : Vec Ideal S4096 .i32) = _ from P1.ops13_v41 (V7 m (outsA m) c),
    show (V7 m (outsA m) c main_c_8 : Vec Ideal S_ .i32) = _ from P1.ops12_c8 (V6 m (outsA m) c),
    show (V7 m (outsA m) c main_c_7 : Vec Ideal S_ .i32) = _ from P1.ops12_c7 (V6 m (outsA m) c),
    show (V7 m (outsA m) c main_v40 : Vec Ideal S4096 .i32) = _ from P1.ops12_v40 (V6 m (outsA m) c),
    P1.walk6 m c (outsA m) main_v2 (by decide) (by decide) (by decide) (by decide) (by decide), P1.v2_at1]
  show IntOp.minsi (BitVec.ofNat 32 19999) (IntOp.maxsi 0#32
    (shapeCast S4096 (ar1 m c) shapeCasts_S4x1024_S4096 (ix1 n) - 20000#32)) = _
  rw [P1.flat_labels_read]
  exact P1.clip_word _ 19999 (by norm_num)

end Cert.KernelIdeal.Hand

end
-- ==== Proof.KV.HostPre2.lean ====
/-
  What the second tail's call finds at its entry, in terms of the arguments. The host operations before it slice rows
  40000..49999 of the embedding table, pad weights and bias with 240 zero rows up to a whole number of tiles, and clip the
  label shifted down by 40000 into [0, 9999]; no earlier call writes any array these are built from. So a token's padded
  logit of a valid column is the specification's second-tail logit of that column, and the target word is the
  specification's picked column.
-/
import proofs.«400642_j36009005809963_2_alg».proof.Proof.KV.Args
import proofs.«400642_j36009005809963_2_alg».proof.Proof.KV.Scan2
import Idealize.ShloMosaic.Lib.StableHlo.Run
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

namespace P2

/-! ## Words: the signed clip -/

/-- Signed max with 0 followed by signed min with a small non-negative bound is the clip into [0, hi]. -/
theorem clip_word (x : BitVec 32) (hi : ℕ) (hhi : hi < 2 ^ 31) :
    IntOp.minsi (BitVec.ofNat 32 hi) (IntOp.maxsi 0#32 x) = BitVec.ofNat 32 (Spec.clipNat x hi) := by
  have h0 : (0#32 : BitVec 32).toInt = 0 := by decide
  have hH : (BitVec.ofNat 32 hi).toInt = (hi : ℤ) := by
    rw [BitVec.toInt_eq_msb_cond, BitVec.msb_eq_false_iff_two_mul_lt.mpr (by simp [BitVec.toNat_ofNat]; omega)]
    simp [BitVec.toNat_ofNat]; omega
  unfold IntOp.minsi IntOp.maxsi Spec.clipNat
  by_cases hneg : x.toInt < 0
  · have hs : x.slt 0#32 = true := BitVec.slt_iff_toInt_lt.mpr (by rw [h0]; exact hneg)
    rw [if_pos hs, if_pos hneg]
    have hn : ¬ ((BitVec.ofNat 32 hi).slt 0#32 = true) := by
      rw [BitVec.slt_iff_toInt_lt, hH, h0]; omega
    rw [if_neg hn]
  · have hs : ¬ (x.slt 0#32 = true) := by rw [BitVec.slt_iff_toInt_lt, h0]; exact hneg
    rw [if_neg hs, if_neg hneg]
    by_cases hbig : (hi : ℤ) < x.toInt
    · have hb : (BitVec.ofNat 32 hi).slt x = true := BitVec.slt_iff_toInt_lt.mpr (by rw [hH]; exact hbig)
      rw [if_pos hb, if_pos hbig]
    · have hb : ¬ ((BitVec.ofNat 32 hi).slt x = true) := by rw [BitVec.slt_iff_toInt_lt, hH]; exact hbig
      rw [if_neg hb, if_neg hbig]
      have hx : x.toInt = (x.toNat : ℤ) := by
        rw [BitVec.toInt_eq_toNat_cond] at hneg ⊢
        split <;> rename_i h2
        · rfl
        · rw [if_neg h2] at hneg; have := x.isLt; omega
      rw [hx, Int.toNat_natCast, BitVec.ofNat_toNat, BitVec.setWidth_eq]

/-! ## Reading the host operations at an index -/

section Reads
variable {α : Type}

/-- Row n of the flattened input is token (n / 1024, n % 1024). -/
theorem flat_rows_read (a : S4x1024x1024.Idx → α) (h : S4x1024x1024.ShapeCasts S4096x1024) (n : Fin 4096) (k : Fin 1024) :
    shapeCast S4096x1024 a h (ix2 n k) = a (ix3 (tokB n) (tokS n) k) := by
  refine shapeCast_apply _ _ _ (ix3 (tokB n) (tokS n) k) ?_
  rw [Shape.rowMajor_val_two, Shape.rowMajor_val_three]
  show ((n.val / 1024) * 1024 + n.val % 1024) * 1024 + k.val = n.val * 1024 + k.val
  have := Nat.div_add_mod n.val 1024; omega

/-- Entry n of the flattened labels is token (n / 1024, n % 1024). -/
theorem flat_labels_read (a : S4x1024.Idx → α) (h : S4x1024.ShapeCasts S4096) (n : Fin 4096) :
    shapeCast S4096 a h (ix1 n) = a (ix2 (tokB n) (tokS n)) := by
  refine shapeCast_apply _ _ _ (ix2 (tokB n) (tokS n)) ?_
  rw [Shape.rowMajor_val_one, Shape.rowMajor_val_two]
  show (n.val / 1024) * 1024 + n.val % 1024 = n.val
  have := Nat.div_add_mod n.val 1024; omega

/-- Two blocks of rows stacked: a row below the joint is the first block's row. -/
theorem cat_rows_left {n₁ n₂ n w : ℕ} (x₁ : (⟨2, ![n₁, w]⟩ : Shape).Idx → α) (x₂ : (⟨2, ![n₂, w]⟩ : Shape).Idx → α)
    (h : Shape.Concatenates [(⟨2, ![n₁, w]⟩ : Shape), ⟨2, ![n₂, w]⟩] ⟨2, ![n, w]⟩ 0) (j : Fin n) (k : Fin w) (hj : j.val < n₁) :
    concatenate ⟨2, ![n, w]⟩ 0 [⟨⟨2, ![n₁, w]⟩, x₁⟩, ⟨⟨2, ![n₂, w]⟩, x₂⟩] h (ix2 j k) = x₁ (ix2 ⟨j.val, hj⟩ k) :=
  concatenate_pair_apply_left 0 x₁ x₂ h (ix2 j k) rfl (ix2 ⟨j.val, hj⟩ k) (fun b => by fin_cases b <;> rfl)

/-- Two vectors joined: an entry below the joint is the first vector's. -/
theorem cat_vec_left {n₁ n₂ n : ℕ} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ix1 j) = x₁ (ix1 ⟨j.val, hj⟩) :=
  concatenate_pair_apply_left 0 x₁ x₂ h (ix1 j) rfl (ix1 ⟨j.val, hj⟩) (fun b => by fin_cases b; rfl)

/-- A block of whole rows cut out of a table, starting at row `off`. -/
theorem slice_rows_read {r r' w : ℕ} (off : ℕ) (x : (⟨2, ![r, w]⟩ : Shape).Idx → α)
    (h : (⟨2, ![r, w]⟩ : Shape).Slices ![off, 0] ⟨2, ![r', w]⟩) (j : Fin r') (k : Fin w) (hj : off + j.val < r) :
    extractStridedSlice ⟨2, ![r', w]⟩ ![off, 0] x h (ix2 j k) = x (ix2 ⟨off + j.val, hj⟩ k) :=
  extractStridedSlice_apply _ x h (ix2 j k) (ix2 ⟨off + j.val, hj⟩ k) (fun a => by
    fin_cases a
    · rfl
    · show k.val = 0 + k.val; omega)

/-- A vector of 4096 words broadcast to one column. -/
theorem bcast_col_read (h : S4096.BroadcastsInDim S4096x1 ![0]) (v : S4096.Idx → α) (n : Fin 4096) :
    broadcastInDim S4096x1 ![0] h v (ix2 n 0) = v (ix1 n) :=
  broadcastInDim_apply _ h v (ix2 n 0) (ix1 n) (fun a => by
    fin_cases a
    show n.val = if (4096 : ℕ) = 1 then 0 else n.val
    rw [if_neg (by decide)])

end Reads

/-! ## Back through the stretches that leave a reference alone -/

/-- A reference that nothing between the first host stretch and the second tail's own stretches writes holds there
    what the first stretch left in it. -/
theorem V12_back (outs : Outs (F := Ideal)) (r : Ref sig .tc)
    (h2 : r ∉ hostOps0_1_W) (h3 : r ∉ hostOps0_2_W) (h4 : r ∉ ([main_v13_0, main_v13_1] : List (Ref sig .tc)))
    (h5 : r ∉ hostOps1_W) (h6 : r ∉ hostOps1_1_W) (h7 : r ∉ hostOps1_2_W) (h8 : r ∉ hostOps1_3_W)
    (h9 : r ∉ hostOps1_4_W) (h10 : r ∉ ([main_v43_0, main_v43_1] : List (Ref sig .tc)))
    (h11 : r ∉ hostOps2_W) (h12 : r ∉ hostOps2_1_W) :
    V12 m outs c r = V1 m c r :=
  (V12_of m outs c r h12).trans <| (V11_of m outs c r h11).trans <| (V10_of m outs c r h10).trans <|
  (V9_of m outs c r h9).trans <| (V8_of m outs c r h8).trans <| (V7_of m outs c r h7).trans <|
  (V6_of m outs c r h6).trans <| (V5_of m outs c r h5).trans <| (V4_of m outs c r h4).trans <|
  (V3_of m c r h3).trans <| (V2_of m c r h2)

theorem arg2_at12 (outs : Outs (F := Ideal)) : V12 m outs c main_arg2 = ar2 m c :=
  (V12_back m c outs main_arg2 (by decide) (by decide) (by decide) (by decide) (by decide) (by decide) (by decide)
    (by decide) (by decide) (by decide) (by decide)).trans (V1_of m c main_arg2 (by decide))

theorem arg5_at12 (outs : Outs (F := Ideal)) : V12 m outs c main_arg5 = ar5 m c :=
  (V12_back m c outs main_arg5 (by decide) (by decide) (by decide) (by decide) (by decide) (by decide) (by decide)
    (by decide) (by decide) (by decide) (by decide)).trans (V1_of m c main_arg5 (by decide))

/-! ## Call 2: the flattened input, the padded second-tail weights and bias, the shifted and clipped label -/

/-- The flattened input as the first stretch builds it. -/
theorem x_at1 : @Eq (Vec Ideal S4096x1024 .bf16) (V1 m c main_v1)
    (truncf (F := Ideal) .bf16 (shapeCast S4096x1024 (ar0 m c) shapeCasts_S4x1024x1024_S4096x1024) bitsLt_bf16_f32) := by
  show StableHlo.after hostOps0 (V0 m c) (Proc.devRef .tc main_v1) = _
  after_results <;> rfl

/-- The flattened labels as the first stretch builds them. -/
theorem lab_at1 : @Eq (Vec Ideal S4096 .i32) (V1 m c main_v2) (shapeCast S4096 (ar1 m c) shapeCasts_S4x1024_S4096) := by
  show StableHlo.after hostOps0 (V0 m c) (Proc.devRef .tc main_v2) = _
  after_results <;> rfl

theorem x2_read (n : Fin 4096) (k : Fin 1024) :
    xA2 (E15 m) c (ix2 n k) = ar0 m c (ix3 (tokB n) (tokS n) k) := by
  have e : V15 m (outsB m) c main_v1 = V1 m c main_v1 :=
    (V15_of m (outsB m) c main_v1 (by decide)).trans <| (V14_of m (outsB m) c main_v1 (by decide)).trans <|
    (V13_of m (outsB m) c main_v1 (by decide)).trans <|
    V12_back m c (outsB m) main_v1 (by decide) (by decide) (by decide) (by decide) (by decide) (by decide) (by decide)
      (by decide) (by decide) (by decide) (by decide)
  show (V15 m (outsB m) c main_v1 : Vec Ideal S4096x1024 .bf16) (ix2 n k) = _
  rw [e, x_at1, truncf_apply, flat_rows_read]

/-- The padded weights as the call's own stretch builds them, over whatever it finds. -/
theorem w2_after (W : Valuation τ sig (Elt Ideal)) :
    @Eq (Vec Ideal S10240x1024 .bf16) (StableHlo.after hostOps2_2 W (Proc.devRef .tc main_v62))
    (concatenate S10240x1024 0
      [⟨S10000x1024, truncf (F := Ideal) .bf16
          (extractStridedSlice S10000x1024 ![40000, 0] (W (Proc.devRef .tc main_arg2) : Vec Ideal S50000x1024 .f32)
            slices_S50000x1024_S10000x1024_40000_0) bitsLt_bf16_f32⟩,
       ⟨S240x1024, broadcastInDim S240x1024 ![] bcast_S_S240x1024 (constant (F := Ideal) S_ .bf16 0x0000#16)⟩]
      concatenates_S10000x1024_S240x1024_S10240x1024_d0) := by
  after_results <;> rfl

theorem w2_read (j : ℕ) (hj : j < 10000) (k : Fin 1024) :
    wA2 (E15 m) c (ix2 ⟨j, by omega⟩ k) = ar2 m c (ix2 ⟨40000 + j, by omega⟩ k) := by
  have e : V15 m (outsB m) c main_v62 = V13 m (outsB m) c main_v62 :=
    (V15_of m (outsB m) c main_v62 (by decide)).trans (V14_of m (outsB m) c main_v62 (by decide))
  show (V15 m (outsB m) c main_v62 : Vec Ideal S10240x1024 .bf16) (ix2 ⟨j, by omega⟩ k) = _
  rw [e]
  show (StableHlo.after hostOps2_2 (V12 m (outsB m) c) (Proc.devRef .tc main_v62) : Vec Ideal S10240x1024 .bf16)
    (ix2 ⟨j, by omega⟩ k) = _
  rw [w2_after, cat_rows_left _ _ _ _ _ hj, truncf_apply, slice_rows_read 40000 _ _ _ _ (show 40000 + j < 50000 by omega)]
  exact congrFun (arg2_at12 m c (outsB m)) _

/-- The padded bias likewise. -/
theorem b2_after (W : Valuation τ sig (Elt Ideal)) :
    @Eq (Vec Ideal S10240 .f32) (StableHlo.after hostOps2_2 W (Proc.devRef .tc main_v64))
    (concatenate S10240 0
      [⟨S10000, (W (Proc.devRef .tc main_arg5) : Vec Ideal S10000 .f32)⟩,
       ⟨S240, broadcastInDim S240 ![] bcast_S_S240 (constant (F := Ideal) S_ .f32 0x00000000#32)⟩]
      concatenates_S10000_S240_S10240_d0) := by
  after_results <;> rfl

theorem b2_read (j : ℕ) (hj : j < 10000) :
    bA2 (E15 m) c (ix1 ⟨j, by omega⟩) = ar5 m c (ix1 ⟨j, hj⟩) := by
  have e : V15 m (outsB m) c main_v64 = V13 m (outsB m) c main_v64 :=
    (V15_of m (outsB m) c main_v64 (by decide)).trans (V14_of m (outsB m) c main_v64 (by decide))
  show (V15 m (outsB m) c main_v64 : Vec Ideal S10240 .f32) (ix1 ⟨j, by omega⟩) = _
  rw [e]
  show (StableHlo.after hostOps2_2 (V12 m (outsB m) c) (Proc.devRef .tc main_v64) : Vec Ideal S10240 .f32)
    (ix1 ⟨j, by omega⟩) = _
  rw [b2_after, cat_vec_left _ _ _ _ hj]
  exact congrFun (arg5_at12 m c (outsB m)) _

/-- The shifted and clipped label as the call's three stretches build it, over whatever they find. -/
theorem p2_after (W : Valuation τ sig (Elt Ideal)) :
    @Eq (Vec Ideal S4096x1 .i32)
      (StableHlo.after hostOps2_4 (StableHlo.after hostOps2_3 (StableHlo.after hostOps2_2 W)) (Proc.devRef .tc main_v68))
      (broadcastInDim S4096x1 ![0] bcast_S4096_S4096x1_0
        (minsi (broadcastInDim S4096 ![] bcast_S_S4096 (constantI S_ 32 9999#32))
          (maxsi (broadcastInDim S4096 ![] bcast_S_S4096 (constantI S_ 32 0#32))
            (subi (W (Proc.devRef .tc main_v2) : Vec Ideal S4096 .i32)
              (broadcastInDim S4096 ![] bcast_S_S4096 (constantI S_ 32 40000#32)))))) := by
  after_results <;> rfl

end P2

/-- Call 2 (second tail). -/
theorem glog2_eq (n : Fin 4096) (j : ℕ) (hj : j < 10000) :
    glog2 (E15 m) c n j = Spec.tail2Logit (ar0 m c) (ar2 m c) (ar5 m c) (tokB n) (tokS n) ⟨j, hj⟩ := by
  unfold glog2 Spec.tail2Logit Spec.dotW
  rw [dif_pos (show j < 10240 by omega)]
  have hs : (∑ k : Fin 1024, xA2 (E15 m) c (ix2 n k) * wA2 (E15 m) c (ix2 ⟨j, by omega⟩ k))
      = ∑ k : Fin 1024, ar0 m c (ix3 (tokB n) (tokS n) k) * ar2 m c (ix2 ⟨40000 + j, by omega⟩ k) :=
    Finset.sum_congr rfl fun k _ => by rw [P2.x2_read, P2.w2_read m c j hj k]
  rw [hs, P2.b2_read m c j hj]
theorem pA2_eq (n : Fin 4096) :
    pA2 (E15 m) c (ix2 n 0) = BitVec.ofNat 32 (Spec.pick2 (ar1 m c (ix2 (tokB n) (tokS n)))).val := by
  have e : V12 m (outsB m) c main_v2 = V1 m c main_v2 :=
    P2.V12_back m c (outsB m) main_v2 (by decide) (by decide) (by decide) (by decide) (by decide) (by decide) (by decide)
      (by decide) (by decide) (by decide) (by decide)
  show (StableHlo.after hostOps2_4 (StableHlo.after hostOps2_3 (StableHlo.after hostOps2_2 (V12 m (outsB m) c)))
    (Proc.devRef .tc main_v68) : Vec Ideal S4096x1 .i32) (ix2 n 0) = _
  rw [P2.p2_after, P2.bcast_col_read, e, P2.lab_at1]
  show IntOp.minsi 9999#32 (IntOp.maxsi 0#32
    (IntOp.subi (shapeCast S4096 (ar1 m c) shapeCasts_S4x1024_S4096 (ix1 n)) 40000#32)) = _
  rw [P2.flat_labels_read]
  exact P2.clip_word _ 9999 (by norm_num)

end Cert.KernelIdeal.Hand

end
-- ==== Proof.KV.LogitReal.lean ====
/-
  The specification's logits are real numbers when every float argument entry is: a logit is a finite sum of products of
  entries plus an entry, and the reals are closed under finite sums and products inside the extended reals.
-/
import proofs.«400642_j36009005809963_2_alg».proof.Proof.KV.Args
import Mathlib.Data.EReal.Basic
import Mathlib.Data.EReal.Operations
import Mathlib.Algebra.BigOperators.Group.Finset.Basic
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The coercion of the reals into the extended reals commutes with finite sums. -/
theorem ereal_coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of products of real entries is real. -/
theorem sum_mul_real {n : ℕ} (f g : Fin n → EReal) (hf : ∀ i, ∃ r : ℝ, f i = (r : EReal))
    (hg : ∀ i, ∃ r : ℝ, g i = (r : EReal)) : ∃ r : ℝ, ∑ i, f i * g i = (r : EReal) := by
  choose f' hf' using hf
  choose g' hg' using hg
  refine ⟨∑ i, f' i * g' i, ?_⟩
  rw [ereal_coe_sum]
  exact Finset.sum_congr rfl fun i _ => by rw [hf', hg', EReal.coe_mul]

/-- A real plus a real is real. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

variable (m : (ℓ : Loc nD τ sig) → Buf (Elt Ideal) ℓ) (c : Dev nD)

/-- A token's dot product with a row of the embedding table is real. -/
theorem dotW_real (h : RealArgs m c) (b : Fin 4) (s : Fin 1024) (v : Fin 50000) :
    ∃ r : ℝ, Spec.dotW (ar0 m c) (ar2 m c) b s v = (r : EReal) :=
  sum_mul_real _ _ (fun k => h.h0 (ix3 b s k)) (fun k => h.h2 (ix2 v k))

/-- A token's dot product with a cluster row is real. -/
theorem dotC_real (h : RealArgs m c) (b : Fin 4) (s : Fin 1024) (j : Fin 2) :
    ∃ r : ℝ, Spec.dotC (ar0 m c) (ar6 m c) b s j = (r : EReal) :=
  sum_mul_real _ _ (fun k => h.h0 (ix3 b s k)) (fun k => h.h6 (ix2 j k))

/-- The specification's logits are real when the arguments are. -/
theorem headLogit_real (h : RealArgs m c) (b : Fin 4) (s : Fin 1024) (v : Fin 20002) :
    ∃ r : ℝ, Spec.headLogit (ar0 m c) (ar2 m c) (ar3 m c) (ar6 m c) (ar7 m c) b s v = (r : EReal) := by
  unfold Spec.headLogit
  split
  · exact add_real (dotW_real m c h b s _) (h.h3 _)
  · exact add_real (dotC_real m c h b s _) (h.h7 _)
theorem tail1Logit_real (h : RealArgs m c) (b : Fin 4) (s : Fin 1024) (v : Fin 20000) :
    ∃ r : ℝ, Spec.tail1Logit (ar0 m c) (ar2 m c) (ar4 m c) b s v = (r : EReal) :=
  add_real (dotW_real m c h b s _) (h.h4 _)
theorem tail2Logit_real (h : RealArgs m c) (b : Fin 4) (s : Fin 1024) (v : Fin 10000) :
    ∃ r : ℝ, Spec.tail2Logit (ar0 m c) (ar2 m c) (ar5 m c) b s v = (r : EReal) :=
  add_real (dotW_real m c h b s _) (h.h5 _)

end Cert.KernelIdeal.Hand

end
-- ==== Proof.KV.HostPost.lean ====
/-
  The kernel program's result at the ideal values. After the three calls the host takes, per group, log (sum) + maximum
  from the packed output, subtracts it from the picked logit (and, for the head, from the two cluster logits, computed by
  one small matrix product of the flattened input with the transposed cluster rows plus the cluster bias), and combines
  the three masked terms. With the calls' final arrays known and every logit real, x - (log S + M) = (x - M) - log S, so
  the result array is the specification.
  The text goes in four steps. First, generic facts joining the online softmax's row quantities (over padded columns) to
  the specification's (over exactly the valid columns), and the algebra of a log-probability on real data. Second, the
  tail's pieces as pure functions read at an index (the log-sum-exp column, the cluster product, the casts, the masks).
  Third, each stretch of host operations as one equation over the valuation it starts from, and from those the three
  masked terms at a token. Last, the walk of every buffer back to where it was written, the calls' outputs, and the
  substitution of the specification's quantities.
-/
import proofs.«400642_j36009005809963_2_alg».proof.Proof.KV.HostPre
import proofs.«400642_j36009005809963_2_alg».proof.Proof.KV.HostPre12
import proofs.«400642_j36009005809963_2_alg».proof.Proof.KV.HostPre2
import proofs.«400642_j36009005809963_2_alg».proof.Proof.KV.LogitReal
import Idealize.ShloMosaic.PureOps.Ideal.Laws
import Mathlib.Algebra.BigOperators.Fin
import Mathlib.Algebra.Order.BigOperators.Group.Finset
import Mathlib.Analysis.SpecialFunctions.Log.Basic
import Mathlib.Tactic.Ring
import Mathlib.Tactic.Linarith
set_option maxRecDepth 16384

noncomputable section

/-! ### The online softmax's row quantities against the specification's, and the algebra of a log-probability -/

namespace Cert.Bridge

open Idealize.ShloMosaic

/-- A sum over `Fin N` of a function of the column number, masked to the first `V ≤ N` columns, is the sum over `Fin V`. -/
theorem sum_fin_ite_lt (N V : ℕ) (hV : V ≤ N) (F : ℕ → EReal) :
    (∑ j : Fin N, if j.val < V then F j.val else 0) = ∑ v : Fin V, F v.val := by
  rw [Fin.sum_univ_eq_sum_range (fun i => if i < V then F i else 0) N, Fin.sum_univ_eq_sum_range F V,
    ← Finset.sum_filter]
  congr 1
  ext i
  simp only [Finset.mem_filter, Finset.mem_range]
  omega

section
variable (B V T : ℕ) (g : ℕ → EReal) (f : Fin V → EReal)

/-- The padded row's maximum is the valid row's maximum. -/
theorem vmax_eq_rmax (hV : V ≤ T * B) (hg : ∀ j (hj : j < V), g j = f ⟨j, hj⟩) :
    Online.vmax B V g T = Spec.rmax f := by
  change (Finset.univ : Finset (Fin (T * B))).sup (fun j => if j.val < V then g j.val else ⊥)
    = (Finset.univ : Finset (Fin V)).sup f
  apply le_antisymm
  · refine Finset.sup_le fun j _ => ?_
    by_cases hj : j.val < V
    · rw [if_pos hj, hg j.val hj]
      exact Finset.le_sup (f := f) (Finset.mem_univ _)
    · rw [if_neg hj]; exact bot_le
  · refine Finset.sup_le fun v _ => ?_
    have hv : v.val < T * B := lt_of_lt_of_le v.isLt hV
    have := Finset.le_sup (f := fun j : Fin (T * B) => if j.val < V then g j.val else ⊥)
      (Finset.mem_univ (⟨v.val, hv⟩ : Fin (T * B)))
    simp only [v.isLt, if_true] at this
    rw [hg v.val v.isLt] at this
    exact this

/-- The padded row's sum of shifted exponentials is the valid row's. -/
theorem vsum_eq_rsum (hV : V ≤ T * B) (hg : ∀ j (hj : j < V), g j = f ⟨j, hj⟩) :
    Online.vsum B V g T = Spec.rsum f := by
  unfold Online.vsum Spec.rsum
  rw [vmax_eq_rmax B V T g f hV hg]
  rw [sum_fin_ite_lt (T * B) V hV (fun i => Ideal.exp (g i - Spec.rmax f))]
  refine Finset.sum_congr rfl fun v _ => ?_
  rw [hg v.val v.isLt]

end

/-- The logit picked at the word of a column below T*B < 2^32 is that column's logit. -/
theorem vpick_eq (B T : ℕ) (g : ℕ → EReal) (p : ℕ) (hp : p < T * B) (hTB : T * B < 2 ^ 32) :
    Online.vpick B g (BitVec.ofNat 32 p) T = g p := by
  unfold Online.vpick
  rw [Finset.sum_eq_single (⟨p, hp⟩ : Fin (T * B))]
  · simp
  · intro j _ hne
    rw [if_neg]
    intro heq
    apply hne
    have h2 := congrArg BitVec.toNat heq
    rw [BitVec.toNat_ofNat, BitVec.toNat_ofNat, Nat.mod_eq_of_lt (lt_trans j.isLt hTB),
      Nat.mod_eq_of_lt (lt_trans hp hTB)] at h2
    exact Fin.ext h2
  · intro h; exact absurd (Finset.mem_univ _) h

/-- The inclusion of the reals commutes with finite sums. -/
theorem coe_sum {ι : Type} (s : Finset ι) (F : ι → ℝ) : ((∑ i ∈ s, F i : ℝ) : EReal) = ∑ i ∈ s, (F i : EReal) :=
  map_sum (⟨⟨Real.toEReal, EReal.coe_zero⟩, EReal.coe_add⟩ : ℝ →+ EReal) F s

section
variable {V : ℕ} (f : Fin V → EReal)

/-- A nonempty row of real logits has a real maximum, attained at some column. -/
theorem rmax_real (hV : 0 < V) (hf : ∀ v, ∃ r : ℝ, f v = (r : EReal)) :
    ∃ M : ℝ, Spec.rmax f = (M : EReal) := by
  have hne : (Finset.univ : Finset (Fin V)).Nonempty := ⟨⟨0, hV⟩, Finset.mem_univ _⟩
  obtain ⟨i, _, hi⟩ := Finset.exists_mem_eq_sup (Finset.univ : Finset (Fin V)) hne f
  obtain ⟨r, hr⟩ := hf i
  exact ⟨r, (show Spec.rmax f = (Finset.univ : Finset (Fin V)).sup f from rfl).trans (hi.trans hr)⟩

/-- Its sum of shifted exponentials is a positive real. -/
theorem rsum_real_pos (hV : 0 < V) (hf : ∀ v, ∃ r : ℝ, f v = (r : EReal)) :
    ∃ S : ℝ, 0 < S ∧ Spec.rsum f = (S : EReal) := by
  obtain ⟨M, hM⟩ := rmax_real f hV hf
  choose r hr using hf
  refine ⟨∑ v : Fin V, Real.exp (r v - M), ?_, ?_⟩
  · have hne : (Finset.univ : Finset (Fin V)).Nonempty := ⟨⟨0, hV⟩, Finset.mem_univ _⟩
    exact Finset.sum_pos (fun v _ => Real.exp_pos _) hne
  · unfold Spec.rsum
    rw [hM, coe_sum]
    refine Finset.sum_congr rfl fun v _ => ?_
    rw [hr v, ← EReal.coe_sub, Ideal.exp_coe]

/-- The kernel's x - (log S + M) is the specification's log-probability. -/
theorem sub_lse_eq_logprob (hV : 0 < V) (hf : ∀ v, ∃ r : ℝ, f v = (r : EReal)) (p : Fin V) :
    f p - (Ideal.log (Spec.rsum f) + Spec.rmax f) = Spec.logprob f p := by
  obtain ⟨M, hM⟩ := rmax_real f hV hf
  obtain ⟨S, hS, hSe⟩ := rsum_real_pos f hV hf
  obtain ⟨x, hx⟩ := hf p
  unfold Spec.logprob
  rw [hM, hSe, hx, Ideal.log_coe, if_neg (not_le.2 hS)]
  rw [← EReal.coe_add, ← EReal.coe_sub, ← EReal.coe_sub, ← EReal.coe_sub]
  congr 1
  ring

/-- A log-probability of a nonempty real row is real. -/
theorem logprob_real (hV : 0 < V) (hf : ∀ v, ∃ r : ℝ, f v = (r : EReal)) (p : Fin V) :
    ∃ r : ℝ, Spec.logprob f p = (r : EReal) := by
  obtain ⟨M, hM⟩ := rmax_real f hV hf
  obtain ⟨S, hS, hSe⟩ := rsum_real_pos f hV hf
  obtain ⟨x, hx⟩ := hf p
  refine ⟨(x - M) - Real.log S, ?_⟩
  unfold Spec.logprob
  rw [hM, hSe, hx, Ideal.log_coe, if_neg (not_le.2 hS), ← EReal.coe_sub, ← EReal.coe_sub]

end

/-- A call's maximum and sum give the log-probability of a column whose logit is known. -/
theorem group_logprob (B V T : ℕ) (g : ℕ → EReal) (f : Fin V → EReal) (hV0 : 0 < V) (hV : V ≤ T * B) (hTB : T * B < 2 ^ 32)
    (hg : ∀ j (hj : j < V), g j = f ⟨j, hj⟩) (hf : ∀ v, ∃ r : ℝ, f v = (r : EReal)) (x : EReal) (q : Fin V) (hx : x = f q) :
    x - (Ideal.log (Online.vsum B V g T) + Online.vmax B V g T) = Spec.logprob f q := by
  rw [vmax_eq_rmax B V T g f hV hg, vsum_eq_rsum B V T g f hV hg, hx]
  exact sub_lse_eq_logprob f hV0 hf q

/-- The same with the three quantities named. -/
theorem logprob_of {V : ℕ} (f : Fin V → EReal) (hV : 0 < V) (hf : ∀ v, ∃ r : ℝ, f v = (r : EReal)) (q : Fin V)
    (x l mm : EReal) (hx : x = f q) (hl : l = Spec.rsum f) (hm : mm = Spec.rmax f) :
    x - (Ideal.log l + mm) = Spec.logprob f q := by
  subst hx hl hm
  exact sub_lse_eq_logprob f hV hf q

end Cert.Bridge

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

namespace Tail

/-! ### The tail's pieces as pure functions, read at an index -/

/-- log (sum) + maximum, per token, from a call's packed output. -/
def lse (o : FVec Ideal S4096x2 .f32) : FVec Ideal S4096x1 .f32 :=
  addf (Host.log (extractStridedSlice S4096x1 ![0, 1] o slices_S4096x2_S4096x1_0_1))
    (extractStridedSlice S4096x1 ![0, 0] o slices_S4096x2_S4096x1_0_0)

theorem lse_apply (o : FVec Ideal S4096x2 .f32) (n : Fin 4096) :
    lse o (ix2 n 0) = Ideal.log (o (ix2 n 1)) + o (ix2 n 0) := by
  unfold lse
  rw [addf_apply]
  show Ideal.log (extractStridedSlice S4096x1 ![0, 1] o slices_S4096x2_S4096x1_0_1 (ix2 n 0))
    + extractStridedSlice S4096x1 ![0, 0] o slices_S4096x2_S4096x1_0_0 (ix2 n 0) = _
  rw [slice2_axis1_apply 1 o slices_S4096x2_S4096x1_0_1 n 0 1 rfl,
    slice2_axis1_apply 0 o slices_S4096x2_S4096x1_0_0 n 0 0 rfl]

/-- The two cluster logits of every token: the flattened input times the transposed cluster rows, plus the cluster bias. -/
def clus (x0 : FVec Ideal S4096x1024 .f32) (a6 : FVec Ideal S2x1024 .f32) (a7 : FVec Ideal S2 .f32) : FVec Ideal S4096x2 .f32 :=
  addf (Host.dotGeneral dot_S4096x1024_S1024x2_S4096x2_1_0_0_1_n_n none x0
      (transpose S1024x2 [1, 0] a6 transposes_S2x1024_S1024x2_1_0))
    (broadcastInDim S4096x2 ![0, 1] bcast_S1x2_S4096x2_0_1 (broadcastInDim S1x2 ![1] bcast_S2_S1x2_1 a7))

/-- The product's operand indices, axis by axis: the left operand is read at (row, contraction), the right one at
    (contraction, column). -/
theorem dl0 (i : S4096x2.Idx) (q : dot_S4096x1024_S1024x2_S4096x2_1_0_0_1_n_n.contr.Idx) :
    (dot_S4096x1024_S1024x2_S4096x2_1_0_0_1_n_n.lhsIdx i q 0).val = (i 0).val := by
  unfold DotDims.lhsIdx
  rw [dif_neg (show ¬(0 : Fin S4096x1024.rank) ∈ dot_S4096x1024_S1024x2_S4096x2_1_0_0_1_n_n.lhsBatch by decide),
    dif_pos (show (0 : Fin S4096x1024.rank) ∈ dot_S4096x1024_S1024x2_S4096x2_1_0_0_1_n_n.lhsNonContracting by decide)]
  rfl
theorem dl1 (i : S4096x2.Idx) (q : dot_S4096x1024_S1024x2_S4096x2_1_0_0_1_n_n.contr.Idx) :
    (dot_S4096x1024_S1024x2_S4096x2_1_0_0_1_n_n.lhsIdx i q 1).val = (q ⟨0, by decide⟩).val :=
  dot_S4096x1024_S1024x2_S4096x2_1_0_0_1_n_n.lhsIdx_val_of_single rfl i q
theorem dr0 (i : S4096x2.Idx) (q : dot_S4096x1024_S1024x2_S4096x2_1_0_0_1_n_n.contr.Idx) :
    (dot_S4096x1024_S1024x2_S4096x2_1_0_0_1_n_n.rhsIdx i q 0).val = (q ⟨0, by decide⟩).val :=
  dot_S4096x1024_S1024x2_S4096x2_1_0_0_1_n_n.rhsIdx_val_of_single rfl i q
theorem dr1 (i : S4096x2.Idx) (q : dot_S4096x1024_S1024x2_S4096x2_1_0_0_1_n_n.contr.Idx) :
    (dot_S4096x1024_S1024x2_S4096x2_1_0_0_1_n_n.rhsIdx i q 1).val = (i 1).val := by
  unfold DotDims.rhsIdx
  rw [dif_neg (show ¬(1 : Fin S1024x2.rank) ∈ dot_S4096x1024_S1024x2_S4096x2_1_0_0_1_n_n.rhsBatch by decide),
    dif_pos (show (1 : Fin S1024x2.rank) ∈ dot_S4096x1024_S1024x2_S4096x2_1_0_0_1_n_n.rhsNonContracting by decide)]
  rfl

/-- Cluster logit j of token n: the input row dotted with cluster row j, plus the cluster bias. -/
theorem clus_apply (x0 : FVec Ideal S4096x1024 .f32) (a6 : FVec Ideal S2x1024 .f32) (a7 : FVec Ideal S2 .f32)
    (n : Fin 4096) (j : Fin 2) :
    clus x0 a6 a7 (ix2 n j) = (∑ k : Fin 1024, x0 (ix2 n k) * a6 (ix2 j k)) + a7 (ix1 j) := by
  unfold clus
  rw [addf_apply]
  congr 1
  · simp only [Host.dotGeneral]
    rw [Ideal.dotGeneral_apply,
      ← Equiv.sum_comp (ValueIdx.contrEquiv1 dot_S4096x1024_S1024x2_S4096x2_1_0_0_1_n_n 1024 rfl rfl).symm]
    refine Finset.sum_congr rfl fun k _ => ?_
    have hk := ValueIdx.contrEquiv1_symm_val dot_S4096x1024_S1024x2_S4096x2_1_0_0_1_n_n 1024 rfl rfl k
    have el : dot_S4096x1024_S1024x2_S4096x2_1_0_0_1_n_n.lhsIdx (ix2 n j)
        ((ValueIdx.contrEquiv1 dot_S4096x1024_S1024x2_S4096x2_1_0_0_1_n_n 1024 rfl rfl).symm k) = ix2 n k :=
      funext fun a => Fin.ext (by
        match a with
        | ⟨0, _⟩ => exact dl0 _ _
        | ⟨1, _⟩ => exact (dl1 _ _).trans hk)
    have er : dot_S4096x1024_S1024x2_S4096x2_1_0_0_1_n_n.rhsIdx (ix2 n j)
        ((ValueIdx.contrEquiv1 dot_S4096x1024_S1024x2_S4096x2_1_0_0_1_n_n 1024 rfl rfl).symm k) = ix2 k j :=
      funext fun a => Fin.ext (by
        match a with
        | ⟨0, _⟩ => exact (dr0 _ _).trans hk
        | ⟨1, _⟩ => exact dr1 _ _)
    rw [el, er, transpose_ix2_apply]
  · rw [broadcastInDim_apply ![0, 1] bcast_S1x2_S4096x2_0_1 _ (ix2 n j) (ix2 (0 : Fin 1) j) (fun a => by
      match a with
      | ⟨0, _⟩ => show (0 : ℕ) = if (1 : ℕ) = 1 then 0 else n.val; rw [if_pos rfl]
      | ⟨1, _⟩ => show j.val = if (2 : ℕ) = 1 then 0 else j.val; rw [if_neg (by decide)])]
    rw [broadcastInDim_apply ![1] bcast_S2_S1x2_1 a7 (ix2 (0 : Fin 1) j) (ix1 j) (fun a => by
      match a with
      | ⟨0, _⟩ => show j.val = if (2 : ℕ) = 1 then 0 else j.val; rw [if_neg (by decide)])]

/-- A [4096, 1] array cast to [4096] reads, at n, the operand at (n, 0). -/
theorem cast_col (x : FVec Ideal S4096x1 .f32) (n : Fin 4096) :
    shapeCast S4096 x shapeCasts_S4096x1_S4096 (ix1 n) = x (ix2 n 0) :=
  shapeCast_apply x _ _ _ (by
    rw [Shape.rowMajor_val_two, Shape.rowMajor_val_one]
    show n.val * 1 + 0 = n.val
    omega)

/-- A [4096] array cast to [4, 1024] reads, at (b, s), the operand at b * 1024 + s. -/
theorem cast_tok (x : FVec Ideal S4096 .f32) (j : S4x1024.Idx) (n : Fin 4096) (hn : n.val = (j 0).val * 1024 + (j 1).val) :
    shapeCast S4x1024 x shapeCasts_S4096_S4x1024 j = x (ix1 n) :=
  shapeCast_apply x _ _ _ (by
    rw [Shape.rowMajor_val_two, Shape.rowMajor_val_one]
    show n.val = (j 0).val * 1024 + (j 1).val
    exact hn)

/-! ### The masks: signed comparisons of a 32-bit word as comparisons of its integer value -/

theorem sel_head {α : Type} (x : BitVec 32) (a b : α) {inst : Decidable (Spec.isHead x)} :
    Scalar.select (IntOp.cmpi .slt x 20000#32) a b = @ite _ (Spec.isHead x) inst a b := by
  have e : (20000#32 : BitVec 32).toInt = 20000 := by decide
  unfold Spec.isHead at *
  by_cases h : x.toInt < 20000
  · rw [if_pos h]; simp [Scalar.select, IntOp.cmpi, BitVec.slt, e, h]
  · rw [if_neg h]; simp [Scalar.select, IntOp.cmpi, BitVec.slt, e, h]

theorem sel_tail1 {α : Type} (x : BitVec 32) (a b : α) {inst : Decidable (Spec.isTail1 x)} :
    Scalar.select (IntOp.andi (IntOp.cmpi .sge x 20000#32) (IntOp.cmpi .slt x 40000#32)) a b
      = @ite _ (Spec.isTail1 x) inst a b := by
  have e1 : (20000#32 : BitVec 32).toInt = 20000 := by decide
  have e2 : (40000#32 : BitVec 32).toInt = 40000 := by decide
  unfold Spec.isTail1 at *
  by_cases h1 : 20000 ≤ x.toInt <;> by_cases h2 : x.toInt < 40000
  · rw [if_pos ⟨h1, h2⟩]; simp [Scalar.select, IntOp.cmpi, IntOp.andi, BitVec.slt, BitVec.sle, e1, e2, h1, h2]
  · rw [if_neg (fun h => h2 h.2)]; simp [Scalar.select, IntOp.cmpi, IntOp.andi, BitVec.slt, BitVec.sle, e1, e2, h1, h2]
  · rw [if_neg (fun h => h1 h.1)]; simp [Scalar.select, IntOp.cmpi, IntOp.andi, BitVec.slt, BitVec.sle, e1, e2, h1, h2]
  · rw [if_neg (fun h => h1 h.1)]; simp [Scalar.select, IntOp.cmpi, IntOp.andi, BitVec.slt, BitVec.sle, e1, e2, h1, h2]

theorem sel_tail2 {α : Type} (x : BitVec 32) (a b : α) {inst : Decidable (Spec.isTail2 x)} :
    Scalar.select (IntOp.andi (IntOp.cmpi .sge x 40000#32) (IntOp.cmpi .slt x 50000#32)) a b
      = @ite _ (Spec.isTail2 x) inst a b := by
  have e1 : (40000#32 : BitVec 32).toInt = 40000 := by decide
  have e2 : (50000#32 : BitVec 32).toInt = 50000 := by decide
  unfold Spec.isTail2 at *
  by_cases h1 : 40000 ≤ x.toInt <;> by_cases h2 : x.toInt < 50000
  · rw [if_pos ⟨h1, h2⟩]; simp [Scalar.select, IntOp.cmpi, IntOp.andi, BitVec.slt, BitVec.sle, e1, e2, h1, h2]
  · rw [if_neg (fun h => h2 h.2)]; simp [Scalar.select, IntOp.cmpi, IntOp.andi, BitVec.slt, BitVec.sle, e1, e2, h1, h2]
  · rw [if_neg (fun h => h1 h.1)]; simp [Scalar.select, IntOp.cmpi, IntOp.andi, BitVec.slt, BitVec.sle, e1, e2, h1, h2]
  · rw [if_neg (fun h => h1 h.1)]; simp [Scalar.select, IntOp.cmpi, IntOp.andi, BitVec.slt, BitVec.sle, e1, e2, h1, h2]

/-! ### Each stretch of host operations, as one equation over the valuation it starts from -/

section Stages
variable (W : Valuation τ sig (Elt Ideal))

theorem st1_mask : (StableHlo.after hostOps1 W (Proc.devRef .tc main_v29) : IVec S4096 1)
    = (cmpi .slt (W (Proc.devRef .tc main_v2) : IVec S4096 32) (broadcastInDim S4096 ![] bcast_S_S4096 (constantI S_ 32 20000#32)) : IVec S4096 1) := by
  after_results <;> rfl
theorem st1_neg : (StableHlo.after hostOps1 W (Proc.devRef .tc main_v31) : FVec Ideal S4096 .f32)
    = (Host.negf (shapeCast S4096 (subf (W (Proc.devRef .tc main_v13_1) : FVec Ideal S4096x1 .f32) (lse (W (Proc.devRef .tc main_v13_0) : FVec Ideal S4096x2 .f32))) shapeCasts_S4096x1_S4096) : FVec Ideal S4096 .f32) := by
  after_results <;> rfl
theorem st1_zero : (StableHlo.after hostOps1 W (Proc.devRef .tc main_cst_3) : FVec Ideal S_ .f32) = (constant (F := Ideal) S_ .f32 0x00000000#32 : FVec Ideal S_ .f32) := by
  after_results <;> rfl
theorem st1_c0 : (StableHlo.after hostOps1 W (Proc.devRef .tc main_v25) : FVec Ideal S4096x1 .f32)
    = (subf (extractStridedSlice S4096x1 ![0, 0] (clus (W (Proc.devRef .tc main_v0) : FVec Ideal S4096x1024 .f32) (W (Proc.devRef .tc main_arg6) : FVec Ideal S2x1024 .f32) (W (Proc.devRef .tc main_arg7) : FVec Ideal S2 .f32)) slices_S4096x2_S4096x1_0_0)
        (lse (W (Proc.devRef .tc main_v13_0) : FVec Ideal S4096x2 .f32)) : FVec Ideal S4096x1 .f32) := by
  after_results <;> rfl
theorem st1_c1 : (StableHlo.after hostOps1 W (Proc.devRef .tc main_v27) : FVec Ideal S4096x1 .f32)
    = (subf (extractStridedSlice S4096x1 ![0, 1] (clus (W (Proc.devRef .tc main_v0) : FVec Ideal S4096x1024 .f32) (W (Proc.devRef .tc main_arg6) : FVec Ideal S2x1024 .f32) (W (Proc.devRef .tc main_arg7) : FVec Ideal S2 .f32)) slices_S4096x2_S4096x1_0_1)
        (lse (W (Proc.devRef .tc main_v13_0) : FVec Ideal S4096x2 .f32)) : FVec Ideal S4096x1 .f32) := by
  after_results <;> rfl
theorem st1_where : (StableHlo.after hostOps1_1 W (Proc.devRef .tc main_v32) : FVec Ideal S4096 .f32)
    = (select (W (Proc.devRef .tc main_v29) : IVec S4096 1) (W (Proc.devRef .tc main_v31) : FVec Ideal S4096 .f32) (broadcastInDim S4096 ![] bcast_S_S4096 (W (Proc.devRef .tc main_cst_3) : FVec Ideal S_ .f32)) : FVec Ideal S4096 .f32) := by
  after_results <;> rfl

theorem st2_mask : (StableHlo.after hostOps2 W (Proc.devRef .tc main_v54) : IVec S4096 1)
    = (andi (cmpi .sge (W (Proc.devRef .tc main_v2) : IVec S4096 32) (broadcastInDim S4096 ![] bcast_S_S4096 (constantI S_ 32 20000#32))) (cmpi .slt (W (Proc.devRef .tc main_v2) : IVec S4096 32) (broadcastInDim S4096 ![] bcast_S_S4096 (constantI S_ 32 40000#32))) : IVec S4096 1) := by
  after_results <;> rfl
theorem st2_neg : (StableHlo.after hostOps2 W (Proc.devRef .tc main_v56) : FVec Ideal S4096 .f32)
    = (Host.negf (shapeCast S4096 (addf (W (Proc.devRef .tc main_v25) : FVec Ideal S4096x1 .f32) (subf (W (Proc.devRef .tc main_v43_1) : FVec Ideal S4096x1 .f32) (lse (W (Proc.devRef .tc main_v43_0) : FVec Ideal S4096x2 .f32)))) shapeCasts_S4096x1_S4096) : FVec Ideal S4096 .f32) := by
  after_results <;> rfl
theorem st2_zero : (StableHlo.after hostOps2 W (Proc.devRef .tc main_cst_11) : FVec Ideal S_ .f32) = (constant (F := Ideal) S_ .f32 0x00000000#32 : FVec Ideal S_ .f32) := by
  after_results <;> rfl
theorem st2_where : (StableHlo.after hostOps2_1 W (Proc.devRef .tc main_v57) : FVec Ideal S4096 .f32)
    = (select (W (Proc.devRef .tc main_v54) : IVec S4096 1) (W (Proc.devRef .tc main_v56) : FVec Ideal S4096 .f32) (broadcastInDim S4096 ![] bcast_S_S4096 (W (Proc.devRef .tc main_cst_11) : FVec Ideal S_ .f32)) : FVec Ideal S4096 .f32) := by
  after_results <;> rfl

theorem st2_sum : (StableHlo.after hostOps2_2 W (Proc.devRef .tc main_v58) : FVec Ideal S4096 .f32)
    = (addf (W (Proc.devRef .tc main_v32) : FVec Ideal S4096 .f32) (W (Proc.devRef .tc main_v57) : FVec Ideal S4096 .f32) : FVec Ideal S4096 .f32) := by
  after_results <;> rfl

theorem st3_mask : (StableHlo.after hostOps3 W (Proc.devRef .tc main_v80) : IVec S4096 1)
    = (andi (cmpi .sge (W (Proc.devRef .tc main_v2) : IVec S4096 32) (broadcastInDim S4096 ![] bcast_S_S4096 (constantI S_ 32 40000#32))) (cmpi .slt (W (Proc.devRef .tc main_v2) : IVec S4096 32) (broadcastInDim S4096 ![] bcast_S_S4096 (constantI S_ 32 50000#32))) : IVec S4096 1) := by
  after_results <;> rfl
theorem st3_neg : (StableHlo.after hostOps3 W (Proc.devRef .tc main_v82) : FVec Ideal S4096 .f32)
    = (Host.negf (shapeCast S4096 (addf (W (Proc.devRef .tc main_v27) : FVec Ideal S4096x1 .f32) (subf (W (Proc.devRef .tc main_v69_1) : FVec Ideal S4096x1 .f32) (lse (W (Proc.devRef .tc main_v69_0) : FVec Ideal S4096x2 .f32)))) shapeCasts_S4096x1_S4096) : FVec Ideal S4096 .f32) := by
  after_results <;> rfl
theorem st3_zero : (StableHlo.after hostOps3 W (Proc.devRef .tc main_cst_19) : FVec Ideal S_ .f32) = (constant (F := Ideal) S_ .f32 0x00000000#32 : FVec Ideal S_ .f32) := by
  after_results <;> rfl
theorem st3_where : (StableHlo.after hostOps3_1 W (Proc.devRef .tc main_v83) : FVec Ideal S4096 .f32)
    = (select (W (Proc.devRef .tc main_v80) : IVec S4096 1) (W (Proc.devRef .tc main_v82) : FVec Ideal S4096 .f32) (broadcastInDim S4096 ![] bcast_S_S4096 (W (Proc.devRef .tc main_cst_19) : FVec Ideal S_ .f32)) : FVec Ideal S4096 .f32) := by
  after_results <;> rfl

theorem st3_out : (StableHlo.after hostOps3_2 W (Proc.devRef .tc main_v85) : FVec Ideal S4x1024 .f32)
    = (shapeCast S4x1024 (addf (W (Proc.devRef .tc main_v58) : FVec Ideal S4096 .f32) (W (Proc.devRef .tc main_v83) : FVec Ideal S4096 .f32)) shapeCasts_S4096_S4x1024 : FVec Ideal S4x1024 .f32) := by
  after_results <;> rfl

end Stages

/-! ### The three masked terms, the two cluster terms and the sums, at a token, over the valuation they start from -/

section Terms
variable (W : Valuation τ sig (Elt Ideal))

theorem term1 (lab : IVec S4096 32) (p : FVec Ideal S4096x1 .f32) (o : FVec Ideal S4096x2 .f32) (out : FVec Ideal S4096 .f32)
    (hl : W (Proc.devRef .tc main_v2) = lab) (hp : W (Proc.devRef .tc main_v13_1) = p) (ho : W (Proc.devRef .tc main_v13_0) = o)
    (hout : StableHlo.after hostOps1_1 (StableHlo.after hostOps1 W) (Proc.devRef .tc main_v32) = out)
    (n : Fin 4096) {inst : Decidable (Spec.isHead (lab (ix1 n)))} :
    out (ix1 n) = @ite _ (Spec.isHead (lab (ix1 n))) inst
      (-(p (ix2 n 0) - (Ideal.log (o (ix2 n 1)) + o (ix2 n 0)))) 0 := by
  subst hl hp ho hout
  rw [st1_where (StableHlo.after hostOps1 W), select_apply, st1_mask W, st1_neg W, st1_zero W]
  show Scalar.select (IntOp.cmpi .slt ((W (Proc.devRef .tc main_v2) : IVec S4096 32) (ix1 n)) 20000#32)
      (-(shapeCast S4096 (subf (W (Proc.devRef .tc main_v13_1) : FVec Ideal S4096x1 .f32) (lse (W (Proc.devRef .tc main_v13_0) : FVec Ideal S4096x2 .f32))) shapeCasts_S4096x1_S4096 (ix1 n)))
      (Ideal.ofBits .f32 0x00000000#32) = _
  rw [cast_col, subf_apply, lse_apply, sel_head, Ideal.ofBits_zero_f32]

theorem term2 (lab : IVec S4096 32) (cl p : FVec Ideal S4096x1 .f32) (o : FVec Ideal S4096x2 .f32) (out : FVec Ideal S4096 .f32)
    (hl : W (Proc.devRef .tc main_v2) = lab) (hc : W (Proc.devRef .tc main_v25) = cl) (hp : W (Proc.devRef .tc main_v43_1) = p) (ho : W (Proc.devRef .tc main_v43_0) = o)
    (hout : StableHlo.after hostOps2_1 (StableHlo.after hostOps2 W) (Proc.devRef .tc main_v57) = out)
    (n : Fin 4096) {inst : Decidable (Spec.isTail1 (lab (ix1 n)))} :
    out (ix1 n) = @ite _ (Spec.isTail1 (lab (ix1 n))) inst
      (-(cl (ix2 n 0) + (p (ix2 n 0) - (Ideal.log (o (ix2 n 1)) + o (ix2 n 0))))) 0 := by
  subst hl hc hp ho hout
  rw [st2_where (StableHlo.after hostOps2 W), select_apply, st2_mask W, st2_neg W, st2_zero W]
  show Scalar.select (IntOp.andi (IntOp.cmpi .sge ((W (Proc.devRef .tc main_v2) : IVec S4096 32) (ix1 n)) 20000#32)
        (IntOp.cmpi .slt ((W (Proc.devRef .tc main_v2) : IVec S4096 32) (ix1 n)) 40000#32))
      (-(shapeCast S4096 (addf (W (Proc.devRef .tc main_v25) : FVec Ideal S4096x1 .f32) (subf (W (Proc.devRef .tc main_v43_1) : FVec Ideal S4096x1 .f32) (lse (W (Proc.devRef .tc main_v43_0) : FVec Ideal S4096x2 .f32)))) shapeCasts_S4096x1_S4096 (ix1 n)))
      (Ideal.ofBits .f32 0x00000000#32) = _
  rw [cast_col, addf_apply, subf_apply, lse_apply, sel_tail1, Ideal.ofBits_zero_f32]

theorem term3 (lab : IVec S4096 32) (cl p : FVec Ideal S4096x1 .f32) (o : FVec Ideal S4096x2 .f32) (out : FVec Ideal S4096 .f32)
    (hl : W (Proc.devRef .tc main_v2) = lab) (hc : W (Proc.devRef .tc main_v27) = cl) (hp : W (Proc.devRef .tc main_v69_1) = p) (ho : W (Proc.devRef .tc main_v69_0) = o)
    (hout : StableHlo.after hostOps3_1 (StableHlo.after hostOps3 W) (Proc.devRef .tc main_v83) = out)
    (n : Fin 4096) {inst : Decidable (Spec.isTail2 (lab (ix1 n)))} :
    out (ix1 n) = @ite _ (Spec.isTail2 (lab (ix1 n))) inst
      (-(cl (ix2 n 0) + (p (ix2 n 0) - (Ideal.log (o (ix2 n 1)) + o (ix2 n 0))))) 0 := by
  subst hl hc hp ho hout
  rw [st3_where (StableHlo.after hostOps3 W), select_apply, st3_mask W, st3_neg W, st3_zero W]
  show Scalar.select (IntOp.andi (IntOp.cmpi .sge ((W (Proc.devRef .tc main_v2) : IVec S4096 32) (ix1 n)) 40000#32)
        (IntOp.cmpi .slt ((W (Proc.devRef .tc main_v2) : IVec S4096 32) (ix1 n)) 50000#32))
      (-(shapeCast S4096 (addf (W (Proc.devRef .tc main_v27) : FVec Ideal S4096x1 .f32) (subf (W (Proc.devRef .tc main_v69_1) : FVec Ideal S4096x1 .f32) (lse (W (Proc.devRef .tc main_v69_0) : FVec Ideal S4096x2 .f32)))) shapeCasts_S4096x1_S4096 (ix1 n)))
      (Ideal.ofBits .f32 0x00000000#32) = _
  rw [cast_col, addf_apply, subf_apply, lse_apply, sel_tail2, Ideal.ofBits_zero_f32]

theorem clus0_at (x0 : FVec Ideal S4096x1024 .f32) (a6 : FVec Ideal S2x1024 .f32) (a7 : FVec Ideal S2 .f32) (o : FVec Ideal S4096x2 .f32) (out : FVec Ideal S4096x1 .f32)
    (hx : W (Proc.devRef .tc main_v0) = x0) (h6 : W (Proc.devRef .tc main_arg6) = a6) (h7 : W (Proc.devRef .tc main_arg7) = a7) (ho : W (Proc.devRef .tc main_v13_0) = o)
    (hout : StableHlo.after hostOps1 W (Proc.devRef .tc main_v25) = out) (n : Fin 4096) :
    out (ix2 n 0) = ((∑ k : Fin 1024, x0 (ix2 n k) * a6 (ix2 0 k)) + a7 (ix1 0))
      - (Ideal.log (o (ix2 n 1)) + o (ix2 n 0)) := by
  subst hx h6 h7 ho hout
  rw [st1_c0 W, subf_apply, lse_apply, slice2_axis1_apply 0 _ slices_S4096x2_S4096x1_0_0 n 0 0 rfl, clus_apply]

theorem clus1_at (x0 : FVec Ideal S4096x1024 .f32) (a6 : FVec Ideal S2x1024 .f32) (a7 : FVec Ideal S2 .f32) (o : FVec Ideal S4096x2 .f32) (out : FVec Ideal S4096x1 .f32)
    (hx : W (Proc.devRef .tc main_v0) = x0) (h6 : W (Proc.devRef .tc main_arg6) = a6) (h7 : W (Proc.devRef .tc main_arg7) = a7) (ho : W (Proc.devRef .tc main_v13_0) = o)
    (hout : StableHlo.after hostOps1 W (Proc.devRef .tc main_v27) = out) (n : Fin 4096) :
    out (ix2 n 0) = ((∑ k : Fin 1024, x0 (ix2 n k) * a6 (ix2 1 k)) + a7 (ix1 1))
      - (Ideal.log (o (ix2 n 1)) + o (ix2 n 0)) := by
  subst hx h6 h7 ho hout
  rw [st1_c1 W, subf_apply, lse_apply, slice2_axis1_apply 1 _ slices_S4096x2_S4096x1_0_1 n 0 1 rfl, clus_apply]

theorem sum_at (a b out : FVec Ideal S4096 .f32) (ha : W (Proc.devRef .tc main_v32) = a) (hb : W (Proc.devRef .tc main_v57) = b)
    (hout : StableHlo.after hostOps2_2 W (Proc.devRef .tc main_v58) = out) (n : Fin 4096) :
    out (ix1 n) = a (ix1 n) + b (ix1 n) := by
  subst ha hb hout
  rw [st2_sum W, addf_apply]
theorem out_at (a b : FVec Ideal S4096 .f32) (out : FVec Ideal S4x1024 .f32) (ha : W (Proc.devRef .tc main_v58) = a) (hb : W (Proc.devRef .tc main_v83) = b)
    (hout : StableHlo.after hostOps3_2 W (Proc.devRef .tc main_v85) = out)
    (j : S4x1024.Idx) (n : Fin 4096) (hn : n.val = (j 0).val * 1024 + (j 1).val) :
    out j = a (ix1 n) + b (ix1 n) := by
  subst ha hb hout
  rw [st3_out W, cast_tok _ j n hn, addf_apply]

end Terms

/-! ### The flattened label and input, at a token -/

section Inputs
variable (W : Valuation τ sig (Elt Ideal))

theorem st0_lab : (StableHlo.after hostOps0 W (Proc.devRef .tc main_v2) : IVec S4096 32)
    = (shapeCast S4096 (W (Proc.devRef .tc main_arg1) : IVec S4x1024 32) shapeCasts_S4x1024_S4096 : IVec S4096 32) := by
  after_results <;> rfl
theorem st0_x : (StableHlo.after hostOps0 W (Proc.devRef .tc main_v0) : FVec Ideal S4096x1024 .f32)
    = (shapeCast S4096x1024 (W (Proc.devRef .tc main_arg0) : FVec Ideal S4x1024x1024 .f32) shapeCasts_S4x1024x1024_S4096x1024 : FVec Ideal S4096x1024 .f32) := by
  after_results <;> rfl

/-- Token n's label is the label array at (n / 1024, n % 1024). -/
theorem lab_at (a1 : IVec S4x1024 32) (out : IVec S4096 32) (h1 : W (Proc.devRef .tc main_arg1) = a1)
    (hout : StableHlo.after hostOps0 W (Proc.devRef .tc main_v2) = out) (n : Fin 4096) :
    out (ix1 n) = a1 (ix2 (tokB n) (tokS n)) := by
  subst hout
  rw [st0_lab W, h1]
  exact shapeCast_apply a1 _ _ _ (by
    rw [Shape.rowMajor_val_two, Shape.rowMajor_val_one]
    show n.val / 1024 * 1024 + n.val % 1024 = n.val
    omega)

/-- Token n's input row is the input at (n / 1024, n % 1024, ·). -/
theorem x_at (a0 : FVec Ideal S4x1024x1024 .f32) (out : FVec Ideal S4096x1024 .f32) (h0 : W (Proc.devRef .tc main_arg0) = a0)
    (hout : StableHlo.after hostOps0 W (Proc.devRef .tc main_v0) = out) (n : Fin 4096) (k : Fin 1024) :
    out (ix2 n k) = a0 (ix3 (tokB n) (tokS n) k) := by
  subst hout
  rw [st0_x W, h0]
  exact shapeCast_apply a0 _ _ _ (by
    rw [Shape.rowMajor_val_three, Shape.rowMajor_val_two]
    show (n.val / 1024 * 1024 + n.val % 1024) * 1024 + k.val = n.val * 1024 + k.val
    omega)

end Inputs

/-! ### The result at a token, over any final arrays of the three calls -/

section Assembly
variable (outs : Outs (F := Ideal))

theorem lab4 : V4 m outs c main_v2 = V1 m c main_v2 :=
  (V4_of m outs c main_v2 (by decide)).trans <| (V3_of m c main_v2 (by decide)).trans <| (V2_of m c main_v2 (by decide))
theorem lab10 : V10 m outs c main_v2 = V1 m c main_v2 :=
  (V10_of m outs c main_v2 (by decide)).trans <| (V9_of m outs c main_v2 (by decide)).trans <| (V8_of m outs c main_v2 (by decide)).trans <| (V7_of m outs c main_v2 (by decide)).trans <| (V6_of m outs c main_v2 (by decide)).trans <| (V5_of m outs c main_v2 (by decide)).trans <| (V4_of m outs c main_v2 (by decide)).trans <| (V3_of m c main_v2 (by decide)).trans <| (V2_of m c main_v2 (by decide))
theorem lab16 : V16 m outs c main_v2 = V1 m c main_v2 :=
  (V16_of m outs c main_v2 (by decide)).trans <| (V15_of m outs c main_v2 (by decide)).trans <| (V14_of m outs c main_v2 (by decide)).trans <| (V13_of m outs c main_v2 (by decide)).trans <| (V12_of m outs c main_v2 (by decide)).trans <| (V11_of m outs c main_v2 (by decide)).trans <| (V10_of m outs c main_v2 (by decide)).trans <| (V9_of m outs c main_v2 (by decide)).trans <| (V8_of m outs c main_v2 (by decide)).trans <| (V7_of m outs c main_v2 (by decide)).trans <| (V6_of m outs c main_v2 (by decide)).trans <| (V5_of m outs c main_v2 (by decide)).trans <| (V4_of m outs c main_v2 (by decide)).trans <| (V3_of m c main_v2 (by decide)).trans <| (V2_of m c main_v2 (by decide))
theorem w0 : V4 m outs c main_v0 = V1 m c main_v0 :=
  (V4_of m outs c main_v0 (by decide)).trans <| (V3_of m c main_v0 (by decide)).trans <| (V2_of m c main_v0 (by decide))
theorem wa6 : V4 m outs c main_arg6 = V0 m c main_arg6 :=
  (V4_of m outs c main_arg6 (by decide)).trans <| (V3_of m c main_arg6 (by decide)).trans <| (V2_of m c main_arg6 (by decide)).trans <| (V1_of m c main_arg6 (by decide))
theorem wa7 : V4 m outs c main_arg7 = V0 m c main_arg7 :=
  (V4_of m outs c main_arg7 (by decide)).trans <| (V3_of m c main_arg7 (by decide)).trans <| (V2_of m c main_arg7 (by decide)).trans <| (V1_of m c main_arg7 (by decide))
theorem w25 : V10 m outs c main_v25 = V5 m outs c main_v25 :=
  (V10_of m outs c main_v25 (by decide)).trans <| (V9_of m outs c main_v25 (by decide)).trans <| (V8_of m outs c main_v25 (by decide)).trans <| (V7_of m outs c main_v25 (by decide)).trans <| (V6_of m outs c main_v25 (by decide))
theorem w27 : V16 m outs c main_v27 = V5 m outs c main_v27 :=
  (V16_of m outs c main_v27 (by decide)).trans <| (V15_of m outs c main_v27 (by decide)).trans <| (V14_of m outs c main_v27 (by decide)).trans <| (V13_of m outs c main_v27 (by decide)).trans <| (V12_of m outs c main_v27 (by decide)).trans <| (V11_of m outs c main_v27 (by decide)).trans <| (V10_of m outs c main_v27 (by decide)).trans <| (V9_of m outs c main_v27 (by decide)).trans <| (V8_of m outs c main_v27 (by decide)).trans <| (V7_of m outs c main_v27 (by decide)).trans <| (V6_of m outs c main_v27 (by decide))
theorem w32 : V12 m outs c main_v32 = V6 m outs c main_v32 :=
  (V12_of m outs c main_v32 (by decide)).trans <| (V11_of m outs c main_v32 (by decide)).trans <| (V10_of m outs c main_v32 (by decide)).trans <| (V9_of m outs c main_v32 (by decide)).trans <| (V8_of m outs c main_v32 (by decide)).trans <| (V7_of m outs c main_v32 (by decide))
theorem w58 : V18 m outs c main_v58 = V13 m outs c main_v58 :=
  (V18_of m outs c main_v58 (by decide)).trans <| (V17_of m outs c main_v58 (by decide)).trans <| (V16_of m outs c main_v58 (by decide)).trans <| (V15_of m outs c main_v58 (by decide)).trans <| (V14_of m outs c main_v58 (by decide))

open Classical in
/-- The result at (b, s), token n = b * 1024 + s, in terms of the label, the flattened input, the cluster rows and bias,
    and the three calls' packed and picked outputs. -/
theorem result_at (lab : IVec S4096 32) (x0 : FVec Ideal S4096x1024 .f32) (o0 o1 o2 : FVec Ideal S4096x2 .f32) (p0 p1 p2 : FVec Ideal S4096x1 .f32)
    (out : FVec Ideal S4x1024 .f32)
    (hlab : V1 m c main_v2 = lab) (hx0 : V1 m c main_v0 = x0)
    (ho0 : V4 m outs c main_v13_0 = o0) (hp0 : V4 m outs c main_v13_1 = p0)
    (ho1 : V10 m outs c main_v43_0 = o1) (hp1 : V10 m outs c main_v43_1 = p1)
    (ho2 : V16 m outs c main_v69_0 = o2) (hp2 : V16 m outs c main_v69_1 = p2)
    (hout : V19 m outs c main_v85 = out)
    (j : S4x1024.Idx) (n : Fin 4096) (hn : n.val = (j 0).val * 1024 + (j 1).val) :
    out j =
      ((if Spec.isHead (lab (ix1 n)) then -(p0 (ix2 n 0) - (Ideal.log (o0 (ix2 n 1)) + o0 (ix2 n 0))) else 0)
        + (if Spec.isTail1 (lab (ix1 n)) then
            -((((∑ k : Fin 1024, x0 (ix2 n k) * ar6 m c (ix2 0 k)) + ar7 m c (ix1 0)) - (Ideal.log (o0 (ix2 n 1)) + o0 (ix2 n 0)))
              + (p1 (ix2 n 0) - (Ideal.log (o1 (ix2 n 1)) + o1 (ix2 n 0)))) else 0))
        + (if Spec.isTail2 (lab (ix1 n)) then
            -((((∑ k : Fin 1024, x0 (ix2 n k) * ar6 m c (ix2 1 k)) + ar7 m c (ix1 1)) - (Ideal.log (o0 (ix2 n 1)) + o0 (ix2 n 0)))
              + (p2 (ix2 n 0) - (Ideal.log (o2 (ix2 n 1)) + o2 (ix2 n 0)))) else 0) := by
  have c0 := clus0_at (V4 m outs c) x0 (ar6 m c) (ar7 m c) o0 (V5 m outs c main_v25)
    ((w0 m c outs).trans hx0) (wa6 m c outs) (wa7 m c outs) ho0 rfl n
  have c1 := clus1_at (V4 m outs c) x0 (ar6 m c) (ar7 m c) o0 (V5 m outs c main_v27)
    ((w0 m c outs).trans hx0) (wa6 m c outs) (wa7 m c outs) ho0 rfl n
  have t1 := term1 (V4 m outs c) lab p0 o0 (V12 m outs c main_v32)
    ((lab4 m c outs).trans hlab) hp0 ho0 (w32 m c outs).symm n (inst := Classical.propDecidable _)
  have t2 := term2 (V10 m outs c) lab (V5 m outs c main_v25) p1 o1 (V12 m outs c main_v57)
    ((lab10 m c outs).trans hlab) (w25 m c outs) hp1 ho1 rfl n (inst := Classical.propDecidable _)
  have t3 := term3 (V16 m outs c) lab (V5 m outs c main_v27) p2 o2 (V18 m outs c main_v83)
    ((lab16 m c outs).trans hlab) (w27 m c outs) hp2 ho2 rfl n (inst := Classical.propDecidable _)
  have es := sum_at (V12 m outs c) (V12 m outs c main_v32) (V12 m outs c main_v57) (V18 m outs c main_v58)
    rfl rfl (w58 m c outs).symm n
  have eo := out_at (V18 m outs c) (V18 m outs c main_v58) (V18 m outs c main_v83) out rfl rfl hout j n hn
  rw [eo, es, t1, t2, t3, c0, c1]

open Classical in
/-- The same with the label's word and the five log-probabilities named. -/
theorem result_val (lab : IVec S4096 32) (x0 : FVec Ideal S4096x1024 .f32) (o0 o1 o2 : FVec Ideal S4096x2 .f32) (p0 p1 p2 : FVec Ideal S4096x1 .f32)
    (out : FVec Ideal S4x1024 .f32)
    (hlab : V1 m c main_v2 = lab) (hx0 : V1 m c main_v0 = x0)
    (ho0 : V4 m outs c main_v13_0 = o0) (hp0 : V4 m outs c main_v13_1 = p0)
    (ho1 : V10 m outs c main_v43_0 = o1) (hp1 : V10 m outs c main_v43_1 = p1)
    (ho2 : V16 m outs c main_v69_0 = o2) (hp2 : V16 m outs c main_v69_1 = p2)
    (hout : V19 m outs c main_v85 = out)
    (j : S4x1024.Idx) (n : Fin 4096) (hn : n.val = (j 0).val * 1024 + (j 1).val)
    (L : BitVec 32) (hL : lab (ix1 n) = L) (LP0 LPc0 LPc1 LP1 LP2 : EReal)
    (e0 : p0 (ix2 n 0) - (Ideal.log (o0 (ix2 n 1)) + o0 (ix2 n 0)) = LP0)
    (ec0 : ((∑ k : Fin 1024, x0 (ix2 n k) * ar6 m c (ix2 0 k)) + ar7 m c (ix1 0)) - (Ideal.log (o0 (ix2 n 1)) + o0 (ix2 n 0)) = LPc0)
    (ec1 : ((∑ k : Fin 1024, x0 (ix2 n k) * ar6 m c (ix2 1 k)) + ar7 m c (ix1 1)) - (Ideal.log (o0 (ix2 n 1)) + o0 (ix2 n 0)) = LPc1)
    (e1 : p1 (ix2 n 0) - (Ideal.log (o1 (ix2 n 1)) + o1 (ix2 n 0)) = LP1)
    (e2 : p2 (ix2 n 0) - (Ideal.log (o2 (ix2 n 1)) + o2 (ix2 n 0)) = LP2) :
    out j =
      ((if Spec.isHead L then -LP0 else 0) + (if Spec.isTail1 L then -(LPc0 + LP1) else 0))
        + (if Spec.isTail2 L then -(LPc1 + LP2) else 0) := by
  subst hL e0 ec0 ec1 e1 e2
  exact result_at m c outs lab x0 o0 o1 o2 p0 p1 p2 out hlab hx0 ho0 hp0 ho1 hp1 ho2 hp2 hout j n hn

end Assembly

/-! ### The three calls' outputs, and the specification -/

section Final

/-- Each call's packed and picked outputs, as the valuation after the call holds them. -/
theorem packed0_eq : V4 m (outsOf m) c main_v13_0 = ((dat0 (E3 m) c).arrAt 4 cfg0.N : Vec Ideal S4096x2 .f32) := by
  show Function.update (Function.update (V3 m c) _ _) _ _ _ = _
  rw [Function.update_of_ne (StableHlo.devRef_ne_of_ne (by decide)), Function.update_self]
  show outs4 m main_v13_0 c = _
  unfold outs4
  exact Pipeline.withArrays_arr spec0 launch0.win.arr_inj c (V3 m c) (fun w => (dat0 (E3 m) c).arrAt w cfg0.N) 4
theorem picked0_eq : V4 m (outsOf m) c main_v13_1 = ((dat0 (E3 m) c).arrAt 5 cfg0.N : Vec Ideal S4096x1 .f32) := by
  show Function.update (Function.update (V3 m c) _ _) _ _ _ = _
  rw [Function.update_self]
  show outs4 m main_v13_1 c = _
  unfold outs4
  exact Pipeline.withArrays_arr spec0 launch0.win.arr_inj c (V3 m c) (fun w => (dat0 (E3 m) c).arrAt w cfg0.N) 5
theorem packed1_eq : V10 m (outsOf m) c main_v43_0 = ((dat1 (E9 m) c).arrAt 4 cfg1.N : Vec Ideal S4096x2 .f32) := by
  show Function.update (Function.update (V9 m (outsOf m) c) _ _) _ _ _ = _
  rw [Function.update_of_ne (StableHlo.devRef_ne_of_ne (by decide)), Function.update_self]
  show outs10 m main_v43_0 c = _
  unfold outs10
  exact Pipeline.withArrays_arr spec1 launch1.win.arr_inj c (V9 m (outsA m) c) (fun w => (dat1 (E9 m) c).arrAt w cfg1.N) 4
theorem picked1_eq : V10 m (outsOf m) c main_v43_1 = ((dat1 (E9 m) c).arrAt 5 cfg1.N : Vec Ideal S4096x1 .f32) := by
  show Function.update (Function.update (V9 m (outsOf m) c) _ _) _ _ _ = _
  rw [Function.update_self]
  show outs10 m main_v43_1 c = _
  unfold outs10
  exact Pipeline.withArrays_arr spec1 launch1.win.arr_inj c (V9 m (outsA m) c) (fun w => (dat1 (E9 m) c).arrAt w cfg1.N) 5
theorem packed2_eq : V16 m (outsOf m) c main_v69_0 = ((dat2 (E15 m) c).arrAt 4 cfg2.N : Vec Ideal S4096x2 .f32) := by
  show Function.update (Function.update (V15 m (outsOf m) c) _ _) _ _ _ = _
  rw [Function.update_of_ne (StableHlo.devRef_ne_of_ne (by decide)), Function.update_self]
  show outs16 m main_v69_0 c = _
  unfold outs16
  exact Pipeline.withArrays_arr spec2 launch2.win.arr_inj c (V15 m (outsB m) c) (fun w => (dat2 (E15 m) c).arrAt w cfg2.N) 4
theorem picked2_eq : V16 m (outsOf m) c main_v69_1 = ((dat2 (E15 m) c).arrAt 5 cfg2.N : Vec Ideal S4096x1 .f32) := by
  show Function.update (Function.update (V15 m (outsOf m) c) _ _) _ _ _ = _
  rw [Function.update_self]
  show outs16 m main_v69_1 c = _
  unfold outs16
  exact Pipeline.withArrays_arr spec2 launch2.win.arr_inj c (V15 m (outsB m) c) (fun w => (dat2 (E15 m) c).arrAt w cfg2.N) 5

/-- Token n's label and input row, from the arguments. -/
theorem lab_tok (n : Fin 4096) : (V1 m c main_v2 : IVec S4096 32) (ix1 n) = ar1 m c (ix2 (tokB n) (tokS n)) :=
  lab_at (V0 m c) (ar1 m c) (V1 m c main_v2) rfl rfl n
theorem x_tok (n : Fin 4096) (k : Fin 1024) :
    (V1 m c main_v0 : FVec Ideal S4096x1024 .f32) (ix2 n k) = ar0 m c (ix3 (tokB n) (tokS n) k) :=
  x_at (V0 m c) (ar0 m c) (V1 m c main_v0) rfl rfl n k

/-- The host's cluster logit j of token n is the specification's head logit of column 20000 + j. -/
theorem clus_head (x0 : FVec Ideal S4096x1024 .f32) (n : Fin 4096)
    (hx : ∀ k, x0 (ix2 n k) = ar0 m c (ix3 (tokB n) (tokS n) k)) (jj : Fin 2) (q : Fin 20002) (hq : q.val = 20000 + jj.val) :
    (∑ k : Fin 1024, x0 (ix2 n k) * ar6 m c (ix2 jj k)) + ar7 m c (ix1 jj) = Spec.headLogit (ar0 m c) (ar2 m c) (ar3 m c) (ar6 m c) (ar7 m c) (tokB n) (tokS n) q := by
  have hq' : ¬ q.val < 20000 := by omega
  have e : (⟨q.val - 20000, by have := jj.isLt; omega⟩ : Fin 2) = jj := Fin.ext (by show q.val - 20000 = jj.val; omega)
  unfold Spec.headLogit
  rw [dif_neg hq']
  unfold Spec.dotC
  rw [e]
  congr 1
  exact Finset.sum_congr rfl fun k _ => by rw [hx k]

/-- Call 0's three outputs at token n: the row's maximum, its sum of shifted exponentials, its logit at the picked column. -/
theorem grp0_m (h : RealArgs m c) (n : Fin 4096) :
    ((dat0 (E3 m) c).arrAt 4 cfg0.N : Vec Ideal S4096x2 .f32) (ix2 n 0) = Spec.rmax (Spec.headLogit (ar0 m c) (ar2 m c) (ar3 m c) (ar6 m c) (ar7 m c) (tokB n) (tokS n)) :=
  (final0_m (E3 m) c (fun n j hj => by rw [glog0_eq m c n j hj]; exact headLogit_real m c h _ _ _) n).trans
    (Bridge.vmax_eq_rmax 1024 20002 20 _ (Spec.headLogit (ar0 m c) (ar2 m c) (ar3 m c) (ar6 m c) (ar7 m c) (tokB n) (tokS n)) (by norm_num) (fun j hj => glog0_eq m c n j hj))
theorem grp0_l (h : RealArgs m c) (n : Fin 4096) :
    ((dat0 (E3 m) c).arrAt 4 cfg0.N : Vec Ideal S4096x2 .f32) (ix2 n 1) = Spec.rsum (Spec.headLogit (ar0 m c) (ar2 m c) (ar3 m c) (ar6 m c) (ar7 m c) (tokB n) (tokS n)) :=
  (final0_l (E3 m) c (fun n j hj => by rw [glog0_eq m c n j hj]; exact headLogit_real m c h _ _ _) n).trans
    (Bridge.vsum_eq_rsum 1024 20002 20 _ (Spec.headLogit (ar0 m c) (ar2 m c) (ar3 m c) (ar6 m c) (ar7 m c) (tokB n) (tokS n)) (by norm_num) (fun j hj => glog0_eq m c n j hj))
theorem grp0_p (h : RealArgs m c) (n : Fin 4096) :
    ((dat0 (E3 m) c).arrAt 5 cfg0.N : Vec Ideal S4096x1 .f32) (ix2 n 0) = (Spec.headLogit (ar0 m c) (ar2 m c) (ar3 m c) (ar6 m c) (ar7 m c) (tokB n) (tokS n)) (Spec.pickH (ar1 m c (ix2 (tokB n) (tokS n)))) :=
  (final0_p (E3 m) c (fun n j hj => by rw [glog0_eq m c n j hj]; exact headLogit_real m c h _ _ _) n).trans <|
    (congrArg (fun t => Online.vpick 1024 (glog0 (E3 m) c n) t 20) (pA0_eq m c n)).trans <|
    (Bridge.vpick_eq 1024 20 _ _ (by have := (Spec.pickH (ar1 m c (ix2 (tokB n) (tokS n)))).isLt; omega) (by norm_num)).trans
      (glog0_eq m c n _ (Spec.pickH (ar1 m c (ix2 (tokB n) (tokS n)))).isLt)

/-- Call 1's three outputs at token n: the row's maximum, its sum of shifted exponentials, its logit at the picked column. -/
theorem grp1_m (h : RealArgs m c) (n : Fin 4096) :
    ((dat1 (E9 m) c).arrAt 4 cfg1.N : Vec Ideal S4096x2 .f32) (ix2 n 0) = Spec.rmax (Spec.tail1Logit (ar0 m c) (ar2 m c) (ar4 m c) (tokB n) (tokS n)) :=
  (final1_m (E9 m) c (fun n j hj => by rw [glog1_eq m c n j hj]; exact tail1Logit_real m c h _ _ _) n).trans
    (Bridge.vmax_eq_rmax 1024 20000 20 _ (Spec.tail1Logit (ar0 m c) (ar2 m c) (ar4 m c) (tokB n) (tokS n)) (by norm_num) (fun j hj => glog1_eq m c n j hj))
theorem grp1_l (h : RealArgs m c) (n : Fin 4096) :
    ((dat1 (E9 m) c).arrAt 4 cfg1.N : Vec Ideal S4096x2 .f32) (ix2 n 1) = Spec.rsum (Spec.tail1Logit (ar0 m c) (ar2 m c) (ar4 m c) (tokB n) (tokS n)) :=
  (final1_l (E9 m) c (fun n j hj => by rw [glog1_eq m c n j hj]; exact tail1Logit_real m c h _ _ _) n).trans
    (Bridge.vsum_eq_rsum 1024 20000 20 _ (Spec.tail1Logit (ar0 m c) (ar2 m c) (ar4 m c) (tokB n) (tokS n)) (by norm_num) (fun j hj => glog1_eq m c n j hj))
theorem grp1_p (h : RealArgs m c) (n : Fin 4096) :
    ((dat1 (E9 m) c).arrAt 5 cfg1.N : Vec Ideal S4096x1 .f32) (ix2 n 0) = (Spec.tail1Logit (ar0 m c) (ar2 m c) (ar4 m c) (tokB n) (tokS n)) (Spec.pick1 (ar1 m c (ix2 (tokB n) (tokS n)))) :=
  (final1_p (E9 m) c (fun n j hj => by rw [glog1_eq m c n j hj]; exact tail1Logit_real m c h _ _ _) n).trans <|
    (congrArg (fun t => Online.vpick 1024 (glog1 (E9 m) c n) t 20) (pA1_eq m c n)).trans <|
    (Bridge.vpick_eq 1024 20 _ _ (by have := (Spec.pick1 (ar1 m c (ix2 (tokB n) (tokS n)))).isLt; omega) (by norm_num)).trans
      (glog1_eq m c n _ (Spec.pick1 (ar1 m c (ix2 (tokB n) (tokS n)))).isLt)

/-- Call 2's three outputs at token n: the row's maximum, its sum of shifted exponentials, its logit at the picked column. -/
theorem grp2_m (h : RealArgs m c) (n : Fin 4096) :
    ((dat2 (E15 m) c).arrAt 4 cfg2.N : Vec Ideal S4096x2 .f32) (ix2 n 0) = Spec.rmax (Spec.tail2Logit (ar0 m c) (ar2 m c) (ar5 m c) (tokB n) (tokS n)) :=
  (final2_m (E15 m) c (fun n j hj => by rw [glog2_eq m c n j hj]; exact tail2Logit_real m c h _ _ _) n).trans
    (Bridge.vmax_eq_rmax 1024 10000 10 _ (Spec.tail2Logit (ar0 m c) (ar2 m c) (ar5 m c) (tokB n) (tokS n)) (by norm_num) (fun j hj => glog2_eq m c n j hj))
theorem grp2_l (h : RealArgs m c) (n : Fin 4096) :
    ((dat2 (E15 m) c).arrAt 4 cfg2.N : Vec Ideal S4096x2 .f32) (ix2 n 1) = Spec.rsum (Spec.tail2Logit (ar0 m c) (ar2 m c) (ar5 m c) (tokB n) (tokS n)) :=
  (final2_l (E15 m) c (fun n j hj => by rw [glog2_eq m c n j hj]; exact tail2Logit_real m c h _ _ _) n).trans
    (Bridge.vsum_eq_rsum 1024 10000 10 _ (Spec.tail2Logit (ar0 m c) (ar2 m c) (ar5 m c) (tokB n) (tokS n)) (by norm_num) (fun j hj => glog2_eq m c n j hj))
theorem grp2_p (h : RealArgs m c) (n : Fin 4096) :
    ((dat2 (E15 m) c).arrAt 5 cfg2.N : Vec Ideal S4096x1 .f32) (ix2 n 0) = (Spec.tail2Logit (ar0 m c) (ar2 m c) (ar5 m c) (tokB n) (tokS n)) (Spec.pick2 (ar1 m c (ix2 (tokB n) (tokS n)))) :=
  (final2_p (E15 m) c (fun n j hj => by rw [glog2_eq m c n j hj]; exact tail2Logit_real m c h _ _ _) n).trans <|
    (congrArg (fun t => Online.vpick 1024 (glog2 (E15 m) c n) t 10) (pA2_eq m c n)).trans <|
    (Bridge.vpick_eq 1024 10 _ _ (by have := (Spec.pick2 (ar1 m c (ix2 (tokB n) (tokS n)))).isLt; omega) (by norm_num)).trans
      (glog2_eq m c n _ (Spec.pick2 (ar1 m c (ix2 (tokB n) (tokS n)))).isLt)

end Final

end Tail

set_option maxHeartbeats 1000000 in
/-- THE KERNEL PROGRAM'S VALUE: what the last valuation holds at the result is the specification of the arguments. -/
theorem kernel_value (h : RealArgs m c) :
    (V19 m (outsOf m) c main_v85 : (⟨2, ![4, 1024]⟩ : Shape).Idx → EReal)
      = Spec.G (ar0 m c) (ar1 m c) (ar2 m c) (ar3 m c) (ar4 m c) (ar5 m c) (ar6 m c) (ar7 m c) := by
  funext j
  have h0 : (j 0).val < 4 := (j 0).isLt
  have h1 : (j 1).val < 1024 := (j 1).isLt
  obtain ⟨n, hn⟩ : ∃ n : Fin 4096, n.val = (j 0).val * 1024 + (j 1).val := ⟨⟨_, by omega⟩, rfl⟩
  have hb : tokB n = j 0 := Fin.ext (by show n.val / 1024 = (j 0).val; omega)
  have hs : tokS n = j 1 := Fin.ext (by show n.val % 1024 = (j 1).val; omega)
  have hf0 : ∀ v, ∃ r : ℝ, (Spec.headLogit (ar0 m c) (ar2 m c) (ar3 m c) (ar6 m c) (ar7 m c) (tokB n) (tokS n)) v = (r : EReal) := fun v => headLogit_real m c h _ _ v
  have hf1 : ∀ v, ∃ r : ℝ, (Spec.tail1Logit (ar0 m c) (ar2 m c) (ar4 m c) (tokB n) (tokS n)) v = (r : EReal) := fun v => tail1Logit_real m c h _ _ v
  have hf2 : ∀ v, ∃ r : ℝ, (Spec.tail2Logit (ar0 m c) (ar2 m c) (ar5 m c) (tokB n) (tokS n)) v = (r : EReal) := fun v => tail2Logit_real m c h _ _ v
  have hx : ∀ k, (V1 m c main_v0 : FVec Ideal S4096x1024 .f32) (ix2 n k) = ar0 m c (ix3 (tokB n) (tokS n) k) := Tail.x_tok m c n
  have hspec : Spec.G (ar0 m c) (ar1 m c) (ar2 m c) (ar3 m c) (ar4 m c) (ar5 m c) (ar6 m c) (ar7 m c) j
      = Spec.loss (ar0 m c) (ar1 m c) (ar2 m c) (ar3 m c) (ar4 m c) (ar5 m c) (ar6 m c) (ar7 m c) (tokB n) (tokS n) := by
    show Spec.loss (ar0 m c) (ar1 m c) (ar2 m c) (ar3 m c) (ar4 m c) (ar5 m c) (ar6 m c) (ar7 m c) (j 0) (j 1) = _
    rw [hb, hs]
  refine (Tail.result_val m c (outsOf m) (V1 m c main_v2) (V1 m c main_v0)
    ((dat0 (E3 m) c).arrAt 4 cfg0.N) ((dat1 (E9 m) c).arrAt 4 cfg1.N) ((dat2 (E15 m) c).arrAt 4 cfg2.N)
    ((dat0 (E3 m) c).arrAt 5 cfg0.N) ((dat1 (E9 m) c).arrAt 5 cfg1.N) ((dat2 (E15 m) c).arrAt 5 cfg2.N)
    (V19 m (outsOf m) c main_v85) rfl rfl (Tail.packed0_eq m c) (Tail.picked0_eq m c) (Tail.packed1_eq m c) (Tail.picked1_eq m c) (Tail.packed2_eq m c) (Tail.picked2_eq m c)
    rfl j n hn (ar1 m c (ix2 (tokB n) (tokS n))) (Tail.lab_tok m c n)
    (Spec.logprob (Spec.headLogit (ar0 m c) (ar2 m c) (ar3 m c) (ar6 m c) (ar7 m c) (tokB n) (tokS n)) (Spec.pickH (ar1 m c (ix2 (tokB n) (tokS n)))))
    (Spec.logprob (Spec.headLogit (ar0 m c) (ar2 m c) (ar3 m c) (ar6 m c) (ar7 m c) (tokB n) (tokS n)) ⟨20000, by omega⟩)
    (Spec.logprob (Spec.headLogit (ar0 m c) (ar2 m c) (ar3 m c) (ar6 m c) (ar7 m c) (tokB n) (tokS n)) ⟨20001, by omega⟩)
    (Spec.logprob (Spec.tail1Logit (ar0 m c) (ar2 m c) (ar4 m c) (tokB n) (tokS n)) (Spec.pick1 (ar1 m c (ix2 (tokB n) (tokS n)))))
    (Spec.logprob (Spec.tail2Logit (ar0 m c) (ar2 m c) (ar5 m c) (tokB n) (tokS n)) (Spec.pick2 (ar1 m c (ix2 (tokB n) (tokS n)))))
    (Bridge.logprob_of _ (by norm_num) hf0 _ _ _ _ (Tail.grp0_p m c h n) (Tail.grp0_l m c h n) (Tail.grp0_m m c h n))
    (Bridge.logprob_of _ (by norm_num) hf0 _ _ _ _ (Tail.clus_head m c _ n hx 0 ⟨20000, by omega⟩ rfl) (Tail.grp0_l m c h n) (Tail.grp0_m m c h n))
    (Bridge.logprob_of _ (by norm_num) hf0 _ _ _ _ (Tail.clus_head m c _ n hx 1 ⟨20001, by omega⟩ rfl) (Tail.grp0_l m c h n) (Tail.grp0_m m c h n))
    (Bridge.logprob_of _ (by norm_num) hf1 _ _ _ _ (Tail.grp1_p m c h n) (Tail.grp1_l m c h n) (Tail.grp1_m m c h n))
    (Bridge.logprob_of _ (by norm_num) hf2 _ _ _ _ (Tail.grp2_p m c h n) (Tail.grp2_l m c h n) (Tail.grp2_m m c h n))).trans ?_
  rw [hspec]
  rfl

end Cert.KernelIdeal.Hand

end
-- ==== Proof.KV.RealArgs.lean ====
/-
  The precondition read: on every core the printed predicate says that the absolute value of every entry of every float
  argument is below +inf; an extended real whose absolute value is below +inf is a real number.
-/
import proofs.«400642_j36009005809963_2_alg».proof.Proof.KV.Args
import proofs.«400642_j36009005809963_2_alg».proof.Defs
import proofs.«400642_j36009005809963_2_alg».proof.Proof.Gen.Pre_finite_inputs
import Idealize.ShloMosaic.Lib.ReduceAll
import Idealize.ShloMosaic.Lib.StableHlo.Predicate
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The rank-0 shape has one index. -/
instance scalarIdxSubsingleton : Subsingleton (⟨0, ![]⟩ : Shape).Idx := ⟨fun a b => funext fun d => d.elim0⟩

/-- An extended real whose absolute value `max x (-x)` is below `⊤` is a real number: both infinities have absolute value `⊤`. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- The f32 pattern 0x7F800000 denotes `⊤`. -/
theorem ofBits_inf : (FloatOps.ofBits (F := Ideal) .f32 0x7F800000#32 : EReal) = ⊤ := by
  show Ideal.ofBits .f32 0x7F800000#32 = ⊤
  simp [Ideal.ofBits, Ideal.ieee]

/-- `jnp.all(|x| < +inf)` read back: when the printed all-reduce of the comparison is 1, every entry of `x` is real. -/
theorem real_of_all_abs_lt_inf {s : Shape} {axes : List (Fin s.rank)} (x : FVec Ideal s .f32)
    (hb : (⟨0, ![]⟩ : Shape).BroadcastsInDim s ![]) (hr : s.ReducesTo axes (⟨0, ![]⟩ : Shape))
    (hu : 0 < (⟨0, ![]⟩ : Shape).numel) (init : IVec (⟨0, ![]⟩ : Shape) 1)
    (e : Host.reduce IntOp.andi
          (cmpf .olt (Host.absf x) (broadcastInDim s ![] hb (constant (F := Ideal) (⟨0, ![]⟩ : Shape) .f32 0x7F800000#32)))
          init hr hu ix0 = 1#1)
    (i : s.Idx) : ∃ r : ℝ, x i = (r : EReal) := by
  have hi := Host.reduce_andi_all _ init hr hu ix0 e i
  apply real_of_abs_lt_top
  change Ideal.cmp .olt (max (x i) (-(x i))) (broadcastInDim s ![] hb (constant (F := Ideal) (⟨0, ![]⟩ : Shape) .f32 0x7F800000#32) i) = 1#1 at hi
  rw [StableHlo.Predicate.bcast_scalar hb hu] at hi
  change Ideal.cmp .olt (max (x i) (-(x i))) (FloatOps.ofBits (F := Ideal) .f32 0x7F800000#32) = 1#1 at hi
  rw [ofBits_inf] at hi
  by_contra hn
  simp [Ideal.cmp, hn] at hi

/-- Every float argument entry is a real number, from the finiteness precondition. -/
theorem realArgs_of_pre [hPre : Cert.Pre_finite_inputs.Facts] (m : (ℓ : Loc nD τ sig) → Buf (Elt Ideal) ℓ)
    (h : Cert.Pre_KernelIdeal m) (c : Dev nD) : RealArgs m c := by
  have h0 := congrFun (h c) ValueIdx.ix0
  dsimp only [Cert.Pre_finite_inputs.fn, Cert.Pre_finite_inputs.fn_part1, Idealize.ShloMosaic.andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact
    { h0 := real_of_all_abs_lt_inf _ _ _ _ _ e0
      h2 := real_of_all_abs_lt_inf _ _ _ _ _ e2
      h3 := real_of_all_abs_lt_inf _ _ _ _ _ e3
      h4 := real_of_all_abs_lt_inf _ _ _ _ _ e4
      h5 := real_of_all_abs_lt_inf _ _ _ _ _ e5
      h6 := real_of_all_abs_lt_inf _ _ _ _ _ e6
      h7 := real_of_all_abs_lt_inf _ _ _ _ _ e7 }

end Cert.KernelIdeal.Hand

end
-- ==== Proof.Ref.RefValue.lean ====
/-
  The reference program's value at the ideal values: its result term, one operation at a time, is the specification.
  For each of the three groups the reference forms all logits by one matrix product with the sliced table plus the bias,
  takes log_softmax along the vocabulary (the row maximum by a max-reduction from -inf, the shifted exponentials summed
  from 0, the logarithm subtracted), gathers the clipped label's column (the gather's range guard always holds, the index
  being clipped), and combines the masked negated log-probabilities.
-/
import proofs.«400642_j36009005809963_2_alg».proof.Proof.Ref.Read
import proofs.«400642_j36009005809963_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-! ## Words -/

/-- A small natural number, as a 32-bit word, reads back signed as itself. -/
theorem toInt_ofNat_lt (n : ℕ) (hn : n < 2 ^ 31) : (BitVec.ofNat 32 n).toInt = (n : ℤ) := by
  rw [BitVec.toInt_eq_toNat_cond, BitVec.toNat_ofNat, Nat.mod_eq_of_lt (by omega)]
  rw [if_pos (by omega)]

/-- A word that is nonnegative as a signed integer is the word of that integer's natural number. -/
theorem eq_ofNat_toInt_toNat (x : BitVec 32) (hx : 0 ≤ x.toInt) : x = BitVec.ofNat 32 x.toInt.toNat := by
  have h : x = BitVec.ofInt 32 x.toInt := (BitVec.ofInt_toInt).symm
  rw [← Int.toNat_of_nonneg hx] at h
  rw [BitVec.ofInt_natCast] at h
  exact h

/-- clip: the signed minimum with `hi` of the signed maximum with 0 is the clipped natural number's word. -/
theorem clip_word (x : BitVec 32) (hi : ℕ) (hhi : hi < 2 ^ 31) :
    IntOp.minsi (BitVec.ofNat 32 hi) (IntOp.maxsi 0#32 x) = BitVec.ofNat 32 (Spec.clipNat x hi) := by
  have h0 : (0#32 : BitVec 32).toInt = 0 := by decide
  have hh : (BitVec.ofNat 32 hi).toInt = (hi : ℤ) := toInt_ofNat_lt hi hhi
  unfold IntOp.minsi IntOp.maxsi Spec.clipNat
  by_cases h1 : x.toInt < 0
  · have s1 : x.slt 0#32 = true := BitVec.slt_iff_toInt_lt.mpr (by rw [h0]; exact h1)
    have s2 : ¬ ((BitVec.ofNat 32 hi).slt 0#32 = true) := fun h => by
      have := BitVec.slt_iff_toInt_lt.mp h; rw [hh, h0] at this; omega
    rw [if_pos s1, if_neg s2, if_pos h1]
  · have s1 : ¬ (x.slt 0#32 = true) := fun h => h1 (by have := BitVec.slt_iff_toInt_lt.mp h; rwa [h0] at this)
    rw [if_neg s1, if_neg h1]
    by_cases h2 : (hi : ℤ) < x.toInt
    · have s2 : (BitVec.ofNat 32 hi).slt x = true := BitVec.slt_iff_toInt_lt.mpr (by rw [hh]; exact h2)
      rw [if_pos s2, if_pos h2]
    · have s2 : ¬ ((BitVec.ofNat 32 hi).slt x = true) := fun h => h2 (by have := BitVec.slt_iff_toInt_lt.mp h; rwa [hh] at this)
      rw [if_neg s2, if_neg h2]
      exact eq_ofNat_toInt_toNat x (by omega)

/-- The three masks, as the printed comparisons' bits. -/
theorem slt_const_iff (x : BitVec 32) (c : ℕ) (hc : c < 2 ^ 31) :
    IntOp.cmpi .slt x (BitVec.ofNat 32 c) = 1#1 ↔ x.toInt < (c : ℤ) := by
  unfold IntOp.cmpi
  rw [show (BitVec.ofBool (x.slt (BitVec.ofNat 32 c)) = 1#1) ↔ (x.slt (BitVec.ofNat 32 c) = true) from by
    cases x.slt (BitVec.ofNat 32 c) <;> decide]
  rw [BitVec.slt_iff_toInt_lt, toInt_ofNat_lt c hc]

theorem sge_const_iff (x : BitVec 32) (c : ℕ) (hc : c < 2 ^ 31) :
    IntOp.cmpi .sge x (BitVec.ofNat 32 c) = 1#1 ↔ (c : ℤ) ≤ x.toInt := by
  unfold IntOp.cmpi
  rw [show (BitVec.ofBool ((BitVec.ofNat 32 c).sle x) = 1#1) ↔ ((BitVec.ofNat 32 c).sle x = true) from by
    cases (BitVec.ofNat 32 c).sle x <;> decide]
  rw [BitVec.sle_iff_toInt_le, toInt_ofNat_lt c hc]

theorem sle_const_iff (x : BitVec 32) (c : ℕ) (hc : c < 2 ^ 31) :
    IntOp.cmpi .sle x (BitVec.ofNat 32 c) = 1#1 ↔ x.toInt ≤ (c : ℤ) := by
  unfold IntOp.cmpi
  rw [show (BitVec.ofBool (x.sle (BitVec.ofNat 32 c)) = 1#1) ↔ (x.sle (BitVec.ofNat 32 c) = true) from by
    cases x.sle (BitVec.ofNat 32 c) <;> decide]
  rw [BitVec.sle_iff_toInt_le, toInt_ofNat_lt c hc]

/-- The conjunction of two bits is 1 exactly when both are. -/
theorem andi_eq_one_iff (a b : BitVec 1) : IntOp.andi a b = 1#1 ↔ a = 1#1 ∧ b = 1#1 := by
  unfold IntOp.andi
  rcases BitVec.eq_zero_or_eq_one a with rfl | rfl <;> rcases BitVec.eq_zero_or_eq_one b with rfl | rfl <;> decide

/-- The head mask: labels < 20000, signed. -/
theorem mask_head (x : BitVec 32) : IntOp.cmpi .slt x 20000#32 = 1#1 ↔ Spec.isHead x := by
  have h := slt_const_iff x 20000 (by norm_num)
  simp only [Nat.cast_ofNat] at h
  exact h

/-- The first tail's mask: 20000 ≤ labels and labels < 40000, signed. -/
theorem mask_tail1 (x : BitVec 32) :
    IntOp.andi (IntOp.cmpi .sge x 20000#32) (IntOp.cmpi .slt x 40000#32) = 1#1 ↔ Spec.isTail1 x := by
  rw [andi_eq_one_iff]
  have h1 := sge_const_iff x 20000 (by norm_num)
  have h2 := slt_const_iff x 40000 (by norm_num)
  simp only [Nat.cast_ofNat] at h1 h2
  exact and_congr h1 h2

/-- The second tail's mask: 40000 ≤ labels and labels < 50000, signed. -/
theorem mask_tail2 (x : BitVec 32) :
    IntOp.andi (IntOp.cmpi .sge x 40000#32) (IntOp.cmpi .slt x 50000#32) = 1#1 ↔ Spec.isTail2 x := by
  rw [andi_eq_one_iff]
  have h1 := sge_const_iff x 40000 (by norm_num)
  have h2 := slt_const_iff x 50000 (by norm_num)
  simp only [Nat.cast_ofNat] at h1 h2
  exact and_congr h1 h2

/-! ## A max-reduction over the last axis of a rank-3 array is the row maximum -/

theorem rowmax_apply {B S V : ℕ} (x : (⟨3, ![B, S, V]⟩ : Shape).Idx → EReal) (init : (⟨0, ![]⟩ : Shape).Idx → EReal)
    (h' : (⟨3, ![B, S, V]⟩ : Shape).ReducesTo [2] ⟨2, ![B, S]⟩) (h : (⟨3, ![B, S, V]⟩ : Shape).Reduces [2] ⟨2, ![B, S]⟩)
    (hu : 0 < (⟨0, ![]⟩ : Shape).numel) (hinit : init (Shape.Idx.first hu) = ⊥) (j : (⟨2, ![B, S]⟩ : Shape).Idx) :
    Host.reduce (FloatOps.maximumf (F := Ideal) (φ := .f32)) x init h' hu j
      = Spec.rmax (fun v : Fin V => x (ix3 (j 0) (j 1) v)) := by
  rw [Host.reduce_eq_fold_single _ x init h' h hu j, hinit]
  have e : (x ∘ h.lift j) = fun v : Fin V => x (ix3 (j 0) (j 1) v) := by
    funext v
    show x (h.lift j v) = _
    congr 1
    funext c
    refine Fin.ext ?_
    rw [h.lift_val]
    unfold Shape.Reduces.liftVal
    match c with
    | ⟨0, _⟩ => rfl
    | ⟨1, _⟩ => rfl
    | ⟨2, _⟩ => rfl
  rw [e]
  rfl

/-! ## An and-reduction over a last axis of size one reads its one element -/

/-- A fold over an index type with one element is one application of the operation. -/
theorem fold_univ_one {β : Type} (op : β → β → β) [Std.Commutative op] [Std.Associative op] (b : β) {n : ℕ} (hn : n = 1)
    (f : Fin n → β) : (Finset.univ : Finset (Fin n)).fold op b f = op (f ⟨0, by omega⟩) b := by
  subst hn
  rw [show (Finset.univ : Finset (Fin 1)) = {0} from rfl, Finset.fold_singleton]
  rfl

/-- The conjunction of a bit with 1 is the bit. -/
theorem andi_one (b : BitVec 1) : IntOp.andi b 1#1 = b := by
  unfold IntOp.andi
  rcases BitVec.eq_zero_or_eq_one b with rfl | rfl <;> decide

theorem andreduce_apply {B S : ℕ} (x : (⟨4, ![B, S, 1, 1]⟩ : Shape).Idx → BitVec 1) (init : (⟨0, ![]⟩ : Shape).Idx → BitVec 1)
    (h' : (⟨4, ![B, S, 1, 1]⟩ : Shape).ReducesTo [3] ⟨3, ![B, S, 1]⟩) (h : (⟨4, ![B, S, 1, 1]⟩ : Shape).Reduces [3] ⟨3, ![B, S, 1]⟩)
    (hu : 0 < (⟨0, ![]⟩ : Shape).numel) (hinit : init (Shape.Idx.first hu) = 1#1) (j : (⟨3, ![B, S, 1]⟩ : Shape).Idx) :
    Host.reduce IntOp.andi x init h' hu j = x (ix4 (j 0) (j 1) (j 2) (0 : Fin 1)) := by
  rw [Host.reduce_eq_fold_single _ x init h' h hu j, hinit,
    fold_univ_one IntOp.andi 1#1 (rfl : (⟨4, ![B, S, 1, 1]⟩ : Shape).size 3 = 1) (x ∘ h.lift j)]
  have e : h.lift j ⟨0, (Nat.one_pos : 0 < 1)⟩ = ix4 (j 0) (j 1) (j 2) (0 : Fin 1) := by
    funext c
    refine Fin.ext ?_
    rw [h.lift_val]
    unfold Shape.Reduces.liftVal
    match c with
    | ⟨0, _⟩ => rfl
    | ⟨1, _⟩ => rfl
    | ⟨2, _⟩ => rfl
    | ⟨3, _⟩ => rfl
  show IntOp.andi (x (h.lift j ⟨0, _⟩)) 1#1 = _
  rw [e]
  exact andi_one _

/-! ## Two pieces joined along the first axis, read at an index -/

theorem concat_rows_apply {α : Type} {n₁ n₂ n m : ℕ} (x₁ : (⟨2, ![n₁, m]⟩ : Shape).Idx → α) (x₂ : (⟨2, ![n₂, m]⟩ : Shape).Idx → α)
    (hc : Shape.Concatenates [(⟨2, ![n₁, m]⟩ : Shape), ⟨2, ![n₂, m]⟩] ⟨2, ![n, m]⟩ 0) (hn : n ≤ n₁ + n₂) (v : Fin n) (k : Fin m) :
    concatenate (⟨2, ![n, m]⟩ : Shape) 0 [⟨⟨2, ![n₁, m]⟩, x₁⟩, ⟨⟨2, ![n₂, m]⟩, x₂⟩] hc (ix2 v k)
      = if h : v.val < n₁ then x₁ (ix2 ⟨v.val, h⟩ k) else x₂ (ix2 ⟨v.val - n₁, by have := v.isLt; omega⟩ k) := by
  split
  · next h =>
    refine concatenate_pair_apply_left (0 : Fin 2) x₁ x₂ hc (ix2 v k) rfl (ix2 ⟨v.val, h⟩ k) (fun b => ?_)
    match b with
    | ⟨0, _⟩ => rfl
    | ⟨1, _⟩ => rfl
  · next h =>
    refine concatenate_pair_apply_right (0 : Fin 2) x₁ x₂ hc (ix2 v k) rfl rfl (ix2 ⟨v.val - n₁, by have := v.isLt; omega⟩ k) (fun b hb => ?_) ?_
    · match b with
      | ⟨0, _⟩ => exact absurd rfl hb
      | ⟨1, _⟩ => rfl
    · show (v.val - n₁) + n₁ = v.val
      omega

theorem concat_vec_apply {α : Type} {n₁ n₂ n : ℕ} (x₁ : (⟨1, ![n₁]⟩ : Shape).Idx → α) (x₂ : (⟨1, ![n₂]⟩ : Shape).Idx → α)
    (hc : Shape.Concatenates [(⟨1, ![n₁]⟩ : Shape), ⟨1, ![n₂]⟩] ⟨1, ![n]⟩ 0) (hn : n ≤ n₁ + n₂) (v : Fin n) :
    concatenate (⟨1, ![n]⟩ : Shape) 0 [⟨⟨1, ![n₁]⟩, x₁⟩, ⟨⟨1, ![n₂]⟩, x₂⟩] hc (ix1 v)
      = if h : v.val < n₁ then x₁ (ix1 ⟨v.val, h⟩) else x₂ (ix1 ⟨v.val - n₁, by have := v.isLt; omega⟩) := by
  split
  · next h =>
    refine concatenate_pair_apply_left (0 : Fin 1) x₁ x₂ hc (ix1 v) rfl (ix1 ⟨v.val, h⟩) (fun b => ?_)
    match b with
    | ⟨0, _⟩ => rfl
  · next h =>
    refine concatenate_pair_apply_right (0 : Fin 1) x₁ x₂ hc (ix1 v) rfl rfl (ix1 ⟨v.val - n₁, by have := v.isLt; omega⟩) (fun b hb => ?_) ?_
    · match b with
      | ⟨0, _⟩ => exact absurd rfl hb
    · show (v.val - n₁) + n₁ = v.val
      omega

/-! ## A take along the last axis: both leading axes batching, the last axis collapsed -/

/-- The dimension numbers of `take_along_axis` on an operand `[B, S, V]` with start indices `[B, S, 1, 1]`. -/
abbrev rowDims (B S V : ℕ)
    (wf : GatherDims.WF ⟨3, ![B, S, V]⟩ ⟨4, ![B, S, 1, 1]⟩ ⟨3, ![B, S, 1]⟩ [] [2] [0, 1] [2] [0, 1] 3 ![1, 1, 1]) :
    GatherDims ⟨3, ![B, S, V]⟩ ⟨4, ![B, S, 1, 1]⟩ ⟨3, ![B, S, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather at `(b, s, 0)`: the operand's row `(b, s)` at the start index `idx[b, s, 0, 0]` (the third coordinate ranges over one value), read signed and clamped
    into `[0, V - 1]`. -/
theorem gather_row_apply {α : Type} {B S V w : ℕ} (hV : 0 < V)
    (wf : GatherDims.WF ⟨3, ![B, S, V]⟩ ⟨4, ![B, S, 1, 1]⟩ ⟨3, ![B, S, 1]⟩ [] [2] [0, 1] [2] [0, 1] 3 ![1, 1, 1])
    (x : (⟨3, ![B, S, V]⟩ : Shape).Idx → α) (idx : IVec ⟨4, ![B, S, 1, 1]⟩ w) (y : (⟨3, ![B, S, 1]⟩ : Shape).Idx) :
    Host.gather (rowDims B S V wf) x idx y
      = x (ix3 (y 0) (y 1) ⟨min (idx (ix4 (y 0) (y 1) (y 2) (0 : Fin 1))).toInt.toNat (V - 1), by omega⟩) := by
  unfold Host.gather
  congr 1
  funext a
  refine Fin.ext ?_
  show (rowDims B S V wf).start y idx a + (rowDims B S V wf).batchCoord y a + (rowDims B S V wf).offCoord y a = _
  match a with
  | ⟨0, h0⟩ =>
    rw [GatherDims.start_batching _ _ _ _ (List.Mem.head _),
      GatherDims.offCoord_eq_zero _ _ _ (fun h => ((GatherDims.mem_sKept _ _).mp h).2 (List.Mem.head _))]
    unfold GatherDims.batchCoord
    rw [dif_pos (show (⟨0, h0⟩ : Fin 3) ∈ (rowDims B S V wf).operandBatchingDims from List.Mem.head _)]
    simp only [Nat.zero_add, Nat.add_zero]
    rfl
  | ⟨1, h1⟩ =>
    rw [GatherDims.start_batching _ _ _ _ (List.Mem.tail _ (List.Mem.head _)),
      GatherDims.offCoord_eq_zero _ _ _ (fun h => ((GatherDims.mem_sKept _ _).mp h).2 (List.Mem.tail _ (List.Mem.head _)))]
    unfold GatherDims.batchCoord
    rw [dif_pos (show (⟨1, h1⟩ : Fin 3) ∈ (rowDims B S V wf).operandBatchingDims from List.Mem.tail _ (List.Mem.head _))]
    simp only [Nat.zero_add, Nat.add_zero]
    rfl
  | ⟨2, h2⟩ =>
    have hnb : (⟨2, h2⟩ : Fin 3) ∉ (rowDims B S V wf).operandBatchingDims := by
      intro hm
      rcases List.mem_cons.mp hm with e | hm'
      · exact absurd (congrArg Fin.val e) (show ¬ (2 : ℕ) = 0 by decide)
      · exact absurd (congrArg Fin.val (List.mem_singleton.mp hm')) (show ¬ (2 : ℕ) = 1 by decide)
    rw [GatherDims.batchCoord_eq_zero _ _ _ hnb,
      GatherDims.offCoord_eq_zero _ _ _ (fun h => ((GatherDims.mem_sKept _ _).mp h).1 (List.Mem.head _))]
    simp only [Nat.add_zero]
    unfold GatherDims.start
    rw [dif_pos (show (⟨2, h2⟩ : Fin 3) ∈ (rowDims B S V wf).startIndexMap from List.mem_singleton.mpr rfl)]
    have key : ∀ p q : (⟨4, ![B, S, 1, 1]⟩ : Shape).Idx, p = q →
        min (idx p).toInt.toNat (V - 1) = min (idx q).toInt.toNat (V - 1) := fun p q e => by rw [e]
    refine key _ _ (funext fun b => Fin.ext ?_)
    match b with
    | ⟨0, _⟩ => rfl
    | ⟨1, _⟩ => rfl
    | ⟨2, _⟩ => rfl
    | ⟨3, _⟩ => rfl

/-! ## Constants -/

/-- The word of -inf is the bottom element. -/
theorem ofBits_neg_inf_f32 : Ideal.ofBits .f32 0xFF800000#32 = (⊥ : EReal) := by simp [Ideal.ofBits, Ideal.ieee]

/-! ## The head group: logits, log_softmax, clip, take, mask -/

section Head
variable (x0 : Spec.A0) (x1 : Spec.A1) (x2 : Spec.A2) (x3 : Spec.A3) (x6 : Spec.A6) (x7 : Spec.A7)

/-- The head logits: the product with the joined table plus the joined bias. -/
theorem head_logit (b : Fin 4) (s : Fin 1024) (v : Fin 20002) :
    val_main_v6 (F := Ideal) x0 x2 x3 x6 x7 (ix3 b s v) = Spec.headLogit x0 x2 x3 x6 x7 b s v := by
  rw [val_main_v6_apply, val_main_v3_apply, val_main_v5_apply, val_main_v4_apply, Ideal.addf_def]
  have el : ∀ k : Fin 1024, lidx_main_v3 (ix3 b s v) k = ix3 b s k := fun k => funext fun a => Fin.ext (by
    match a with
    | ⟨0, _⟩ => rfl
    | ⟨1, _⟩ => rfl
    | ⟨2, _⟩ => rfl)
  have er : ∀ k : Fin 1024, ridx_main_v3 (ix3 b s v) k = ix2 v k := fun k => funext fun a => Fin.ext (by
    match a with
    | ⟨0, _⟩ => rfl
    | ⟨1, _⟩ => rfl)
  have eb : idx_main_v4 (idx_main_v5 (ix3 b s v)) = ix1 v := funext fun a => Fin.ext (by
    match a with
    | ⟨0, _⟩ => rfl)
  simp only [el, er, eb]
  unfold val_main_v1 val_main_v2 Spec.headLogit
  rw [concat_vec_apply x3 x7 _ (by decide) v]
  simp only [concat_rows_apply (val_main_v0 (F := Ideal) x2) x6 _ (by decide) v]
  by_cases h : v.val < 20000
  · simp only [dif_pos h]
    have e0 : ∀ k : Fin 1024, val_main_v0 (F := Ideal) x2 (ix2 (⟨v.val, h⟩ : Fin 20000) k)
        = x2 (ix2 (⟨v.val, by omega⟩ : Fin 50000) k) := fun k => by
      rw [val_main_v0_apply]
      congr 1
      funext a
      refine Fin.ext ?_
      match a with
      | ⟨0, _⟩ => rfl
      | ⟨1, _⟩ => rfl
    simp only [e0]
    rfl
  · simp only [dif_neg h]
    rfl

/-- The row maximum: the max-reduction from -inf, then the maximum with -inf. -/
theorem head_max (b : Fin 4) (s : Fin 1024) :
    val_main_call0_v2 (F := Ideal) x0 x2 x3 x6 x7 (ix2 b s) = Spec.rmax (Spec.headLogit x0 x2 x3 x6 x7 b s) := by
  rw [val_main_call0_v2_apply, val_main_call0_v1_apply, val_main_call0_cst_0_apply, Ideal.ofBits_def, ofBits_neg_inf_f32,
    Ideal.maximumf_def]
  unfold val_main_call0_v0
  rw [rowmax_apply (val_main_v6 (F := Ideal) x0 x2 x3 x6 x7) (val_main_call0_cst (F := Ideal)) _ (by decide) Gen.h_S_
    (by rw [val_main_call0_cst_apply, Ideal.ofBits_def, ofBits_neg_inf_f32]) (ix2 b s)]
  have e : (fun v : Fin 20002 => val_main_v6 (F := Ideal) x0 x2 x3 x6 x7 (ix3 b s v)) = Spec.headLogit x0 x2 x3 x6 x7 b s :=
    funext fun v => head_logit x0 x2 x3 x6 x7 b s v
  show max ⊥ (Spec.rmax (fun v : Fin 20002 => val_main_v6 (F := Ideal) x0 x2 x3 x6 x7 (ix3 b s v))) = _
  rw [e]
  exact max_eq_right bot_le

/-- The shifted logits. -/
theorem head_shift (b : Fin 4) (s : Fin 1024) (v : Fin 20002) :
    val_main_call0_v5 (F := Ideal) x0 x2 x3 x6 x7 (ix3 b s v)
      = Spec.headLogit x0 x2 x3 x6 x7 b s v - Spec.rmax (Spec.headLogit x0 x2 x3 x6 x7 b s) := by
  rw [val_main_call0_v5_apply, val_main_call0_v4_apply, val_main_call0_v3_apply, Ideal.subf_def, head_logit]
  have e : idx_main_call0_v3 (idx_main_call0_v4 (ix3 b s v)) = ix2 b s := funext fun a => Fin.ext (by
    match a with
    | ⟨0, _⟩ => rfl
    | ⟨1, _⟩ => rfl)
  rw [e, head_max]

/-- The sum of the shifted exponentials, from 0. -/
theorem head_sum (b : Fin 4) (s : Fin 1024) :
    val_main_call0_v7 (F := Ideal) x0 x2 x3 x6 x7 (ix2 b s) = Spec.rsum (Spec.headLogit x0 x2 x3 x6 x7 b s) := by
  rw [val_main_call0_v7_apply, val_main_call0_cst_1_apply, Ideal.ofBits_def, Ideal.ofBits_zero_f32, zero_add]
  unfold Spec.rsum
  refine Finset.sum_congr rfl fun k _ => ?_
  have e : idx_main_call0_v7 (ix2 b s) k = ix3 b s k := funext fun a => Fin.ext (by
    match a with
    | ⟨0, _⟩ => rfl
    | ⟨1, _⟩ => rfl
    | ⟨2, _⟩ => rfl)
  rw [e, val_main_call0_v6_apply, Ideal.hostUnary_exp_def, head_shift]

/-- log_softmax of the head logits is the specification's log-probability. -/
theorem head_logprob (b : Fin 4) (s : Fin 1024) (v : Fin 20002) :
    val_main_v7 (F := Ideal) x0 x2 x3 x6 x7 (ix3 b s v) = Spec.logprob (Spec.headLogit x0 x2 x3 x6 x7 b s) v := by
  rw [val_main_v7_apply, val_main_call0_v10_apply, val_main_call0_v9_apply, val_main_call0_v8_apply, Ideal.subf_def,
    Ideal.hostUnary_log_def, head_shift]
  have e : idx_main_call0_v8 (idx_main_call0_v10 (ix3 b s v)) = ix2 b s := funext fun a => Fin.ext (by
    match a with
    | ⟨0, _⟩ => rfl
    | ⟨1, _⟩ => rfl)
  rw [e, head_sum]
  rfl

/-- clip(labels, 0, 19999) is the clipped label's word. -/
theorem head_clip (b : Fin 4) (s : Fin 1024) :
    val_main_v10 (F := Ideal) x1 (ix2 b s) = BitVec.ofNat 32 (Spec.clipNat (x1 (ix2 b s)) 19999) := by
  rw [val_main_v10_apply, val_main_call1_v4_apply, val_main_call1_v3_apply, val_main_c_1_apply, val_main_call1_v2_apply,
    val_main_call1_v1_apply, val_main_call1_v0_apply, val_main_c_0_apply]
  exact clip_word (x1 (ix2 b s)) 19999 (by norm_num)

/-- The start index the gather reads: the clipped label (the negative-index wrap is not taken). -/
theorem head_start (b : Fin 4) (s : Fin 1024) :
    val_main_call2_v5 (F := Ideal) x1 (ix4 b s (0 : Fin 1) (0 : Fin 1)) = BitVec.ofNat 32 (Spec.clipNat (x1 (ix2 b s)) 19999) := by
  have hz : ((0 : Fin 1) : ℕ) = 0 := rfl
  have e5 : idx_main_call2_v5 (ix4 b s (0 : Fin 1) (0 : Fin 1)) = ix3 b s (0 : Fin 1) := funext fun a => Fin.ext (by
    match a with
    | ⟨0, _⟩ =>
      show (((b.val * 1024 + s.val) * 1 + ((0 : Fin 1) : ℕ)) * 1 + ((0 : Fin 1) : ℕ)) / 1024 = b.val
      have := s.isLt; omega
    | ⟨1, _⟩ =>
      show (((b.val * 1024 + s.val) * 1 + ((0 : Fin 1) : ℕ)) * 1 + ((0 : Fin 1) : ℕ)) / 1 % 1024 = s.val
      have := s.isLt; omega
    | ⟨2, _⟩ => rfl)
  have e11 : idx_main_v11 (ix3 b s (0 : Fin 1)) = ix2 b s := funext fun a => Fin.ext (by
    match a with
    | ⟨0, _⟩ => rfl
    | ⟨1, _⟩ => rfl)
  have hc := Spec.clipNat_le (x1 (ix2 b s)) 19999
  rw [val_main_call2_v5_apply, e5, val_main_call2_v4_apply, val_main_call2_v1_apply, val_main_call2_v0_apply,
    val_main_call2_c_apply, val_main_v11_apply, e11, head_clip]
  have hn : ¬ IntOp.cmpi .slt (BitVec.ofNat 32 (Spec.clipNat (x1 (ix2 b s)) 19999)) (BitVec.ofNat 32 0) = 1#1 := fun h => by
    have := (slt_const_iff _ 0 (by norm_num)).mp h
    rw [toInt_ofNat_lt _ (by omega)] at this
    omega
  rw [show (0#32 : BitVec 32) = BitVec.ofNat 32 0 from rfl, eq_zero_of_ne_one hn, select_zero]

/-- The gather's range guard holds: the start index lies in [0, 20001]. -/
theorem head_guard (b : Fin 4) (s : Fin 1024) :
    val_main_call2_v12 (F := Ideal) x1 (ix3 b s (0 : Fin 1)) = 1#1 := by
  have hc := Spec.clipNat_le (x1 (ix2 b s)) 19999
  unfold val_main_call2_v12
  rw [andreduce_apply (val_main_call2_v11 (F := Ideal) x1) (val_main_call2_c_3 (F := Ideal)) _ (by decide) Gen.h_S_
    (by rw [val_main_call2_c_3_apply]) (ix3 b s (0 : Fin 1))]
  show val_main_call2_v11 (F := Ideal) x1 (ix4 b s (0 : Fin 1) (0 : Fin 1)) = 1#1
  rw [val_main_call2_v11_apply, val_main_call2_v7_apply, val_main_call2_v10_apply, val_main_call2_v6_apply,
    val_main_call2_c_2_apply, val_main_call2_v9_apply, val_main_call2_v8_apply, val_main_call2_c_1_apply, head_start]
  refine (andi_eq_one_iff _ _).mpr ⟨?_, ?_⟩
  · refine (sge_const_iff _ 0 (by norm_num)).mpr ?_
    rw [toInt_ofNat_lt _ (by omega)]; omega
  · refine (sle_const_iff _ 20001 (by norm_num)).mpr ?_
    rw [toInt_ofNat_lt _ (by omega)]; omega

/-- The gather reads the log-probability of the clipped label's column. -/
theorem head_gather (b : Fin 4) (s : Fin 1024) :
    val_main_call2_v13 (F := Ideal) x0 x1 x2 x3 x6 x7 (ix3 b s (0 : Fin 1))
      = Spec.logprob (Spec.headLogit x0 x2 x3 x6 x7 b s) (Spec.pickH (x1 (ix2 b s))) := by
  have hc := Spec.clipNat_le (x1 (ix2 b s)) 19999
  unfold val_main_call2_v13
  show Host.gather (rowDims 4 1024 20002 _) (val_main_v7 (F := Ideal) x0 x2 x3 x6 x7) (val_main_call2_v5 (F := Ideal) x1)
      (ix3 b s (0 : Fin 1)) = _
  rw [gather_row_apply (by norm_num)]
  show val_main_v7 (F := Ideal) x0 x2 x3 x6 x7 (ix3 b s ⟨min (val_main_call2_v5 (F := Ideal) x1
      (ix4 b s (0 : Fin 1) (0 : Fin 1))).toInt.toNat (20002 - 1), _⟩) = _
  have hv : min (val_main_call2_v5 (F := Ideal) x1 (ix4 b s (0 : Fin 1) (0 : Fin 1))).toInt.toNat (20002 - 1)
      = Spec.clipNat (x1 (ix2 b s)) 19999 := by
    rw [head_start, toInt_ofNat_lt _ (by omega), Int.toNat_natCast]
    omega
  have hi : (⟨min (val_main_call2_v5 (F := Ideal) x1 (ix4 b s (0 : Fin 1) (0 : Fin 1))).toInt.toNat (20002 - 1), by omega⟩ : Fin 20002)
      = Spec.pickH (x1 (ix2 b s)) := Fin.ext hv
  rw [hi, head_logprob]

/-- take_along_axis then the reshape: the log-probability of the clipped label's column. -/
theorem head_take (b : Fin 4) (s : Fin 1024) :
    val_main_v13 (F := Ideal) x0 x1 x2 x3 x6 x7 (ix2 b s)
      = Spec.logprob (Spec.headLogit x0 x2 x3 x6 x7 b s) (Spec.pickH (x1 (ix2 b s))) := by
  have e13 : idx_main_v13 (ix2 b s) = ix3 b s (0 : Fin 1) := funext fun a => Fin.ext (by
    match a with
    | ⟨0, _⟩ =>
      show (b.val * 1024 + s.val) / 1024 = b.val
      have := s.isLt; omega
    | ⟨1, _⟩ =>
      show (b.val * 1024 + s.val) / 1 % 1024 = s.val
      have := s.isLt; omega
    | ⟨2, _⟩ => rfl)
  rw [val_main_v13_apply, e13, val_main_v12_apply, head_guard, select_one, head_gather]

open Classical in
/-- The head term of the loss. -/
theorem head_term (b : Fin 4) (s : Fin 1024) :
    val_main_v15 (F := Ideal) x0 x1 x2 x3 x6 x7 (ix2 b s)
      = if Spec.isHead (x1 (ix2 b s)) then -(Spec.logprob (Spec.headLogit x0 x2 x3 x6 x7 b s) (Spec.pickH (x1 (ix2 b s)))) else 0 := by
  rw [val_main_v15_apply, val_main_v9_apply, val_main_v8_apply, val_main_c_apply]
  by_cases h : Spec.isHead (x1 (ix2 b s))
  · rw [if_pos h, (mask_head _).mpr h, select_one, val_main_v14_apply, Ideal.hostNegf_def,
      Ideal.negf_def, head_take]
  · rw [if_neg h, eq_zero_of_ne_one (fun hh => h ((mask_head _).mp hh)), select_zero,
      val_main_call3_v1_apply, val_main_call3_v0_apply, val_main_cst_apply, Ideal.ofBits_def, Ideal.ofBits_zero_f32]

end Head

/-! ## The first tail group: rows 20000 … 39999 -/

section Tail1
variable (x0 : Spec.A0) (x1 : Spec.A1) (x2 : Spec.A2) (x3 : Spec.A3) (x4 : Spec.A3) (x6 : Spec.A6) (x7 : Spec.A7)

/-- The group's logits: the product with the table's rows 20000 … plus the bias. -/
theorem t1_logit (b : Fin 4) (s : Fin 1024) (v : Fin 20000) :
    val_main_v25 (F := Ideal) x0 x2 x4 (ix3 b s v) = Spec.tail1Logit x0 x2 x4 b s v := by
  rw [val_main_v25_apply, val_main_v22_apply, val_main_v24_apply, val_main_v23_apply, Ideal.addf_def]
  have el : ∀ k : Fin 1024, lidx_main_v22 (ix3 b s v) k = ix3 b s k := fun k => funext fun a => Fin.ext (by
    match a with
    | ⟨0, _⟩ => rfl
    | ⟨1, _⟩ => rfl
    | ⟨2, _⟩ => rfl)
  have er : ∀ k : Fin 1024, ridx_main_v22 (ix3 b s v) k = ix2 v k := fun k => funext fun a => Fin.ext (by
    match a with
    | ⟨0, _⟩ => rfl
    | ⟨1, _⟩ => rfl)
  have eb : idx_main_v23 (idx_main_v24 (ix3 b s v)) = ix1 v := funext fun a => Fin.ext (by
    match a with
    | ⟨0, _⟩ => rfl)
  simp only [el, er, eb]
  have e0 : ∀ k : Fin 1024, val_main_v21 (F := Ideal) x2 (ix2 v k)
      = x2 (ix2 (⟨20000 + v.val, by have := v.isLt; omega⟩ : Fin 50000) k) := fun k => by
    rw [val_main_v21_apply]
    congr 1
    funext a
    refine Fin.ext ?_
    match a with
    | ⟨0, _⟩ => rfl
    | ⟨1, _⟩ => rfl
  simp only [e0]
  rfl

/-- The row maximum. -/
theorem t1_max (b : Fin 4) (s : Fin 1024) :
    val_main_call4_v2 (F := Ideal) x0 x2 x4 (ix2 b s) = Spec.rmax (Spec.tail1Logit x0 x2 x4 b s) := by
  rw [val_main_call4_v2_apply, val_main_call4_v1_apply, val_main_call4_cst_0_apply, Ideal.ofBits_def, ofBits_neg_inf_f32,
    Ideal.maximumf_def]
  unfold val_main_call4_v0
  rw [rowmax_apply (val_main_v25 (F := Ideal) x0 x2 x4) (val_main_call4_cst (F := Ideal)) _ (by decide) Gen.h_S_
    (by rw [val_main_call4_cst_apply, Ideal.ofBits_def, ofBits_neg_inf_f32]) (ix2 b s)]
  have e : (fun v : Fin 20000 => val_main_v25 (F := Ideal) x0 x2 x4 (ix3 b s v)) = Spec.tail1Logit x0 x2 x4 b s :=
    funext fun v => t1_logit x0 x2 x4 b s v
  show max ⊥ (Spec.rmax (fun v : Fin 20000 => val_main_v25 (F := Ideal) x0 x2 x4 (ix3 b s v))) = _
  rw [e]
  exact max_eq_right bot_le

/-- The shifted logits. -/
theorem t1_shift (b : Fin 4) (s : Fin 1024) (v : Fin 20000) :
    val_main_call4_v5 (F := Ideal) x0 x2 x4 (ix3 b s v) = Spec.tail1Logit x0 x2 x4 b s v - Spec.rmax (Spec.tail1Logit x0 x2 x4 b s) := by
  rw [val_main_call4_v5_apply, val_main_call4_v4_apply, val_main_call4_v3_apply, Ideal.subf_def, t1_logit]
  have e : idx_main_call4_v3 (idx_main_call4_v4 (ix3 b s v)) = ix2 b s := funext fun a => Fin.ext (by
    match a with
    | ⟨0, _⟩ => rfl
    | ⟨1, _⟩ => rfl)
  rw [e, t1_max]

/-- The sum of the shifted exponentials, from 0. -/
theorem t1_sum (b : Fin 4) (s : Fin 1024) :
    val_main_call4_v7 (F := Ideal) x0 x2 x4 (ix2 b s) = Spec.rsum (Spec.tail1Logit x0 x2 x4 b s) := by
  rw [val_main_call4_v7_apply, val_main_call4_cst_1_apply, Ideal.ofBits_def, Ideal.ofBits_zero_f32, zero_add]
  unfold Spec.rsum
  refine Finset.sum_congr rfl fun k _ => ?_
  have e : idx_main_call4_v7 (ix2 b s) k = ix3 b s k := funext fun a => Fin.ext (by
    match a with
    | ⟨0, _⟩ => rfl
    | ⟨1, _⟩ => rfl
    | ⟨2, _⟩ => rfl)
  rw [e, val_main_call4_v6_apply, Ideal.hostUnary_exp_def, t1_shift]

/-- log_softmax of the group's logits is the specification's log-probability. -/
theorem t1_logprob (b : Fin 4) (s : Fin 1024) (v : Fin 20000) :
    val_main_v26 (F := Ideal) x0 x2 x4 (ix3 b s v) = Spec.logprob (Spec.tail1Logit x0 x2 x4 b s) v := by
  rw [val_main_v26_apply, val_main_call4_v10_apply, val_main_call4_v9_apply, val_main_call4_v8_apply, Ideal.subf_def,
    Ideal.hostUnary_log_def, t1_shift]
  have e : idx_main_call4_v8 (idx_main_call4_v10 (ix3 b s v)) = ix2 b s := funext fun a => Fin.ext (by
    match a with
    | ⟨0, _⟩ => rfl
    | ⟨1, _⟩ => rfl)
  rw [e, t1_sum]
  rfl

/-- clip(labels - 20000, 0, 19999) is the clipped offset's word. -/
theorem t1_clip (b : Fin 4) (s : Fin 1024) :
    val_main_v29 (F := Ideal) x1 (ix2 b s) = BitVec.ofNat 32 (Spec.clipNat (x1 (ix2 b s) - 20000#32) 19999) := by
  rw [val_main_v29_apply, val_main_call5_v4_apply, val_main_call5_v3_apply, val_main_c_6_apply, val_main_call5_v2_apply,
    val_main_call5_v1_apply, val_main_call5_v0_apply, val_main_c_5_apply, val_main_v28_apply, val_main_v27_apply,
    val_main_c_4_apply]
  exact clip_word (x1 (ix2 b s) - 20000#32) 19999 (by norm_num)

/-- The start index the gather reads: the clipped offset (the negative-index wrap is not taken). -/
theorem t1_start (b : Fin 4) (s : Fin 1024) :
    val_main_call6_v5 (F := Ideal) x1 (ix4 b s (0 : Fin 1) (0 : Fin 1))
      = BitVec.ofNat 32 (Spec.clipNat (x1 (ix2 b s) - 20000#32) 19999) := by
  have hz : ((0 : Fin 1) : ℕ) = 0 := rfl
  have e5 : idx_main_call6_v5 (ix4 b s (0 : Fin 1) (0 : Fin 1)) = ix3 b s (0 : Fin 1) := funext fun a => Fin.ext (by
    match a with
    | ⟨0, _⟩ =>
      show (((b.val * 1024 + s.val) * 1 + ((0 : Fin 1) : ℕ)) * 1 + ((0 : Fin 1) : ℕ)) / 1024 = b.val
      have := s.isLt; omega
    | ⟨1, _⟩ =>
      show (((b.val * 1024 + s.val) * 1 + ((0 : Fin 1) : ℕ)) * 1 + ((0 : Fin 1) : ℕ)) / 1 % 1024 = s.val
      have := s.isLt; omega
    | ⟨2, _⟩ => rfl)
  have e11 : idx_main_v30 (ix3 b s (0 : Fin 1)) = ix2 b s := funext fun a => Fin.ext (by
    match a with
    | ⟨0, _⟩ => rfl
    | ⟨1, _⟩ => rfl)
  have hc := Spec.clipNat_le (x1 (ix2 b s) - 20000#32) 19999
  rw [val_main_call6_v5_apply, e5, val_main_call6_v4_apply, val_main_call6_v1_apply, val_main_call6_v0_apply,
    val_main_call6_c_apply, val_main_v30_apply, e11, t1_clip]
  have hn : ¬ IntOp.cmpi .slt (BitVec.ofNat 32 (Spec.clipNat (x1 (ix2 b s) - 20000#32) 19999)) (BitVec.ofNat 32 0) = 1#1 := fun h => by
    have := (slt_const_iff _ 0 (by norm_num)).mp h
    rw [toInt_ofNat_lt _ (by omega)] at this
    omega
  rw [show (0#32 : BitVec 32) = BitVec.ofNat 32 0 from rfl, eq_zero_of_ne_one hn, select_zero]

/-- The gather's range guard holds: the start index lies in [0, 19999]. -/
theorem t1_guard (b : Fin 4) (s : Fin 1024) :
    val_main_call6_v12 (F := Ideal) x1 (ix3 b s (0 : Fin 1)) = 1#1 := by
  have hc := Spec.clipNat_le (x1 (ix2 b s) - 20000#32) 19999
  unfold val_main_call6_v12
  rw [andreduce_apply (val_main_call6_v11 (F := Ideal) x1) (val_main_call6_c_3 (F := Ideal)) _ (by decide) Gen.h_S_
    (by rw [val_main_call6_c_3_apply]) (ix3 b s (0 : Fin 1))]
  show val_main_call6_v11 (F := Ideal) x1 (ix4 b s (0 : Fin 1) (0 : Fin 1)) = 1#1
  rw [val_main_call6_v11_apply, val_main_call6_v7_apply, val_main_call6_v10_apply, val_main_call6_v6_apply,
    val_main_call6_c_2_apply, val_main_call6_v9_apply, val_main_call6_v8_apply, val_main_call6_c_1_apply, t1_start]
  refine (andi_eq_one_iff _ _).mpr ⟨?_, ?_⟩
  · refine (sge_const_iff _ 0 (by norm_num)).mpr ?_
    rw [toInt_ofNat_lt _ (by omega)]; omega
  · refine (sle_const_iff _ 19999 (by norm_num)).mpr ?_
    rw [toInt_ofNat_lt _ (by omega)]; omega

/-- The gather reads the log-probability of the clipped offset's column. -/
theorem t1_gather (b : Fin 4) (s : Fin 1024) :
    val_main_call6_v13 (F := Ideal) x0 x1 x2 x4 (ix3 b s (0 : Fin 1))
      = Spec.logprob (Spec.tail1Logit x0 x2 x4 b s) (Spec.pick1 (x1 (ix2 b s))) := by
  have hc := Spec.clipNat_le (x1 (ix2 b s) - 20000#32) 19999
  unfold val_main_call6_v13
  show Host.gather (rowDims 4 1024 20000 _) (val_main_v26 (F := Ideal) x0 x2 x4) (val_main_call6_v5 (F := Ideal) x1)
      (ix3 b s (0 : Fin 1)) = _
  rw [gather_row_apply (by norm_num)]
  show val_main_v26 (F := Ideal) x0 x2 x4 (ix3 b s ⟨min (val_main_call6_v5 (F := Ideal) x1
      (ix4 b s (0 : Fin 1) (0 : Fin 1))).toInt.toNat (20000 - 1), _⟩) = _
  have hv : min (val_main_call6_v5 (F := Ideal) x1 (ix4 b s (0 : Fin 1) (0 : Fin 1))).toInt.toNat (20000 - 1)
      = Spec.clipNat (x1 (ix2 b s) - 20000#32) 19999 := by
    rw [t1_start, toInt_ofNat_lt _ (by omega), Int.toNat_natCast]
    omega
  have hi : (⟨min (val_main_call6_v5 (F := Ideal) x1 (ix4 b s (0 : Fin 1) (0 : Fin 1))).toInt.toNat (20000 - 1), by omega⟩ : Fin 20000)
      = Spec.pick1 (x1 (ix2 b s)) := Fin.ext hv
  rw [hi, t1_logprob]

/-- take_along_axis then the reshape: the log-probability of the clipped offset's column. -/
theorem t1_take (b : Fin 4) (s : Fin 1024) :
    val_main_v32 (F := Ideal) x0 x1 x2 x4 (ix2 b s) = Spec.logprob (Spec.tail1Logit x0 x2 x4 b s) (Spec.pick1 (x1 (ix2 b s))) := by
  have e13 : idx_main_v32 (ix2 b s) = ix3 b s (0 : Fin 1) := funext fun a => Fin.ext (by
    match a with
    | ⟨0, _⟩ =>
      show (b.val * 1024 + s.val) / 1024 = b.val
      have := s.isLt; omega
    | ⟨1, _⟩ =>
      show (b.val * 1024 + s.val) / 1 % 1024 = s.val
      have := s.isLt; omega
    | ⟨2, _⟩ => rfl)
  rw [val_main_v32_apply, e13, val_main_v31_apply, t1_guard, select_one, t1_gather]

open Classical in
/-- The group's term of the loss: the masked negated sum of the cluster column's head log-probability and the group's. -/
theorem t1_term (b : Fin 4) (s : Fin 1024) :
    val_main_v37 (F := Ideal) x0 x1 x2 x3 x4 x6 x7 (ix2 b s)
      = if Spec.isTail1 (x1 (ix2 b s)) then
          -(Spec.logprob (Spec.headLogit x0 x2 x3 x6 x7 b s) ⟨20000, by omega⟩ + Spec.logprob (Spec.tail1Logit x0 x2 x4 b s) (Spec.pick1 (x1 (ix2 b s))))
        else 0 := by
  have ecol : idx_main_v33 (idx_main_v34 (ix2 b s)) = ix3 b s (⟨20000, by omega⟩ : Fin 20002) := funext fun a => Fin.ext (by
    match a with
    | ⟨0, _⟩ =>
      show (b.val * 1024 + s.val) / 1024 = b.val
      have := s.isLt; omega
    | ⟨1, _⟩ =>
      show (b.val * 1024 + s.val) / 1 % 1024 = s.val
      have := s.isLt; omega
    | ⟨2, _⟩ => rfl)
  rw [val_main_v37_apply, val_main_v20_apply, val_main_v17_apply, val_main_v16_apply, val_main_c_2_apply,
    val_main_v19_apply, val_main_v18_apply, val_main_c_3_apply]
  by_cases h : Spec.isTail1 (x1 (ix2 b s))
  · rw [if_pos h, (mask_tail1 _).mpr h, select_one, val_main_v36_apply, Ideal.hostNegf_def, Ideal.negf_def,
      val_main_v35_apply, Ideal.addf_def, val_main_v34_apply, val_main_v33_apply, ecol, head_logprob, t1_take]
  · rw [if_neg h, eq_zero_of_ne_one (fun hh => h ((mask_tail1 _).mp hh)), select_zero,
      val_main_call7_v1_apply, val_main_call7_v0_apply, val_main_cst_7_apply, Ideal.ofBits_def, Ideal.ofBits_zero_f32]

end Tail1

/-! ## The second tail group: rows 40000 … 49999 -/

section Tail2
variable (x0 : Spec.A0) (x1 : Spec.A1) (x2 : Spec.A2) (x3 : Spec.A3) (x5 : Spec.A5) (x6 : Spec.A6) (x7 : Spec.A7)

/-- The group's logits: the product with the table's rows 40000 … plus the bias. -/
theorem t2_logit (b : Fin 4) (s : Fin 1024) (v : Fin 10000) :
    val_main_v48 (F := Ideal) x0 x2 x5 (ix3 b s v) = Spec.tail2Logit x0 x2 x5 b s v := by
  rw [val_main_v48_apply, val_main_v45_apply, val_main_v47_apply, val_main_v46_apply, Ideal.addf_def]
  have el : ∀ k : Fin 1024, lidx_main_v45 (ix3 b s v) k = ix3 b s k := fun k => funext fun a => Fin.ext (by
    match a with
    | ⟨0, _⟩ => rfl
    | ⟨1, _⟩ => rfl
    | ⟨2, _⟩ => rfl)
  have er : ∀ k : Fin 1024, ridx_main_v45 (ix3 b s v) k = ix2 v k := fun k => funext fun a => Fin.ext (by
    match a with
    | ⟨0, _⟩ => rfl
    | ⟨1, _⟩ => rfl)
  have eb : idx_main_v46 (idx_main_v47 (ix3 b s v)) = ix1 v := funext fun a => Fin.ext (by
    match a with
    | ⟨0, _⟩ => rfl)
  simp only [el, er, eb]
  have e0 : ∀ k : Fin 1024, val_main_v44 (F := Ideal) x2 (ix2 v k)
      = x2 (ix2 (⟨40000 + v.val, by have := v.isLt; omega⟩ : Fin 50000) k) := fun k => by
    rw [val_main_v44_apply]
    congr 1
    funext a
    refine Fin.ext ?_
    match a with
    | ⟨0, _⟩ => rfl
    | ⟨1, _⟩ => rfl
  simp only [e0]
  rfl

/-- The row maximum. -/
theorem t2_max (b : Fin 4) (s : Fin 1024) :
    val_main_call8_v2 (F := Ideal) x0 x2 x5 (ix2 b s) = Spec.rmax (Spec.tail2Logit x0 x2 x5 b s) := by
  rw [val_main_call8_v2_apply, val_main_call8_v1_apply, val_main_call8_cst_0_apply, Ideal.ofBits_def, ofBits_neg_inf_f32,
    Ideal.maximumf_def]
  unfold val_main_call8_v0
  rw [rowmax_apply (val_main_v48 (F := Ideal) x0 x2 x5) (val_main_call8_cst (F := Ideal)) _ (by decide) Gen.h_S_
    (by rw [val_main_call8_cst_apply, Ideal.ofBits_def, ofBits_neg_inf_f32]) (ix2 b s)]
  have e : (fun v : Fin 10000 => val_main_v48 (F := Ideal) x0 x2 x5 (ix3 b s v)) = Spec.tail2Logit x0 x2 x5 b s :=
    funext fun v => t2_logit x0 x2 x5 b s v
  show max ⊥ (Spec.rmax (fun v : Fin 10000 => val_main_v48 (F := Ideal) x0 x2 x5 (ix3 b s v))) = _
  rw [e]
  exact max_eq_right bot_le

/-- The shifted logits. -/
theorem t2_shift (b : Fin 4) (s : Fin 1024) (v : Fin 10000) :
    val_main_call8_v5 (F := Ideal) x0 x2 x5 (ix3 b s v) = Spec.tail2Logit x0 x2 x5 b s v - Spec.rmax (Spec.tail2Logit x0 x2 x5 b s) := by
  rw [val_main_call8_v5_apply, val_main_call8_v4_apply, val_main_call8_v3_apply, Ideal.subf_def, t2_logit]
  have e : idx_main_call8_v3 (idx_main_call8_v4 (ix3 b s v)) = ix2 b s := funext fun a => Fin.ext (by
    match a with
    | ⟨0, _⟩ => rfl
    | ⟨1, _⟩ => rfl)
  rw [e, t2_max]

/-- The sum of the shifted exponentials, from 0. -/
theorem t2_sum (b : Fin 4) (s : Fin 1024) :
    val_main_call8_v7 (F := Ideal) x0 x2 x5 (ix2 b s) = Spec.rsum (Spec.tail2Logit x0 x2 x5 b s) := by
  rw [val_main_call8_v7_apply, val_main_call8_cst_1_apply, Ideal.ofBits_def, Ideal.ofBits_zero_f32, zero_add]
  unfold Spec.rsum
  refine Finset.sum_congr rfl fun k _ => ?_
  have e : idx_main_call8_v7 (ix2 b s) k = ix3 b s k := funext fun a => Fin.ext (by
    match a with
    | ⟨0, _⟩ => rfl
    | ⟨1, _⟩ => rfl
    | ⟨2, _⟩ => rfl)
  rw [e, val_main_call8_v6_apply, Ideal.hostUnary_exp_def, t2_shift]

/-- log_softmax of the group's logits is the specification's log-probability. -/
theorem t2_logprob (b : Fin 4) (s : Fin 1024) (v : Fin 10000) :
    val_main_v49 (F := Ideal) x0 x2 x5 (ix3 b s v) = Spec.logprob (Spec.tail2Logit x0 x2 x5 b s) v := by
  rw [val_main_v49_apply, val_main_call8_v10_apply, val_main_call8_v9_apply, val_main_call8_v8_apply, Ideal.subf_def,
    Ideal.hostUnary_log_def, t2_shift]
  have e : idx_main_call8_v8 (idx_main_call8_v10 (ix3 b s v)) = ix2 b s := funext fun a => Fin.ext (by
    match a with
    | ⟨0, _⟩ => rfl
    | ⟨1, _⟩ => rfl)
  rw [e, t2_sum]
  rfl

/-- clip(labels - 40000, 0, 9999) is the clipped offset's word. -/
theorem t2_clip (b : Fin 4) (s : Fin 1024) :
    val_main_v52 (F := Ideal) x1 (ix2 b s) = BitVec.ofNat 32 (Spec.clipNat (x1 (ix2 b s) - 40000#32) 9999) := by
  rw [val_main_v52_apply, val_main_call9_v4_apply, val_main_call9_v3_apply, val_main_c_12_apply, val_main_call9_v2_apply,
    val_main_call9_v1_apply, val_main_call9_v0_apply, val_main_c_11_apply, val_main_v51_apply, val_main_v50_apply,
    val_main_c_10_apply]
  exact clip_word (x1 (ix2 b s) - 40000#32) 9999 (by norm_num)

/-- The start index the gather reads: the clipped offset (the negative-index wrap is not taken). -/
theorem t2_start (b : Fin 4) (s : Fin 1024) :
    val_main_call10_v5 (F := Ideal) x1 (ix4 b s (0 : Fin 1) (0 : Fin 1))
      = BitVec.ofNat 32 (Spec.clipNat (x1 (ix2 b s) - 40000#32) 9999) := by
  have hz : ((0 : Fin 1) : ℕ) = 0 := rfl
  have e5 : idx_main_call10_v5 (ix4 b s (0 : Fin 1) (0 : Fin 1)) = ix3 b s (0 : Fin 1) := funext fun a => Fin.ext (by
    match a with
    | ⟨0, _⟩ =>
      show (((b.val * 1024 + s.val) * 1 + ((0 : Fin 1) : ℕ)) * 1 + ((0 : Fin 1) : ℕ)) / 1024 = b.val
      have := s.isLt; omega
    | ⟨1, _⟩ =>
      show (((b.val * 1024 + s.val) * 1 + ((0 : Fin 1) : ℕ)) * 1 + ((0 : Fin 1) : ℕ)) / 1 % 1024 = s.val
      have := s.isLt; omega
    | ⟨2, _⟩ => rfl)
  have e11 : idx_main_v53 (ix3 b s (0 : Fin 1)) = ix2 b s := funext fun a => Fin.ext (by
    match a with
    | ⟨0, _⟩ => rfl
    | ⟨1, _⟩ => rfl)
  have hc := Spec.clipNat_le (x1 (ix2 b s) - 40000#32) 9999
  rw [val_main_call10_v5_apply, e5, val_main_call10_v4_apply, val_main_call10_v1_apply, val_main_call10_v0_apply,
    val_main_call10_c_apply, val_main_v53_apply, e11, t2_clip]
  have hn : ¬ IntOp.cmpi .slt (BitVec.ofNat 32 (Spec.clipNat (x1 (ix2 b s) - 40000#32) 9999)) (BitVec.ofNat 32 0) = 1#1 := fun h => by
    have := (slt_const_iff _ 0 (by norm_num)).mp h
    rw [toInt_ofNat_lt _ (by omega)] at this
    omega
  rw [show (0#32 : BitVec 32) = BitVec.ofNat 32 0 from rfl, eq_zero_of_ne_one hn, select_zero]

/-- The gather's range guard holds: the start index lies in [0, 9999]. -/
theorem t2_guard (b : Fin 4) (s : Fin 1024) :
    val_main_call10_v12 (F := Ideal) x1 (ix3 b s (0 : Fin 1)) = 1#1 := by
  have hc := Spec.clipNat_le (x1 (ix2 b s) - 40000#32) 9999
  unfold val_main_call10_v12
  rw [andreduce_apply (val_main_call10_v11 (F := Ideal) x1) (val_main_call10_c_3 (F := Ideal)) _ (by decide) Gen.h_S_
    (by rw [val_main_call10_c_3_apply]) (ix3 b s (0 : Fin 1))]
  show val_main_call10_v11 (F := Ideal) x1 (ix4 b s (0 : Fin 1) (0 : Fin 1)) = 1#1
  rw [val_main_call10_v11_apply, val_main_call10_v7_apply, val_main_call10_v10_apply, val_main_call10_v6_apply,
    val_main_call10_c_2_apply, val_main_call10_v9_apply, val_main_call10_v8_apply, val_main_call10_c_1_apply, t2_start]
  refine (andi_eq_one_iff _ _).mpr ⟨?_, ?_⟩
  · refine (sge_const_iff _ 0 (by norm_num)).mpr ?_
    rw [toInt_ofNat_lt _ (by omega)]; omega
  · refine (sle_const_iff _ 9999 (by norm_num)).mpr ?_
    rw [toInt_ofNat_lt _ (by omega)]; omega

/-- The gather reads the log-probability of the clipped offset's column. -/
theorem t2_gather (b : Fin 4) (s : Fin 1024) :
    val_main_call10_v13 (F := Ideal) x0 x1 x2 x5 (ix3 b s (0 : Fin 1))
      = Spec.logprob (Spec.tail2Logit x0 x2 x5 b s) (Spec.pick2 (x1 (ix2 b s))) := by
  have hc := Spec.clipNat_le (x1 (ix2 b s) - 40000#32) 9999
  unfold val_main_call10_v13
  show Host.gather (rowDims 4 1024 10000 _) (val_main_v49 (F := Ideal) x0 x2 x5) (val_main_call10_v5 (F := Ideal) x1)
      (ix3 b s (0 : Fin 1)) = _
  rw [gather_row_apply (by norm_num)]
  show val_main_v49 (F := Ideal) x0 x2 x5 (ix3 b s ⟨min (val_main_call10_v5 (F := Ideal) x1
      (ix4 b s (0 : Fin 1) (0 : Fin 1))).toInt.toNat (10000 - 1), _⟩) = _
  have hv : min (val_main_call10_v5 (F := Ideal) x1 (ix4 b s (0 : Fin 1) (0 : Fin 1))).toInt.toNat (10000 - 1)
      = Spec.clipNat (x1 (ix2 b s) - 40000#32) 9999 := by
    rw [t2_start, toInt_ofNat_lt _ (by omega), Int.toNat_natCast]
    omega
  have hi : (⟨min (val_main_call10_v5 (F := Ideal) x1 (ix4 b s (0 : Fin 1) (0 : Fin 1))).toInt.toNat (10000 - 1), by omega⟩ : Fin 10000)
      = Spec.pick2 (x1 (ix2 b s)) := Fin.ext hv
  rw [hi, t2_logprob]

/-- take_along_axis then the reshape: the log-probability of the clipped offset's column. -/
theorem t2_take (b : Fin 4) (s : Fin 1024) :
    val_main_v55 (F := Ideal) x0 x1 x2 x5 (ix2 b s) = Spec.logprob (Spec.tail2Logit x0 x2 x5 b s) (Spec.pick2 (x1 (ix2 b s))) := by
  have e13 : idx_main_v55 (ix2 b s) = ix3 b s (0 : Fin 1) := funext fun a => Fin.ext (by
    match a with
    | ⟨0, _⟩ =>
      show (b.val * 1024 + s.val) / 1024 = b.val
      have := s.isLt; omega
    | ⟨1, _⟩ =>
      show (b.val * 1024 + s.val) / 1 % 1024 = s.val
      have := s.isLt; omega
    | ⟨2, _⟩ => rfl)
  rw [val_main_v55_apply, e13, val_main_v54_apply, t2_guard, select_one, t2_gather]

open Classical in
/-- The group's term of the loss: the masked negated sum of the cluster column's head log-probability and the group's. -/
theorem t2_term (b : Fin 4) (s : Fin 1024) :
    val_main_v60 (F := Ideal) x0 x1 x2 x3 x5 x6 x7 (ix2 b s)
      = if Spec.isTail2 (x1 (ix2 b s)) then
          -(Spec.logprob (Spec.headLogit x0 x2 x3 x6 x7 b s) ⟨20001, by omega⟩ + Spec.logprob (Spec.tail2Logit x0 x2 x5 b s) (Spec.pick2 (x1 (ix2 b s))))
        else 0 := by
  have ecol : idx_main_v56 (idx_main_v57 (ix2 b s)) = ix3 b s (⟨20001, by omega⟩ : Fin 20002) := funext fun a => Fin.ext (by
    match a with
    | ⟨0, _⟩ =>
      show (b.val * 1024 + s.val) / 1024 = b.val
      have := s.isLt; omega
    | ⟨1, _⟩ =>
      show (b.val * 1024 + s.val) / 1 % 1024 = s.val
      have := s.isLt; omega
    | ⟨2, _⟩ => rfl)
  rw [val_main_v60_apply, val_main_v43_apply, val_main_v40_apply, val_main_v39_apply, val_main_c_8_apply,
    val_main_v42_apply, val_main_v41_apply, val_main_c_9_apply]
  by_cases h : Spec.isTail2 (x1 (ix2 b s))
  · rw [if_pos h, (mask_tail2 _).mpr h, select_one, val_main_v59_apply, Ideal.hostNegf_def, Ideal.negf_def,
      val_main_v58_apply, Ideal.addf_def, val_main_v57_apply, val_main_v56_apply, ecol, head_logprob, t2_take]
  · rw [if_neg h, eq_zero_of_ne_one (fun hh => h ((mask_tail2 _).mp hh)), select_zero,
      val_main_call11_v1_apply, val_main_call11_v0_apply, val_main_cst_13_apply, Ideal.ofBits_def, Ideal.ofBits_zero_f32]

end Tail2

/-- THE REFERENCE'S VALUE: the last stage of the reference, as a function of the arguments, is the specification. -/
theorem ref_value (x0 : Spec.A0) (x1 : Spec.A1) (x2 : Spec.A2) (x3 x4 : Spec.A3) (x5 : Spec.A5) (x6 : Spec.A6) (x7 : Spec.A7) :
    (val_main_v61 (F := Ideal) x0 x1 x2 x3 x4 x5 x6 x7 : (⟨2, ![4, 1024]⟩ : Shape).Idx → EReal)
      = Spec.G x0 x1 x2 x3 x4 x5 x6 x7 := by
  funext j
  obtain ⟨b, s, rfl⟩ : ∃ b s, j = ix2 b s := ⟨j 0, j 1, eq_ix2 j⟩
  rw [val_main_v61_apply, val_main_v38_apply, Ideal.addf_def, Ideal.addf_def, head_term, t1_term, t2_term]
  rfl

end Cert.ReferenceIdeal.RefValue

end
-- ==== Proof.lean ====
/-
  Adaptive-softmax cross entropy (a 20000-word head group with two cluster columns, and two tail groups of 20000 and 10000
  words) computed by three vocabulary sweeps with an online softmax, against the plain log_softmax reference.

  Each sweep walks a token half's rows over the vocabulary tiles, keeping per row the running maximum m of the valid logits,
  the running sum l of exp (logit - m) rescaled whenever m grows, and the logit at the row's target column; the last tile
  writes (m, l) and the picked logit out. Over the extended reals with every input finite, after the last tile m is the
  row's maximum, l is the sum of exp (logit - m) over the valid columns (exp (a - m1) * exp (m1 - m2) = exp (a - m2) on
  reals; the first tile starts from m = -inf, l = 0, where exp (-inf) = 0), and the picked value is the logit at the clipped
  label. The host then forms picked - (log l + m), which for real values is the reference's (logit - m) - log l, and both
  programs combine the same three masked terms. The padding columns never enter: the validity mask excludes them from the
  maximum and the sums.

  The frames: each sweep is a pipelined region whose body is run once per control case (first tile: reset then update;
  middle tile: update; last tile: update and copy out); the scratch contents after each grid point are named by recursion on
  the point, and the three regions chain through the host operations between them. The word-level program's frame is the
  same text over its own namespace. The idealization rewrote nothing, so `preserves` is trivial.
-/
import proofs.«400642_j36009005809963_2_alg».proof.Defs
import proofs.«400642_j36009005809963_2_alg».proof.Proof.Gen.Kernel
import proofs.«400642_j36009005809963_2_alg».proof.Proof.Gen.KernelIdeal
import proofs.«400642_j36009005809963_2_alg».proof.Proof.Gen.ReferenceIdeal
import proofs.«400642_j36009005809963_2_alg».proof.Proof.Gen.Pre_finite_inputs
import proofs.«400642_j36009005809963_2_alg».proof.Proof.Ref.Run
import proofs.«400642_j36009005809963_2_alg».proof.Proof.Ref.Read
import proofs.«400642_j36009005809963_2_alg».proof.Proof.K.Run
import proofs.«400642_j36009005809963_2_alg».proof.Proof.KI.Run
import proofs.«400642_j36009005809963_2_alg».proof.Proof.KV.HostPost
import proofs.«400642_j36009005809963_2_alg».proof.Proof.KV.RealArgs
import proofs.«400642_j36009005809963_2_alg».proof.Proof.Ref.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference runs: its generated run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification of the (agreeing, finite) arguments in their result. -/
theorem algebraic : Cert.algebraic_KernelIdeal_ReferenceIdeal := by
  intro m ρ m' ρ' hpre hagree
  refine ⟨fun c => Cert.KernelIdeal.Gen.V19 m (Cert.KernelIdeal.Hand.outsOf m) c Cert.KernelIdeal.main_v85,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.ReferenceIdeal.RefValue.ref_value _ _ _ _ _ _ _ _).trans
    (Cert.KernelIdeal.Hand.kernel_value m c (Cert.KernelIdeal.Hand.realArgs_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
